-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Kernel.lean ====
abbrev S512x256 : Shape := ⟨2, ![512, 256]⟩
abbrev S1x256 : Shape := ⟨2, ![1, 256]⟩
abbrev S3x1x256 : Shape := ⟨3, ![3, 1, 256]⟩
abbrev S3 : Shape := ⟨1, ![3]⟩
abbrev S_ : Shape := ⟨0, ![]⟩
abbrev S256 : Shape := ⟨1, ![256]⟩
abbrev S1 : Shape := ⟨1, ![1]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S3x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_16 : BitVec 32 := 2#32
  let v23 : BitVec 32 := Scalar.addi v2 c2_i32_16
  let c4_i32_17 : BitVec 32 := 4#32
  let v24 : BitVec 32 := Scalar.remsi v23 c4_i32_17
  let c1_i32_21 : BitVec 32 := 1#32
  let v25 : BitVec 32 := Scalar.muli v24 c1_i32_21
  let v26 : BitVec 32 := Scalar.addi c0_i32_22 v25
  v26.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v33 : BitVec 32 := Scalar.addi v2 c1_i32_25
  let c4_i32_26 : BitVec 32 := 4#32
  let v34 : BitVec 32 := Scalar.remsi v33 c4_i32_26
  let c1_i32_30 : BitVec 32 := 1#32
  let v35 : BitVec 32 := Scalar.muli v34 c1_i32_30
  let v36 : BitVec 32 := Scalar.addi c0_i32_31 v35
  v36.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v43 : BitVec 32 := Scalar.addi v2 c3_i32_34
  let c4_i32_35 : BitVec 32 := 4#32
  let v44 : BitVec 32 := Scalar.remsi v43 c4_i32_35
  let c1_i32_39 : BitVec 32 := 1#32
  let v45 : BitVec 32 := Scalar.muli v44 c1_i32_39
  let v46 : BitVec 32 := Scalar.addi c0_i32_40 v45
  v46.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hamt_3 : (3#32 : BitVec 32).msb = false
  inb_S3_S1_1 : ∀ a, (![1] : Fin 1 → Nat) a + S1.size a ≤ S3.size a
  squeezes_S1_S_ : S1.Squeezes S_
  inb_S3x1x256_S1x1x256_1_0_0 : ∀ a, (![1, 0, 0] : Fin 3 → Nat) a + S1x1x256.size a ≤ S3x1x256.size a
  squeezes_S1x1x256_S1x256 : S1x1x256.Squeezes S1x256
  inb_S3_S1_0 : ∀ a, (![0] : Fin 1 → Nat) a + S1.size a ≤ S3.size a
  inb_S3x1x256_S1x1x256_0_0_0 : ∀ a, (![0, 0, 0] : Fin 3 → Nat) a + S1x1x256.size a ≤ S3x1x256.size a
  inb_S3_S1_2 : ∀ a, (![2] : Fin 1 → Nat) a + S1.size a ≤ S3.size a
  inb_S3x1x256_S1x1x256_2_0_0 : ∀ a, (![2, 0, 0] : Fin 3 → Nat) a + S1x1x256.size a ≤ S3x1x256.size a
  h_S1x1x256 : 0 < S1x1x256.numel
  shapeCasts_S1x1x256_S1x256 : S1x1x256.ShapeCasts S1x256
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S256, .f32⟩
  | .hbm, ⟨3, _⟩ => ⟨S1x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x256_S256_d0 : S2048x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Spec.lean ====
/-
  What the kernel computes, as pure functions of the devices' blocks, and the ring of four devices.

  Each device sums the 512 rows of its own block column by column (a row of 256 sums), sends that row to the
  other three devices, and adds its own row to the three rows it receives — those of the devices one, three
  and two places before it on the ring, in that order. A received row sits in one of three one-row slots of a
  [3, 1, 256] buffer, so it is read back as a [1, 1, 256] value and squeezed to a row again.
-/
import proofs.«900608_g7700000000000609_dist_sum_ax0_shard0_i_m512_n256_v7x_i4_f32_1_alg».proof.Proof.Gen.KernelIdeal.Skeleton
import Idealize.ShloMosaic.Lib.Pipeline.Value

noncomputable section

namespace Cert.KernelIdeal.Spec

open Idealize.ShloMosaic Cert.KernelIdeal Cert.KernelIdeal.Gen

variable {F : FTy → Type} [FloatOps F]

/-! ## The ring -/

/-- The device `k + 1` places after `c`: the one `c` sends its row to through slot `k`. -/
def fwd (c : Dev nD) (k : Fin 3) : Dev nD := ⟨(c.val + (k.val + 1)) % 4, Nat.mod_lt _ (by decide)⟩
/-- The device `k + 1` places before `c`: the one whose row arrives in `c`'s slot `k`. -/
def back (c : Dev nD) (k : Fin 3) : Dev nD := ⟨(c.val + (3 - k.val)) % 4, Nat.mod_lt _ (by decide)⟩

theorem back_fwd (c : Dev nD) (k : Fin 3) : back (fwd c k) k = c := by revert c k; decide
theorem fwd_back (c : Dev nD) (k : Fin 3) : fwd (back c k) k = c := by revert c k; decide
theorem fwd_ne (c : Dev nD) (k : Fin 3) : fwd c k ≠ c := by revert c k; decide
theorem fwd_inj (c : Dev nD) (k k' : Fin 3) (h : fwd c k = fwd c k') : k = k' := by revert c k k'; decide
theorem back_inj (c : Dev nD) (k k' : Fin 3) (h : back c k = back c k') : k = k' := by revert c k k'; decide
/-- Going `k + 1` places forward is going `3 - k` places back: slot `2 - k` of the ring read the other way. -/
theorem fwd_eq_back (c : Dev nD) (k : Fin 3) : fwd c k = back c ⟨2 - k.val, by omega⟩ := by revert c k; decide

/-! ## The values -/

theorem casts_row_slot : S1x256.ShapeCasts S1x1x256 := by decide

/-- A row as the one-row slot of the receive buffer that holds it. -/
def asSlot (v : Vec F S1x256 .f32) : Vec F S1x1x256 .f32 := shapeCast S1x1x256 v casts_row_slot

/-- The column sums of one block, as a row. -/
def colSum (x : Vec F S512x256 .f32) : Vec F S1x256 .f32 := k0_pay1 x

/-- What a device stores as its result, from its own block `x0` and the blocks `x1`, `x2`, `x3` of the devices one, two
    and three places before it: its own row, plus the rows read from slots 0, 2 and 1 in that order. -/
def total (x0 x1 x2 x3 : Vec F S512x256 .f32) : Vec F S1x256 .f32 :=
  k0_pay2 (colSum x0) (asSlot (colSum x1)) (asSlot (colSum x3)) (asSlot (colSum x2))

end Cert.KernelIdeal.Spec

end
-- ==== Proof.Proto.lean ====
/-
  The cross-device protocol of the four-device sum, written down once.

  Every device `c` does, in program order: one unit to the barrier semaphore of each of the other three devices
  (`fwd c 0`, `fwd c 1`, `fwd c 2`); the column sums of its block into its row buffer; a wait for three units on
  its own barrier semaphore; three copies of the row buffer, copy `k` into slot `k` of the receive buffer of `fwd c k`,
  each on its own pair of send and receive semaphores; the waits for the rows arriving in its slots 0 and 2, then slot 1;
  the sum of its own row and the three slots into its result block; the waits for its three sends.

  Cells and duties. A device has seven cells: its barrier cell, three send cells, three receive cells. Round 0 of a
  barrier cell has three duties of one unit, duty `j` paid by the device `back c j` (whose `fwd · j` is `c`); with it
  that device hands `c` the slot of its own receive buffer that `c` will write, and that the slot's receive cell is at
  round 0. A send or receive cell has one duty of a copy's credit: the send cell's gives the sender its share of the row
  buffer back, the receive cell's gives the owner its slot holding the sender's row.
-/
import proofs.«900608_g7700000000000609_dist_sum_ax0_shard0_i_m512_n256_v7x_i4_f32_1_alg».proof.Proof.Spec
import proofs.«900608_g7700000000000609_dist_sum_ax0_shard0_i_m512_n256_v7x_i4_f32_1_alg».proof.Proof.Gen.KernelIdeal
import proofs.«900608_g7700000000000609_dist_sum_ax0_shard0_i_m512_n256_v7x_i4_f32_1_alg».proof.Proof.Gen.KernelIdeal.Skeleton
import proofs.«900608_g7700000000000609_dist_sum_ax0_shard0_i_m512_n256_v7x_i4_f32_1_alg».proof.Proof.Gen.KernelIdeal.Launch
import proofs.«900608_g7700000000000609_dist_sum_ax0_shard0_i_m512_n256_v7x_i4_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices the body addresses -/

theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 1 := Fin.ext (k0_dev4_eq c)
theorem dev5_eq (c : Dev nD) : (⟨k0_dev5 c, k0_dev5_lt c⟩ : Dev nD) = fwd c 0 := Fin.ext (k0_dev5_eq c)
theorem dev6_eq (c : Dev nD) : (⟨k0_dev6 c, k0_dev6_lt c⟩ : Dev nD) = fwd c 2 := Fin.ext (k0_dev6_eq c)

/-- Duty `j` of a barrier cell comes with slot `rev j` of the payer's receive buffer. -/
def rev (j : Fin 3) : Fin 3 := ⟨2 - j.val, by omega⟩
theorem rev_rev (j : Fin 3) : rev (rev j) = j := by revert j; decide
theorem fwd_fwd_rev (c : Dev nD) (j : Fin 3) : fwd (fwd c j) (rev j) = c := by revert c j; decide
theorem fwd_rev_fwd (c : Dev nD) (k : Fin 3) : fwd (fwd c k) (rev k) = c := fwd_fwd_rev c k
theorem back_eq_fwd_rev (c : Dev nD) (j : Fin 3) : back c j = fwd c (rev j) := by revert c j; decide

/-- Going `k + 1` places on is a permutation of the devices. -/
def ring (k : Fin 3) : Dev nD ≃ Dev nD := ⟨fun c => fwd c k, fun c => back c k, fun c => back_fwd c k, fun c => fwd_back c k⟩

/-! ## The memrefs and cells -/

abbrev xM : Memref sig .tc .vmem S512x256 .f32 := Memref.whole cc0_stg0_0
abbrev oM : Memref sig .tc .vmem S1x256 .f32 := Memref.whole cc0_stg1_0
abbrev ownM : Memref sig .tc .vmem S1x256 .f32 := Memref.whole cc0_scratch0
abbrev commM : Memref sig .tc .vmem S3x1x256 .f32 := Memref.whole cc0_scratch1

/-- The three one-row slots of the receive buffer, as the body names them. -/
abbrev slotR : Fin 3 → Rect S3x1x256
  | 0 => Rect.unit (s := S3x1x256) ![0, 0, 0] S1x1x256.size inb_S3x1x256_S1x1x256_0_0_0
  | 1 => Rect.unit (s := S3x1x256) ![1, 0, 0] S1x1x256.size inb_S3x1x256_S1x1x256_1_0_0
  | 2 => Rect.unit (s := S3x1x256) ![2, 0, 0] S1x1x256.size inb_S3x1x256_S1x1x256_2_0_0
abbrev slotM : Fin 3 → Memref sig .tc .vmem S1x256 .f32
  | 0 => (commM.slice (Rect.unit (s := S3x1x256) ![0, 0, 0] S1x1x256.size inb_S3x1x256_S1x1x256_0_0_0) (fun _ => rfl)).squeeze S1x256 squeezes_S1x1x256_S1x256
  | 1 => (commM.slice (Rect.unit (s := S3x1x256) ![1, 0, 0] S1x1x256.size inb_S3x1x256_S1x1x256_1_0_0) (fun _ => rfl)).squeeze S1x256 squeezes_S1x1x256_S1x256
  | 2 => (commM.slice (Rect.unit (s := S3x1x256) ![2, 0, 0] S1x1x256.size inb_S3x1x256_S1x1x256_2_0_0) (fun _ => rfl)).squeeze S1x256 squeezes_S1x1x256_S1x256

/-- The runtime's barrier semaphore of collective id 0 (unscoped); the send and receive DMA semaphores (scoped scratch). -/
abbrev barS : Sem sig := (SemArray.scalar (sig.barrier 0 rfl) : Sems sig S_).sem
abbrev sendS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's OWN (scoped) semaphores, as the launch theorem indexes them: `(false, k)` send `k`, `(true, k)` receive `k`; -/
abbrev osem : Bool × Fin 3 → SemLoc sig
  | (false, k) => .dma (sendS k)
  | (true, k) => .dma (recvS k)
/-- all seven of the protocol's: `none` the barrier. -/
abbrev CK : Type := Option (Bool × Fin 3)
abbrev csem : CK → SemLoc sig
  | none => .reg barS
  | some bk => osem bk
abbrev kcell (ck : Dev nD × CK) : GSem nD τ sig := ((ck.1 : Thread nD τ), csem ck.2)

abbrev N : ℕ := (ownM : Memref sig .tc .vmem S1x256 .f32).view.dmaCredit
theorem N_pos : 0 < N := View.dmaCredit_pos _ (by decide)

/-! ## Contents -/

/-- Device `c`'s block of the argument, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- Its row of column sums. -/
def ownV (c : Dev nD) : (cc0_scratch0 : Ref sig .tc).ty.Contents (Elt F) := colSum (xblk m ρ c)

/-- A slot of device `c`'s receive buffer at contents `f`, whole share. -/
def slotPts (c : Dev nD) (k : Fin 3) (f : Buf (Elt F) ((slotM k).view.loc (c : Thread nD τ))) : sProp 𝕄 :=
  (slotM k).view.loc (c : Thread nD τ) ↦[(slotM k).view.set]{fullShare} f
/-- The row buffer at its sums, at a share. -/
def ownPts (q : PosShare TreeShare) (c : Dev nD) : sProp 𝕄 :=
  (ownM : Memref sig .tc .vmem S1x256 .f32).view.loc (c : Thread nD τ) ↦[(ownM : Memref sig .tc .vmem S1x256 .f32).view.set]{q} ownV m ρ c

/-- The share of the row buffer under copy `k`: three quarters go out, the fourth stays for the load. -/
def shr : Fin 3 → PosShare TreeShare
  | 0 => fullShare.left.left
  | 1 => fullShare.left.right
  | 2 => fullShare.right.left
def shrKeep : PosShare TreeShare := fullShare.right.right

omit [FloatOps F] in
instance slotPts_storable (c : Dev nD) (k : Fin 3) (f) : BI.Storable (upEmb : UEmb _ 𝕄) (slotPts (F := F) c k f) := by unfold slotPts; infer_instance
instance ownPts_storable (q : PosShare TreeShare) (c : Dev nD) : BI.Storable (upEmb : UEmb _ 𝕄) (ownPts (F := F) m ρ q c) := by unfold ownPts; infer_instance

/-! ## The schedule -/

/-- What sender `c` needs before copy `k`: the slot it writes, and that the slot's receive cell is at round 0. -/
def grant (c : Dev nD) (k : Fin 3) : sProp 𝕄 := iprop((∃ f, slotPts (fwd c k) k f) ∗ reached ER (recvCell (fwd c k) k) 0)
/-- Duty `j` of `c`'s barrier cell hands `c` what it needs for copy `rev j`. -/
def barPay (c : Dev nD) (j : Fin 3) : sProp 𝕄 := grant c (rev j)
/-- The slot back, holding the sender's row. -/
def recvPay (c : Dev nD) (k : Fin 3) : sProp 𝕄 :=
  iprop(∃ f, ⌜(slotM k).view.read (Elt F) f = ownV m ρ (back c k)⌝ ∗ slotPts c k f)
def sendPay (c : Dev nD) (k : Fin 3) : sProp 𝕄 := ownPts m ρ (shr k) c

/-- One round, round 0. -/
def sched : Rounds.Schedule (GSem nD τ sig) (Fin 3) 𝕄 where
  duties g r := if r = 0 ∧ g.1.2 = .tc then (if g.2 = .reg barS then Finset.univ else if (∃ bk, g.2 = osem bk) then {0} else ∅) else ∅
  unitless _ := False
  amount g _ _ := if g.2 = .reg barS then 1 else N
  payload g _ d :=
    if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  dsimp only [sched]
  unfold barPay grant recvPay sendPay
  (repeat' split) <;> infer_instance

/-! ### The table, cell by cell -/

section Sched
variable (c : Dev nD)

omit [FloatOps F] in
theorem osem_ne_bar (bk : Bool × Fin 3) : osem bk ≠ (.reg barS : SemLoc sig) := by
  rcases bk with ⟨b, k⟩; cases b <;> exact fun h => by cases h
theorem recv_ne_bar (k : Fin 3) : (SemLoc.dma (recvS k) : SemLoc sig) ≠ .reg barS := fun h => by cases h
theorem send_ne_bar (k : Fin 3) : (SemLoc.dma (sendS k) : SemLoc sig) ≠ .reg barS := fun h => by cases h
theorem recv_ne_recv : ∀ k k' : Fin 3, k ≠ k' → (SemLoc.dma (recvS k) : SemLoc sig) ≠ .dma (recvS k') := by decide
theorem send_ne_send : ∀ k k' : Fin 3, k ≠ k' → (SemLoc.dma (sendS k) : SemLoc sig) ≠ .dma (sendS k') := by decide
theorem send_ne_recv : ∀ k k' : Fin 3, (SemLoc.dma (sendS k) : SemLoc sig) ≠ .dma (recvS k') := by decide
theorem osem_injective : Function.Injective (osem : Bool × Fin 3 → SemLoc sig) := by decide
theorem csem_injective : Function.Injective (csem : CK → SemLoc sig) := by decide

theorem duties_bar : (sched (F := F) m ρ).duties (barCell c) 0 = Finset.univ := by
  dsimp only [sched]; rw [if_pos ⟨rfl, rfl⟩, if_pos rfl]
theorem duties_own (bk : Bool × Fin 3) : (sched (F := F) m ρ).duties ((c : Thread nD τ), osem bk) 0 = {0} := by
  dsimp only [sched]; rw [if_pos ⟨rfl, rfl⟩, if_neg (osem_ne_bar bk), if_pos ⟨bk, rfl⟩]
theorem duties_send (k : Fin 3) : (sched (F := F) m ρ).duties (sendCell c k) 0 = {0} := duties_own m ρ c (false, k)
theorem duties_recv (k : Fin 3) : (sched (F := F) m ρ).duties (recvCell c k) 0 = {0} := duties_own m ρ c (true, k)
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := by dsimp only [sched]; exact if_pos rfl
theorem amount_own (bk : Bool × Fin 3) (d : Fin 3) : (sched (F := F) m ρ).amount ((c : Thread nD τ), osem bk) 0 d = N := by
  dsimp only [sched]; exact if_neg (osem_ne_bar bk)
theorem amount_send (k d : Fin 3) : (sched (F := F) m ρ).amount (sendCell c k) 0 d = N := amount_own m ρ c (false, k) d
theorem amount_recv (k d : Fin 3) : (sched (F := F) m ρ).amount (recvCell c k) 0 d = N := amount_own m ρ c (true, k) d

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_own (bk : Bool × Fin 3) : (sched (F := F) m ρ).expect ((c : Thread nD τ), osem bk) 0 = N := by
  unfold Schedule.expect Schedule.amountOf; rw [duties_own, Finset.sum_singleton, amount_own]
theorem expect_send (k : Fin 3) : (sched (F := F) m ρ).expect (sendCell c k) 0 = N := expect_own m ρ c (false, k)
theorem expect_recv (k : Fin 3) : (sched (F := F) m ρ).expect (recvCell c k) 0 = N := expect_own m ρ c (true, k)

theorem payload_bar (j : Fin 3) : (sched (F := F) m ρ).payload (barCell c) 0 j = barPay c j := by dsimp only [sched]; rw [if_pos rfl]
theorem payload_recv : ∀ (k d : Fin 3), (sched (F := F) m ρ).payload (recvCell c k) 0 d = recvPay m ρ c k
  | 0, _ => by dsimp only [sched]; rw [if_neg (recv_ne_bar 0), if_pos rfl]
  | 1, _ => by dsimp only [sched]; rw [if_neg (recv_ne_bar 1), if_neg (recv_ne_recv 1 0 (by decide)), if_pos rfl]
  | 2, _ => by dsimp only [sched]; rw [if_neg (recv_ne_bar 2), if_neg (recv_ne_recv 2 0 (by decide)), if_neg (recv_ne_recv 2 1 (by decide)), if_pos rfl]
theorem payload_send : ∀ (k d : Fin 3), (sched (F := F) m ρ).payload (sendCell c k) 0 d = sendPay m ρ c k
  | 0, _ => by
    dsimp only [sched]
    rw [if_neg (send_ne_bar 0), if_neg (send_ne_recv 0 0), if_neg (send_ne_recv 0 1), if_neg (send_ne_recv 0 2), if_pos rfl]
  | 1, _ => by
    dsimp only [sched]
    rw [if_neg (send_ne_bar 1), if_neg (send_ne_recv 1 0), if_neg (send_ne_recv 1 1), if_neg (send_ne_recv 1 2), if_neg (send_ne_send 1 0 (by decide)), if_pos rfl]
  | 2, _ => by
    dsimp only [sched]
    rw [if_neg (send_ne_bar 2), if_neg (send_ne_recv 2 0), if_neg (send_ne_recv 2 1), if_neg (send_ne_recv 2 2), if_neg (send_ne_send 2 0 (by decide)),
      if_neg (send_ne_send 2 1 (by decide)), if_pos rfl]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: what each of the three other devices hands over. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each device owes at launch, in the order it pays; the levels -/

def O₅ (c : Dev nD) : CellTallies nD τ sig Unit := tallyAt (recvCell (fwd c 2) 2) () N
def O₄ (c : Dev nD) : CellTallies nD τ sig Unit := O₅ c + tallyAt (recvCell (fwd c 0) 0) () N
/-- After its three signals a device owes the three receive credits: of copy 1 first, then 0, then 2. -/
def O₃ (c : Dev nD) : CellTallies nD τ sig Unit := O₄ c + tallyAt (recvCell (fwd c 1) 1) () N
def O₂ (c : Dev nD) : CellTallies nD τ sig Unit := O₃ c + tallyAt (barCell (fwd c 2)) () 1
def O₁ (c : Dev nD) : CellTallies nD τ sig Unit := O₂ c + tallyAt (barCell (fwd c 1)) () 1
def O₀ (c : Dev nD) : CellTallies nD τ sig Unit := O₁ c + tallyAt (barCell (fwd c 0)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (∃ k, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 3) (u : Unit) : lv (recvCell c k) u = 2 := by
  dsimp only [lv]; rw [if_neg (recv_ne_bar k), if_pos ⟨k, rfl⟩]
theorem lv_other (c : Dev nD) (q : DmaSem sig) (hq : ∀ k, q ≠ recvS k) (u : Unit) : lv ((c : Thread nD τ), .dma q) u = 0 := by
  dsimp only [lv]; rw [if_neg (fun h => by cases h), if_neg (fun ⟨k, h⟩ => hq k (SemLoc.dma.inj h))]

theorem O₃_pos {c : Dev nD} {g : GSem nD τ sig} {u : Unit} (h : 0 < O₃ c g u) : ∃ k, g = recvCell (fwd c k) k := by
  unfold O₃ O₄ O₅ at h
  rcases Pipeline.add_pos_cases h with h | h
  · rcases Pipeline.add_pos_cases h with h | h
    · exact ⟨2, (Pipeline.tallyAt_pos h).1⟩
    · exact ⟨0, (Pipeline.tallyAt_pos h).1⟩
  · exact ⟨1, (Pipeline.tallyAt_pos h).1⟩
theorem O₀_pos {c : Dev nD} {g : GSem nD τ sig} {u : Unit} (h : 0 < O₀ c g u) :
    (∃ j, g = barCell (fwd c j)) ∨ ∃ k, g = recvCell (fwd c k) k := by
  unfold O₀ O₁ O₂ at h
  rcases Pipeline.add_pos_cases h with h | h
  · rcases Pipeline.add_pos_cases h with h | h
    · rcases Pipeline.add_pos_cases h with h | h
      · exact .inr (O₃_pos h)
      · exact .inl ⟨2, (Pipeline.tallyAt_pos h).1⟩
    · exact .inl ⟨1, (Pipeline.tallyAt_pos h).1⟩
  · exact .inl ⟨0, (Pipeline.tallyAt_pos h).1⟩

/-- A staging cell or a send cell (level 0) may be waited on whatever the device still owes of its launch dues. -/
theorem mayWait_low (c : Dev nD) (q : DmaSem sig) (hq : ∀ k, q ≠ recvS k) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    rcases O₀_pos hg with ⟨j, rfl⟩ | ⟨k, rfl⟩
    · exact ⟨by rw [L_tc]; exact Finset.mem_singleton_self _, by rw [lv_other c q hq, lv_bar]; decide⟩
    · exact ⟨by rw [L_tc]; exact Finset.mem_singleton_self _, by rw [lv_other c q hq, lv_recv]; decide⟩
  · rw [MayWait_zero]; iintro -; iempintro

/-- At its barrier wait a device owes receive credits only: receive cells, above its barrier cell. -/
theorem mayWait_bar (c : Dev nD) : (levAts L lv : sProp 𝕄) ⊢ MayWait (c : Thread nD τ) (.reg barS) () (O₃ c) := by
  refine Pipeline.mayWait_of_levAts (by rw [L_tc]; exact Finset.mem_singleton_self _) fun g i hg => ?_
  obtain ⟨k, rfl⟩ := O₃_pos hg
  exact ⟨by rw [L_tc]; exact Finset.mem_singleton_self _, by rw [lv_bar, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the sum of its own row and the rows of the devices one, two and three places before it. -/
def outAt (c : Dev nD) : (cc0_stg1_0 : Ref sig .tc).ty.Contents (Elt F) :=
  total (xblk m ρ c) (xblk m ρ (back c 0)) (xblk m ρ (back c 1)) (xblk m ρ (back c 2))

/-- Every cell's invariant, under the names `K` the launch allocated them at, and that every cell is at round 0. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

/-- The tokens of the duties device `c` pays: duty `j` of the barrier cell of `fwd c j`, the receive duty of slot `k` of `fwd c k`,
    its own three send duties. -/
def payToks (c : Dev nD) : sProp 𝕄 :=
  iprop((bigSep Finset.univ fun j : Fin 3 => dutyTok ER (barCell (fwd c j)) 0 j)
    ∗ (bigSep Finset.univ fun k : Fin 3 => dutyTok ER (recvCell (fwd c k) k) 0 0)
    ∗ (bigSep Finset.univ fun k : Fin 3 => dutyTok ER (sendCell c k) 0 0))
/-- Its positions: at round 0 of each of its seven cells, nothing taken. -/
def positions (c : Dev nD) : sProp 𝕄 := bigSep Finset.univ fun k : CK => atPos ER (kcell (c, k)) 0 ∅ 0

/-- The protocol's ghost state device `c` starts from. -/
def ghost (K : Dev nD × CK → ℕ) (c : Dev nD) : sProp 𝕄 := iprop(records m ρ K ∗ positions c ∗ payToks c)

/-- What device `c`'s body starts from: that at some names, its credit tokens (its barrier's three units, each receive
    cell's credit) and the level facts. -/
def start (c : Dev nD) : sProp 𝕄 :=
  iprop((∃ K, ghost m ρ K c) ∗ cred (tallyAt (barCell c) () 3) ∗ (bigSep Finset.univ fun k : Fin 3 => cred (tallyAt (recvCell c k) () N)) ∗ levAts L lv)

/-- The two scratch buffers, each whole at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratchAny c)
/-- After the point: the scratch buffers back whole, the six OWN cells at zero, closed (the barrier cell is the runtime's:
    nothing to hand back). -/
def Φ₁ (c : Dev nD) : sProp 𝕄 := iprop(scratchAny c ∗ bigSep Finset.univ fun bk : Bool × Fin 3 => semVal ((c : Thread nD τ), osem bk) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- A whole buffer of device `c` at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Proto

end
-- ==== Proof.Slots.lean ====
/-
  The two scratch buffers cut up and put together again: the receive buffer into its three one-row slots, the row
  buffer into four quarter shares; and what a slot holds, read the two ways the body reads it.
-/
import proofs.«900608_g7700000000000609_dist_sum_ax0_shard0_i_m512_n256_v7x_i4_f32_1_alg».proof.Proof.Proto

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The receive buffer is its three slots -/

/-- An element of the receive buffer is in the one-row rectangle at row `k` exactly when its row is `k`. -/
theorem mem_row_set (k : ℕ) (inb : ∀ a, (![k, 0, 0] : Fin 3 → ℕ) a + S1x1x256.size a ≤ S3x1x256.size a) (i : S3x1x256.Idx) :
    i ∈ (Rect.unit (s := S3x1x256) ![k, 0, 0] S1x1x256.size inb).set ↔ (i 0).val = k := by
  rw [Rect.mem_set_unit]
  have h1 : (i 1).val < 1 := (i 1).isLt
  have h2 : (i 2).val < 256 := (i 2).isLt
  constructor
  · intro h
    have h0 : k ≤ (i 0).val ∧ (i 0).val < k + 1 := h 0
    omega
  · intro h a
    match a with
    | ⟨0, _⟩ => exact (show k ≤ (i 0).val ∧ (i 0).val < k + 1 by omega)
    | ⟨1, _⟩ => exact (show 0 ≤ (i 1).val ∧ (i 1).val < 0 + 1 by omega)
    | ⟨2, _⟩ => exact (show 0 ≤ (i 2).val ∧ (i 2).val < 0 + 256 by omega)

/-- The elements of slot `k`: row `k` of the receive buffer. -/
def slotSet (k : Fin 3) : Finset S3x1x256.Idx := (slotR k).set

theorem mem_slotSet : ∀ (k : Fin 3) (i : S3x1x256.Idx), i ∈ slotSet k ↔ (i 0).val = k.val
  | 0, i => mem_row_set 0 _ i
  | 1, i => mem_row_set 1 _ i
  | 2, i => mem_row_set 2 _ i

/-- Different slots share no element. -/
theorem slotSet_disjoint (k k' : Fin 3) (h : k ≠ k') : Disjoint (slotSet k) (slotSet k') :=
  Finset.disjoint_left.mpr fun i hi hi' =>
    h (Fin.ext (((mem_slotSet k i).mp hi).symm.trans ((mem_slotSet k' i).mp hi')))

/-- Every element of the receive buffer is in one of the three slots. -/
theorem slotSet_cover : Finset.univ.biUnion slotSet = (Finset.univ : Finset S3x1x256.Idx) := by
  ext i
  simp only [Finset.mem_biUnion, Finset.mem_univ, true_and, iff_true]
  exact ⟨⟨(i 0).val, (i 0).isLt⟩, (mem_slotSet _ i).mpr rfl⟩

/-- A slot's view covers exactly the slot's row. -/
theorem slot_view_set0 : (slotM 0).view.set = slotSet 0 :=
  (Memref.set_view_squeeze (commM.slice (slotR 0) (fun _ => rfl)) squeezes_S1x1x256_S1x256).trans (View.set_slice_whole cc0_scratch1 (slotR 0))
theorem slot_view_set1 : (slotM 1).view.set = slotSet 1 :=
  (Memref.set_view_squeeze (commM.slice (slotR 1) (fun _ => rfl)) squeezes_S1x1x256_S1x256).trans (View.set_slice_whole cc0_scratch1 (slotR 1))
theorem slot_view_set2 : (slotM 2).view.set = slotSet 2 :=
  (Memref.set_view_squeeze (commM.slice (slotR 2) (fun _ => rfl)) squeezes_S1x1x256_S1x256).trans (View.set_slice_whole cc0_scratch1 (slotR 2))

/-- A buffer whole is three pairwise disjoint sets of its elements that cover it, at the same contents … -/
theorem pointsTo_split3 {ℓ : Loc nD τ sig} (K : Fin 3 → Finset (Idx ℓ)) (hd : ∀ t t', t ≠ t' → Disjoint (K t) (K t'))
    (hc : ∀ i, ∃ k, i ∈ K k) (q : PosShare TreeShare) (f : Buf (Elt F) ℓ) :
    (ℓ ↦{q} f : sProp 𝕄) = iprop((ℓ ↦[K 0]{q} f) ∗ (ℓ ↦[K 1]{q} f) ∗ ℓ ↦[K 2]{q} f) := by
  have hU : Finset.univ.biUnion K = Finset.univ := by
    ext i
    simp only [Finset.mem_biUnion, Finset.mem_univ, true_and, iff_true]
    exact hc i
  have h : ((ℓ ↦[Finset.univ.biUnion K]{q} f : sProp 𝕄)) = bigSep (Finset.univ : Finset (Fin 3)) fun t => (ℓ ↦[K t]{q} f) :=
    pointsTo_biUnion Finset.univ K (fun t _ t' _ ht => hd t t' ht)
  rw [hU, bigSep_fin3] at h
  exact h

/-- … and three such sets, each at its own contents, are the buffer whole at some contents. -/
theorem pointsTo_join3 {ℓ : Loc nD τ sig} (K : Fin 3 → Finset (Idx ℓ)) (hd : ∀ t t', t ≠ t' → Disjoint (K t) (K t'))
    (hc : ∀ i, ∃ k, i ∈ K k) (q : PosShare TreeShare) (f0 f1 f2 : Buf (Elt F) ℓ) :
    iprop((ℓ ↦[K 0]{q} f0) ∗ (ℓ ↦[K 1]{q} f1) ∗ ℓ ↦[K 2]{q} f2) ⊢ (iprop(∃ g : Buf (Elt F) ℓ, ℓ ↦{q} g) : sProp 𝕄) := by
  have hU : Finset.univ.biUnion K = Finset.univ := by
    ext i
    simp only [Finset.mem_biUnion, Finset.mem_univ, true_and, iff_true]
    exact hc i
  have h : bigSep (Finset.univ : Finset (Fin 3)) (fun t => (ℓ ↦[K t]{q} (match t with | 0 => f0 | 1 => f1 | 2 => f2 : Buf (Elt F) ℓ)))
      ⊢ (iprop(∃ g, ⌜∀ t ∈ (Finset.univ : Finset (Fin 3)), ∀ i ∈ K t, g i = (match t with | 0 => f0 | 1 => f1 | 2 => f2 : Buf (Elt F) ℓ) i⌝
          ∗ ℓ ↦[Finset.univ.biUnion K]{q} g) : sProp 𝕄) :=
    pointsTo_biUnion_join Finset.univ K _ f0 (fun t _ t' _ ht => hd t t' ht)
  rw [hU, bigSep_fin3] at h
  refine h.trans ?_
  iintro ⟨%g, _, Hg⟩
  iexists g
  iexact Hg

/-- A slot of the receive buffer, held by its row of the buffer's elements. -/
theorem slotPts_eq0 (c : Dev nD) (f : Buf (Elt F) ((c : Thread nD τ).loc cc0_scratch1)) :
    (slotPts c 0 f : sProp 𝕄) = (((c : Thread nD τ).loc cc0_scratch1) ↦[slotSet 0]{fullShare} f) := by
  unfold slotPts
  exact congrArg (fun S => ((((c : Thread nD τ).loc cc0_scratch1) ↦[S]{fullShare} f : sProp 𝕄))) slot_view_set0
theorem slotPts_eq1 (c : Dev nD) (f : Buf (Elt F) ((c : Thread nD τ).loc cc0_scratch1)) :
    (slotPts c 1 f : sProp 𝕄) = (((c : Thread nD τ).loc cc0_scratch1) ↦[slotSet 1]{fullShare} f) := by
  unfold slotPts
  exact congrArg (fun S => ((((c : Thread nD τ).loc cc0_scratch1) ↦[S]{fullShare} f : sProp 𝕄))) slot_view_set1
theorem slotPts_eq2 (c : Dev nD) (f : Buf (Elt F) ((c : Thread nD τ).loc cc0_scratch1)) :
    (slotPts c 2 f : sProp 𝕄) = (((c : Thread nD τ).loc cc0_scratch1) ↦[slotSet 2]{fullShare} f) := by
  unfold slotPts
  exact congrArg (fun S => ((((c : Thread nD τ).loc cc0_scratch1) ↦[S]{fullShare} f : sProp 𝕄))) slot_view_set2

/-- The receive buffer whole is its three slots, at the same contents. -/
theorem comm_split (c : Dev nD) (f : Buf (Elt F) ((c : Thread nD τ).loc cc0_scratch1)) :
    ((((c : Thread nD τ).loc cc0_scratch1) ↦{fullShare} f : sProp 𝕄))
      ⊢ iprop(slotPts c 0 f ∗ slotPts c 1 f ∗ slotPts c 2 f) := by
  rw [slotPts_eq0, slotPts_eq1, slotPts_eq2]
  exact Entails.of_eq (pointsTo_split3 (ℓ := (c : Thread nD τ).loc cc0_scratch1) slotSet slotSet_disjoint
    (fun i => ⟨⟨(i 0).val, (i 0).isLt⟩, (mem_slotSet _ i).mpr rfl⟩) fullShare f)

/-- Three slots, each at its own contents, are the receive buffer whole at some contents. -/
theorem comm_join (c : Dev nD) (f0 f1 f2 : Buf (Elt F) ((c : Thread nD τ).loc cc0_scratch1)) :
    iprop(slotPts c 0 f0 ∗ slotPts c 1 f1 ∗ slotPts c 2 f2)
      ⊢ (iprop(∃ g : Buf (Elt F) ((c : Thread nD τ).loc cc0_scratch1), ((c : Thread nD τ).loc cc0_scratch1) ↦{fullShare} g) : sProp 𝕄) := by
  rw [slotPts_eq0, slotPts_eq1, slotPts_eq2]
  exact pointsTo_join3 (ℓ := (c : Thread nD τ).loc cc0_scratch1) slotSet slotSet_disjoint
    (fun i => ⟨⟨(i 0).val, (i 0).isLt⟩, (mem_slotSet _ i).mpr rfl⟩) fullShare f0 f1 f2

/-! ## The row buffer in four shares -/

/-- The row buffer at its sums, whole, is the three shares that go out under the copies and the one that stays. -/
theorem own_split (c : Dev nD) :
    (ownPts m ρ fullShare c : sProp 𝕄) ⊣⊢ iprop(ownPts m ρ (shr 0) c ∗ ownPts m ρ (shr 1) c ∗ ownPts m ρ (shr 2) c ∗ ownPts m ρ shrKeep c) := by
  have h (q : PosShare TreeShare) : (ownPts m ρ q c : sProp 𝕄) ⊣⊢ iprop(ownPts m ρ q.left c ∗ ownPts m ρ q.right c) := by
    unfold ownPts
    exact pointsTo_share (PosShare.mem_left_op_right q)
  have e (q : PosShare TreeShare) : (ownPts m ρ q c : sProp 𝕄) = iprop(ownPts m ρ q.left c ∗ ownPts m ρ q.right c) :=
    BI.equiv_iff.mp ⟨(h q).1, (h q).2⟩
  refine BIBase.BiEntails.of_eq ?_
  show (ownPts m ρ fullShare c : sProp 𝕄) = iprop(ownPts m ρ fullShare.left.left c ∗ ownPts m ρ fullShare.left.right c
    ∗ ownPts m ρ fullShare.right.left c ∗ ownPts m ρ fullShare.right.right c)
  rw [e fullShare, e fullShare.left, e fullShare.right]
  exact BI.equiv_iff.mp ⟨sep_assoc, sep_assoc'⟩

theorem ownPts_full_eq (c : Dev nD) :
    ownPts m ρ fullShare c = ((((c : Thread nD τ).loc cc0_scratch0) ↦{fullShare} ownV m ρ c : sProp 𝕄)) := by
  unfold ownPts
  exact congrArg (fun S => (((c : Thread nD τ).loc cc0_scratch0) ↦[S]{fullShare} ownV m ρ c : sProp 𝕄)) (View.set_whole cc0_scratch0)

/-! ## What the body reads -/

/-- A load of slot 0 through the whole receive buffer, squeezed to a row, is the slot read through its own view. -/
theorem slot_read0 (f : (cc0_scratch1 : Ref sig .tc).ty.Contents (Elt F)) :
    shapeCast S1x256 ((commM : Memref sig .tc .vmem S3x1x256 .f32).view.readAt (Elt F) (slotR 0).toLoadRect f) shapeCasts_S1x1x256_S1x256
      = (slotM 0).view.read (Elt F) f := rfl

/-- The elements a load of slot 0 through the whole buffer touches are the slot's. -/
theorem slot_load_sub0 :
    (commM : Memref sig .tc .vmem S3x1x256 .f32).view.setOn (slotR 0).toLoadRect.set ⊆ (slotM 0).view.set :=
  Memref.subset_of_set_eq
    (Memref.setOn_subset_slice_of_within commM (slotR 0) (fun _ => rfl) (slotR 0).toLoadRect (by decide))
    (Memref.set_view_squeeze (commM.slice (slotR 0) (fun _ => rfl)) squeezes_S1x1x256_S1x256)

/-- A load of slot 1 through the whole receive buffer, squeezed to a row, is the slot read through its own view. -/
theorem slot_read1 (f : (cc0_scratch1 : Ref sig .tc).ty.Contents (Elt F)) :
    shapeCast S1x256 ((commM : Memref sig .tc .vmem S3x1x256 .f32).view.readAt (Elt F) (slotR 1).toLoadRect f) shapeCasts_S1x1x256_S1x256
      = (slotM 1).view.read (Elt F) f := rfl

/-- The elements a load of slot 1 through the whole buffer touches are the slot's. -/
theorem slot_load_sub1 :
    (commM : Memref sig .tc .vmem S3x1x256 .f32).view.setOn (slotR 1).toLoadRect.set ⊆ (slotM 1).view.set :=
  Memref.subset_of_set_eq
    (Memref.setOn_subset_slice_of_within commM (slotR 1) (fun _ => rfl) (slotR 1).toLoadRect (by decide))
    (Memref.set_view_squeeze (commM.slice (slotR 1) (fun _ => rfl)) squeezes_S1x1x256_S1x256)

/-- A load of slot 2 through the whole receive buffer, squeezed to a row, is the slot read through its own view. -/
theorem slot_read2 (f : (cc0_scratch1 : Ref sig .tc).ty.Contents (Elt F)) :
    shapeCast S1x256 ((commM : Memref sig .tc .vmem S3x1x256 .f32).view.readAt (Elt F) (slotR 2).toLoadRect f) shapeCasts_S1x1x256_S1x256
      = (slotM 2).view.read (Elt F) f := rfl

/-- The elements a load of slot 2 through the whole buffer touches are the slot's. -/
theorem slot_load_sub2 :
    (commM : Memref sig .tc .vmem S3x1x256 .f32).view.setOn (slotR 2).toLoadRect.set ⊆ (slotM 2).view.set :=
  Memref.subset_of_set_eq
    (Memref.setOn_subset_slice_of_within commM (slotR 2) (fun _ => rfl) (slotR 2).toLoadRect (by decide))
    (Memref.set_view_squeeze (commM.slice (slotR 2) (fun _ => rfl)) squeezes_S1x1x256_S1x256)

/-- The stored result, from the row buffer's sums and the three slots as loaded: the specification's total. -/
theorem pay2_eq (a : Vec F S1x256 .f32) (b0 b2 b1 : Vec F S1x1x256 .f32) (x1 x2 x3 : Vec F S512x256 .f32) (x0 : Vec F S512x256 .f32)
    (ha : a = colSum x0)
    (h0 : shapeCast S1x256 b0 shapeCasts_S1x1x256_S1x256 = colSum x1)
    (h2 : shapeCast S1x256 b2 shapeCasts_S1x1x256_S1x256 = colSum x3)
    (h1 : shapeCast S1x256 b1 shapeCasts_S1x1x256_S1x256 = colSum x2) :
    k0_pay2 a b0 b2 b1 = total x0 x1 x2 x3 := by
  unfold total k0_pay2 asSlot
  rw [shapeCast_shapeCast, shapeCast_shapeCast, shapeCast_shapeCast, h0, h2, h1, ha]

/-- A copy's credit on a DMA semaphore is the same whichever slot it lands in: the row buffer's. -/
theorem slot_amount : ∀ (k : Fin 3) (q : DmaSem sig), (slotM k).view.amount (.dma q) = N
  | 0, _ => rfl
  | 1, _ => rfl
  | 2, _ => rfl

end Cert.KernelIdeal.Proto

end
-- ==== Proof.Mid.lean ====
/-
  The body cut in two at the point where the three copies have been started: what a device holds there, what it
  holds at the start and at the end, and the body as its front (the handshake, the column sums, the copies) followed
  by its back (the receives, the sum, the waits for the sends).
-/
import proofs.«900608_g7700000000000609_dist_sum_ax0_shard0_i_m512_n256_v7x_i4_f32_1_alg».proof.Proof.Slots

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from at the one grid point, the ghost state at names `K`. -/
def bodyPre (K : Dev nD × CK → ℕ) (c : Dev nD) : sProp 𝕄 :=
  iprop((ghost m ρ K c ∗ cred (tallyAt (barCell c) () 3) ∗ (bigSep Finset.univ fun k : Fin 3 => cred (tallyAt (recvCell c k) () N)) ∗ levAts L lv ∗ scratchAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ c ∗ (dats m ρ 0 c).owesAt () t₀.succ ∗ stg c cc0_stg0_0 (xblk m ρ c) ∗ stg c cc0_stg1_0 (outAt m ρ c))

/-- What it holds once the three copies are started: every cell's invariant; its positions at round 0 of its six own
    cells; the three receive credits it was dealt and the three send credits the copies gave it; nothing owed; the
    quarter of the row buffer it kept; its block's staging buffer at the block, the result's staging buffer at anything.
    (Its slots are with the devices that write them, the other three quarters of the row buffer under the copies.) -/
def mid (K : Dev nD × CK → ℕ) (c : Dev nD) : sProp 𝕄 :=
  iprop(records m ρ K
    ∗ (bigSep Finset.univ fun bk : Bool × Fin 3 => atPos ER ((c : Thread nD τ), osem bk) 0 ∅ 0)
    ∗ (bigSep Finset.univ fun k : Fin 3 => cred (tallyAt (recvCell c k) () N))
    ∗ (bigSep Finset.univ fun k : Fin 3 => cred (tallyAt (sendCell c k) () N))
    ∗ (∃ W, owes (c : Thread nD τ) 0 W)
    ∗ ownPts m ρ shrKeep c
    ∗ stg c cc0_stg0_0 (xblk m ρ c)
    ∗ (∃ f : Buf (Elt F) ((c : Thread nD τ).loc cc0_stg1_0), ((c : Thread nD τ).loc cc0_stg1_0) ↦{fullShare} f))

/-- The words the first two parts of the printed body hand on (the device's position plus 2 and plus 3, modulo 4): the later part names them, no operation reads them. -/
def w2 (c : Dev nD) : BitVec 32 := Scalar.remsi (Scalar.divsi (Dev.word c) 1#32) 4#32
def w24 (c : Dev nD) : BitVec 32 := Scalar.remsi (Scalar.addi (w2 c) 2#32) 4#32
def w44 (c : Dev nD) : BitVec 32 := Scalar.remsi (Scalar.addi (w2 c) 3#32) 4#32

/-- The body from the first receive wait on: the third part of the printed body, then the three waits for the sends. -/
def backProg (v24 v44 : BitVec 32) : Prog (TpuEff nD τ sig (Elt F) Λ₀ .tc) PUnit := do
  k0_part3 xM (Memref.isWhole_whole _) oM (Memref.isWhole_whole _) ownM (Memref.isWhole_whole _) commM (Memref.isWhole_whole _) cc0_scratch2 cc0_scratch3 v24 v44
  Prog.lift (.waitDma2 (sendS 0) (slotM 0) ownM ((View.wordExact_bits rfl).reshape _ _) (Memref.isWhole_whole _).wordExact)
  Prog.lift (.waitDma2 (sendS 2) (slotM 2) ownM ((View.wordExact_bits rfl).reshape _ _) (Memref.isWhole_whole _).wordExact)
  Prog.lift (.waitDma2 (sendS 1) (slotM 1) ownM ((View.wordExact_bits rfl).reshape _ _) (Memref.isWhole_whole _).wordExact)
  pure ⟨⟩

/-- The body is its first two parts, then `backProg`. -/
theorem body_split :
    cc0_body (F := F) xM (Memref.isWhole_whole _) oM (Memref.isWhole_whole _) ownM (Memref.isWhole_whole _) commM (Memref.isWhole_whole _) cc0_scratch2 cc0_scratch3
      = (do
          let ⟨d0, v2, v24⟩ : Σ' (d0 : Dev nD) (v2 : BitVec 32), BitVec 32 ← k0_part1 xM (Memref.isWhole_whole _) oM (Memref.isWhole_whole _) ownM (Memref.isWhole_whole _) commM (Memref.isWhole_whole _) cc0_scratch2 cc0_scratch3
          let v44 : BitVec 32 ← k0_part2 xM (Memref.isWhole_whole _) oM (Memref.isWhole_whole _) ownM (Memref.isWhole_whole _) commM (Memref.isWhole_whole _) cc0_scratch2 cc0_scratch3 d0 v2 v24
          backProg v24 v44) := rfl

end Cert.KernelIdeal.Proto

end
-- ==== Proof.BodyFront.lean ====
/-
  The front of one device's body: the three signals, the column sums, the barrier wait, the three copies.
-/
import proofs.«900608_g7700000000000609_dist_sum_ax0_shard0_i_m512_n256_v7x_i4_f32_1_alg».proof.Proof.Mid

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Front

theorem fetch_0 (t : Fin cfg0.N) : (cfg0.win (0 : Fin 2)).fetch t = true := by rw [fin_N t]; rfl

/-- A device's seven cells, one by one. -/
theorem bigSep_CK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ
/-- Its six own cells, one by one. -/
theorem bigSep_BK (Φ : Bool × Fin 3 → sProp 𝕄) : bigSep Finset.univ Φ
    = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ

theorem rev_0 : rev 0 = 2 := by decide
theorem rev_1 : rev 1 = 1 := by decide
theorem rev_2 : rev 2 = 0 := by decide

/-- Any cell's invariant, and that it is at round 0, out of the records. -/
theorem records_inv (K : Dev nD × CK → ℕ) (ck : Dev nD × CK) : records m ρ K ⊢ cellInv ER (sched m ρ) (K ck) (kcell ck) := by
  unfold records
  have h : (bigSep Finset.univ (fun ck : Dev nD × CK => cellInv ER (sched m ρ) (K ck) (kcell ck)) : sProp 𝕄) ⊢ cellInv ER (sched m ρ) (K ck) (kcell ck) :=
    bigSep_elim (Finset.mem_univ ck)
  iintro ⟨H, -⟩; iapply h; iexact H
theorem records_reached (K : Dev nD × CK → ℕ) (ck : Dev nD × CK) : records m ρ K ⊢ reached ER (kcell ck) 0 := by
  unfold records
  have h : (bigSep Finset.univ (fun ck : Dev nD × CK => reached ER (kcell ck) 0) : sProp 𝕄) ⊢ reached ER (kcell ck) 0 :=
    bigSep_elim (Finset.mem_univ ck)
  iintro ⟨-, H⟩; iapply h; iexact H

theorem hz2 : (![0, 0] : Fin 2 → Nat) = fun _ => 0 := funext fun a => by fin_cases a <;> rfl
abbrev rX : Rect S512x256 := Rect.unit (s := S512x256) ![0, 0] S512x256.size inb_S512x256_S512x256_0_0
abbrev rRow : Rect S1x256 := Rect.unit (s := S1x256) ![0, 0] S1x256.size inb_S1x256_S1x256_0_0
/-- The whole block, read through the load's rectangle, is the block. -/
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
/-- The row buffer, stored whole, holds what was stored. -/
theorem write_own (f w : (cc0_scratch0 : Ref sig .tc).ty.Contents (Elt F)) :
    ((ownM : Memref sig .tc .vmem S1x256 .f32).access rRow : View sig .tc _ _ _).write (Elt F) f w Finset.univ = w :=
  Memref.write_access_unit_zero_univ (Elt F) cc0_scratch0 hz2 _ f w

/-- The barrier cell's round handed over: the three slots this device writes, named by slot. -/
theorem rest_bar' (c : Dev nD) : bigSep ((sched (F := F) m ρ).duties (barCell c) 0 \ ∅) (fun d => (sched (F := F) m ρ).payload (barCell c) 0 d)
    = iprop(grant c 2 ∗ grant c 1 ∗ grant c 0) := by
  rw [rest_bar]; unfold barPay; rw [rev_0, rev_1, rev_2]

/-- The same, over the round's duties as they stand. -/
theorem rest_bar'' (c : Dev nD) : bigSep ((sched (F := F) m ρ).duties (barCell c) 0) (fun d => (sched (F := F) m ρ).payload (barCell c) 0 d)
    = iprop(grant c 2 ∗ grant c 1 ∗ grant c 0) := by
  rw [← rest_bar' m ρ c, Finset.sdiff_empty]

/-- Copy 0: the row buffer's share `shr 0` goes out, slot 0 of the device `fwd c 0` is rewritten with this device's row. -/
theorem wp_send_0 (K : Dev nD × CK → ℕ) (c n : Dev nD) (hn : n = fwd c 0)
    {hsc : (slotM 0 : Memref sig (Dev.tc n : Thread nD τ).2.kind .vmem S1x256 .f32).view.ref.isScScratch = false}
    {hsrc : (ownM : Memref sig .tc .vmem S1x256 .f32).view.WordExact} {hdst : (slotM 0).view.WordExact}
    {hsem : DmaTarget.Typed .vmem (.dma (recvS 0)) (.remote (Dev.tc n : Thread nD τ) (slotM 0) (.dma (sendS 0)) hsc)}
    {α : Type} {Q : α → sProp 𝕄} {k : PUnit → Prog (TpuEff nD τ sig (Elt F) Λ₀ .tc) α}
    (fn : Buf (Elt F) ((slotM 0).view.loc (fwd c 0 : Thread nD τ))) (W : Waits sig Unit) (O₀ O : CellTallies nD τ sig Unit)
    (hO : O₀ = O + tallyAt (recvCell (fwd c 0) 0) () N) :
    iprop(cellInv ER (sched m ρ) (K (c, some (false, 0))) (sendCell c 0) ∗ cellInv ER (sched m ρ) (K (fwd c 0, some (true, 0))) (recvCell (fwd c 0) 0)
        ∗ ownPts m ρ (shr 0) c ∗ slotPts (fwd c 0) 0 fn
        ∗ owes (c : Thread nD τ) O₀ W
        ∗ dutyTok ER (sendCell c 0) 0 0 ∗ reached ER (sendCell c 0) 0
        ∗ dutyTok ER (recvCell (fwd c 0) 0) 0 0 ∗ reached ER (recvCell (fwd c 0) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM 0) (.dma (sendS 0)) hsc) (.dma (recvS 0)) hsrc hdst hsem) k) Q) := by
  subst hn
  unfold ownPts slotPts
  exact Rounds.wp_send_pointsTo 𝒱₀ ER (sched m ρ) (c : Thread nD τ) none (c' := (fwd c 0 : Thread nD τ)) (src := ownM) (dst := slotM 0) (q := shr 0)
    (fs := ownV m ρ c) (κ₁ := K (c, some (false, 0))) (κ₂ := K (fwd c 0, some (true, 0))) (r₁ := 0) (r₂ := 0) (d₁ := 0) (d₂ := 0) (fd := fn)
    (by rw [duties_send]; exact Finset.mem_singleton_self _) (by rw [duties_recv]; exact Finset.mem_singleton_self _)
    () () N (slot_amount 0 _) (amount_send m ρ c 0 0) (amount_recv m ρ (fwd c 0) 0 0) O hO (W := W)
    (by rw [payload_send]; exact BI.Entails.refl _)
    (by
      rw [payload_recv]; unfold recvPay slotPts; rw [back_fwd]
      iintro H
      iexists ((slotM 0).view.write (Elt F) fn ((ownM : Memref sig .tc .vmem S1x256 .f32).view.read (Elt F) (ownV m ρ c)) Finset.univ)
      isplitr
      · ipureintro; rw [View.read_write_univ]; rfl
      iexact H)

/-- Copy 1: the row buffer's share `shr 1` goes out, slot 1 of the device `fwd c 1` is rewritten with this device's row. -/
theorem wp_send_1 (K : Dev nD × CK → ℕ) (c n : Dev nD) (hn : n = fwd c 1)
    {hsc : (slotM 1 : Memref sig (Dev.tc n : Thread nD τ).2.kind .vmem S1x256 .f32).view.ref.isScScratch = false}
    {hsrc : (ownM : Memref sig .tc .vmem S1x256 .f32).view.WordExact} {hdst : (slotM 1).view.WordExact}
    {hsem : DmaTarget.Typed .vmem (.dma (recvS 1)) (.remote (Dev.tc n : Thread nD τ) (slotM 1) (.dma (sendS 1)) hsc)}
    {α : Type} {Q : α → sProp 𝕄} {k : PUnit → Prog (TpuEff nD τ sig (Elt F) Λ₀ .tc) α}
    (fn : Buf (Elt F) ((slotM 1).view.loc (fwd c 1 : Thread nD τ))) (W : Waits sig Unit) (O₀ O : CellTallies nD τ sig Unit)
    (hO : O₀ = O + tallyAt (recvCell (fwd c 1) 1) () N) :
    iprop(cellInv ER (sched m ρ) (K (c, some (false, 1))) (sendCell c 1) ∗ cellInv ER (sched m ρ) (K (fwd c 1, some (true, 1))) (recvCell (fwd c 1) 1)
        ∗ ownPts m ρ (shr 1) c ∗ slotPts (fwd c 1) 1 fn
        ∗ owes (c : Thread nD τ) O₀ W
        ∗ dutyTok ER (sendCell c 1) 0 0 ∗ reached ER (sendCell c 1) 0
        ∗ dutyTok ER (recvCell (fwd c 1) 1) 0 0 ∗ reached ER (recvCell (fwd c 1) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM 1) (.dma (sendS 1)) hsc) (.dma (recvS 1)) hsrc hdst hsem) k) Q) := by
  subst hn
  unfold ownPts slotPts
  exact Rounds.wp_send_pointsTo 𝒱₀ ER (sched m ρ) (c : Thread nD τ) none (c' := (fwd c 1 : Thread nD τ)) (src := ownM) (dst := slotM 1) (q := shr 1)
    (fs := ownV m ρ c) (κ₁ := K (c, some (false, 1))) (κ₂ := K (fwd c 1, some (true, 1))) (r₁ := 0) (r₂ := 0) (d₁ := 0) (d₂ := 0) (fd := fn)
    (by rw [duties_send]; exact Finset.mem_singleton_self _) (by rw [duties_recv]; exact Finset.mem_singleton_self _)
    () () N (slot_amount 1 _) (amount_send m ρ c 1 0) (amount_recv m ρ (fwd c 1) 1 0) O hO (W := W)
    (by rw [payload_send]; exact BI.Entails.refl _)
    (by
      rw [payload_recv]; unfold recvPay slotPts; rw [back_fwd]
      iintro H
      iexists ((slotM 1).view.write (Elt F) fn ((ownM : Memref sig .tc .vmem S1x256 .f32).view.read (Elt F) (ownV m ρ c)) Finset.univ)
      isplitr
      · ipureintro; rw [View.read_write_univ]; rfl
      iexact H)

/-- Copy 2: the row buffer's share `shr 2` goes out, slot 2 of the device `fwd c 2` is rewritten with this device's row. -/
theorem wp_send_2 (K : Dev nD × CK → ℕ) (c n : Dev nD) (hn : n = fwd c 2)
    {hsc : (slotM 2 : Memref sig (Dev.tc n : Thread nD τ).2.kind .vmem S1x256 .f32).view.ref.isScScratch = false}
    {hsrc : (ownM : Memref sig .tc .vmem S1x256 .f32).view.WordExact} {hdst : (slotM 2).view.WordExact}
    {hsem : DmaTarget.Typed .vmem (.dma (recvS 2)) (.remote (Dev.tc n : Thread nD τ) (slotM 2) (.dma (sendS 2)) hsc)}
    {α : Type} {Q : α → sProp 𝕄} {k : PUnit → Prog (TpuEff nD τ sig (Elt F) Λ₀ .tc) α}
    (fn : Buf (Elt F) ((slotM 2).view.loc (fwd c 2 : Thread nD τ))) (W : Waits sig Unit) (O₀ O : CellTallies nD τ sig Unit)
    (hO : O₀ = O + tallyAt (recvCell (fwd c 2) 2) () N) :
    iprop(cellInv ER (sched m ρ) (K (c, some (false, 2))) (sendCell c 2) ∗ cellInv ER (sched m ρ) (K (fwd c 2, some (true, 2))) (recvCell (fwd c 2) 2)
        ∗ ownPts m ρ (shr 2) c ∗ slotPts (fwd c 2) 2 fn
        ∗ owes (c : Thread nD τ) O₀ W
        ∗ dutyTok ER (sendCell c 2) 0 0 ∗ reached ER (sendCell c 2) 0
        ∗ dutyTok ER (recvCell (fwd c 2) 2) 0 0 ∗ reached ER (recvCell (fwd c 2) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM 2) (.dma (sendS 2)) hsc) (.dma (recvS 2)) hsrc hdst hsem) k) Q) := by
  subst hn
  unfold ownPts slotPts
  exact Rounds.wp_send_pointsTo 𝒱₀ ER (sched m ρ) (c : Thread nD τ) none (c' := (fwd c 2 : Thread nD τ)) (src := ownM) (dst := slotM 2) (q := shr 2)
    (fs := ownV m ρ c) (κ₁ := K (c, some (false, 2))) (κ₂ := K (fwd c 2, some (true, 2))) (r₁ := 0) (r₂ := 0) (d₁ := 0) (d₂ := 0) (fd := fn)
    (by rw [duties_send]; exact Finset.mem_singleton_self _) (by rw [duties_recv]; exact Finset.mem_singleton_self _)
    () () N (slot_amount 2 _) (amount_send m ρ c 2 0) (amount_recv m ρ (fwd c 2) 2 0) O hO (W := W)
    (by rw [payload_send]; exact BI.Entails.refl _)
    (by
      rw [payload_recv]; unfold recvPay slotPts; rw [back_fwd]
      iintro H
      iexists ((slotM 2).view.write (Elt F) fn ((ownM : Memref sig .tc .vmem S1x256 .f32).view.read (Elt F) (ownV m ρ c)) Finset.univ)
      isplitr
      · ipureintro; rw [View.read_write_univ]; rfl
      iexact H)

end Front

open Front

set_option maxHeartbeats 1600000 in
/-- From the start of the body to the point where the three copies are started, whatever runs afterwards. -/
theorem sound_front (K : Dev nD × CK → ℕ) (c : Dev nD) (Kt : PUnit → sProp 𝕄)
    (k : BitVec 32 → BitVec 32 → Prog (TpuEff nD τ sig (Elt F) Λ₀ .tc) PUnit) :
    iprop(bodyPre m ρ K c ∗ (mid m ρ K c -∗ wp frame (wpE (defs₀ (F := F)) 𝒱₀ c none) Set.univ (k (w24 c) (w44 c)) Kt))
      ⊢ wp frame (wpE (defs₀ (F := F)) 𝒱₀ c none) Set.univ
          (do
            let ⟨d0, v2, v24⟩ : Σ' (d0 : Dev nD) (v2 : BitVec 32), BitVec 32 ← k0_part1 xM (Memref.isWhole_whole _) oM (Memref.isWhole_whole _) ownM (Memref.isWhole_whole _) commM (Memref.isWhole_whole _) cc0_scratch2 cc0_scratch3
            let v44 : BitVec 32 ← k0_part2 xM (Memref.isWhole_whole _) oM (Memref.isWhole_whole _) ownM (Memref.isWhole_whole _) commM (Memref.isWhole_whole _) cc0_scratch2 cc0_scratch3 d0 v2 v24
            k v24 v44) Kt := by
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold w24 w44 w2
  unfold bodyPre ghost payToks positions scratchAny
  simp only [bigSep_fin3, bigSep_CK]
  iintro ⟨⟨⟨⟨#HR, ⟨HatB, HatS0, HatS1, HatS2, HatR0, HatR1, HatR2⟩, ⟨HtB0, HtB1, HtB2⟩, ⟨HtR0, HtR1, HtR2⟩, HtS0, HtS1, HtS2⟩, HcB, ⟨HcR0, HcR1, HcR2⟩, #Hlev,
    ⟨%fo, Hown⟩, ⟨%fc, Hcomm⟩⟩, Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the receive buffer as its three slots
  ihave Hsl := (comm_split c fc) $$ Hcomm
  icases Hsl with ⟨Hs0, Hs1, Hs2⟩
  simp only [dev1_eq c, dev2_eq c, dev3_eq c]
  -- the signal to the device one place on: duty 0 of its barrier cell, with this device's slot 2
  iapply (Rounds.wp_signal 𝒱₀ ER (sched m ρ) (c : Thread nD τ) none (dst := (fwd c 0 : Thread nD τ)) (sem := barS) (r := 0) (κ := K (fwd c 0, none))
      (d := 0) (by rw [duties_bar]; exact Finset.mem_univ _) ((amount_bar m ρ (fwd c 0) 0).trans (by decide)) () (O₁ c) rfl)
    $$ [HO HtB0 Hs2]
  · isplitr; · iapply (records_inv m ρ K (fwd c 0, none)); iexact HR
    isplitl [HO]; · iexact HO
    isplitl [HtB0]; · iexact HtB0
    isplitl [Hs2]
    · rw [payload_bar]; unfold barPay grant; rw [fwd_fwd_rev, rev_0]
      isplitl [Hs2]; · iexists fc; iexact Hs2
      iapply (records_reached m ρ K (c, some (true, 2))); iexact HR
    · iapply (records_reached m ρ K (fwd c 0, none)); iexact HR
  iintro HO
  -- the signal to the device two places on: duty 1, with this device's slot 1
  iapply (Rounds.wp_signal 𝒱₀ ER (sched m ρ) (c : Thread nD τ) none (dst := (fwd c 1 : Thread nD τ)) (sem := barS) (r := 0) (κ := K (fwd c 1, none))
      (d := 1) (by rw [duties_bar]; exact Finset.mem_univ _) ((amount_bar m ρ (fwd c 1) 1).trans (by decide)) () (O₂ c) rfl)
    $$ [HO HtB1 Hs1]
  · isplitr; · iapply (records_inv m ρ K (fwd c 1, none)); iexact HR
    isplitl [HO]; · iexact HO
    isplitl [HtB1]; · iexact HtB1
    isplitl [Hs1]
    · rw [payload_bar]; unfold barPay grant; rw [fwd_fwd_rev, rev_1]
      isplitl [Hs1]; · iexists fc; iexact Hs1
      iapply (records_reached m ρ K (c, some (true, 1))); iexact HR
    · iapply (records_reached m ρ K (fwd c 1, none)); iexact HR
  iintro HO
  -- the signal to the device three places on: duty 2, with this device's slot 0
  iapply (Rounds.wp_signal 𝒱₀ ER (sched m ρ) (c : Thread nD τ) none (dst := (fwd c 2 : Thread nD τ)) (sem := barS) (r := 0) (κ := K (fwd c 2, none))
      (d := 2) (by rw [duties_bar]; exact Finset.mem_univ _) ((amount_bar m ρ (fwd c 2) 2).trans (by decide)) () (O₃ c) rfl)
    $$ [HO HtB2 Hs0]
  · isplitr; · iapply (records_inv m ρ K (fwd c 2, none)); iexact HR
    isplitl [HO]; · iexact HO
    isplitl [HtB2]; · iexact HtB2
    isplitl [Hs0]
    · rw [payload_bar]; unfold barPay grant; rw [fwd_fwd_rev, rev_2]
      isplitl [Hs0]; · iexists fc; iexact Hs0
      iapply (records_reached m ρ K (c, some (true, 0))); iexact HR
    · iapply (records_reached m ρ K (fwd c 2, none)); iexact HR
  iintro HO
  -- the block is read, the row buffer read and overwritten with the block's column sums
  iapply (wp_load 𝒱₀ (c : Thread nD τ) none Set.univ (m := xM) (Finset.subset_univ _)) $$ Hx; iintro Hx
  rw [read_x]
  iapply (wp_load 𝒱₀ (c : Thread nD τ) none Set.univ (m := ownM) (Finset.subset_univ _)) $$ Hown; iintro Hown
  iapply (wp_store 𝒱₀ (c : Thread nD τ) none Set.univ (m := ownM) (r := rRow) (Mk := Finset.univ) (Finset.subset_univ _)) $$ Hown; iintro Hown
  rw [write_own]
  -- the wait for the three other devices' units: each hands over the slot of its receive buffer this device writes
  ihave HIb := (records_inv m ρ K (c, none)) $$ HR
  icases HIb with #HIb
  ihave Hmw := (mayWait_bar c) $$ Hlev
  sl_exec
  ihave Hp := (Entails.of_eq (rest_bar'' m ρ c)) $$ [HatB_pay1]
  · iexact HatB_pay1
  unfold grant
  icases Hp with ⟨⟨⟨%fn2, Hn2⟩, #HrN2⟩, ⟨⟨%fn1, Hn1⟩, #HrN1⟩, ⟨%fn0, Hn0⟩, #HrN0⟩
  -- the row buffer holds this device's sums; it is cut into the three shares that go out and the one that stays
  ihave Hown' := (Entails.of_eq (ownPts_full_eq m ρ c).symm) $$ [Hown]
  · iexact Hown
  ihave Hsh := (own_split m ρ c).1 $$ Hown'
  icases Hsh with ⟨Ho0, Ho1, Ho2, HoK⟩
  -- copy 1: share 1 of the row buffer goes out to slot 1 of the device 2 places on
  iapply (wp_send_1 m ρ K c _ (dev4_eq c) fn1 (insert (SemLoc.reg barS, ()) W) (O₃ c) (O₄ c) rfl) $$ [Ho1 Hn1 HO HtS1 HtR1]
  · isplitr; · iapply (records_inv m ρ K (c, some (false, 1))); iexact HR
    isplitr; · iapply (records_inv m ρ K (fwd c 1, some (true, 1))); iexact HR
    isplitl [Ho1]; · iexact Ho1
    isplitl [Hn1]; · iexact Hn1
    isplitl [HO]; · iexact HO
    isplitl [HtS1]; · iexact HtS1
    isplitr; · iapply (records_reached m ρ K (c, some (false, 1))); iexact HR
    isplitl [HtR1]; · iexact HtR1
    iexact HrN1
  iintro ⟨HcS1, HO⟩
  -- copy 0: share 0 of the row buffer goes out to slot 0 of the device 1 place on
  iapply (wp_send_0 m ρ K c _ (dev5_eq c) fn0 (insert (SemLoc.reg barS, ()) W) (O₄ c) (O₅ c) rfl) $$ [Ho0 Hn0 HO HtS0 HtR0]
  · isplitr; · iapply (records_inv m ρ K (c, some (false, 0))); iexact HR
    isplitr; · iapply (records_inv m ρ K (fwd c 0, some (true, 0))); iexact HR
    isplitl [Ho0]; · iexact Ho0
    isplitl [Hn0]; · iexact Hn0
    isplitl [HO]; · iexact HO
    isplitl [HtS0]; · iexact HtS0
    isplitr; · iapply (records_reached m ρ K (c, some (false, 0))); iexact HR
    isplitl [HtR0]; · iexact HtR0
    iexact HrN0
  iintro ⟨HcS0, HO⟩
  -- copy 2: share 2 of the row buffer goes out to slot 2 of the device 3 places on
  iapply (wp_send_2 m ρ K c _ (dev6_eq c) fn2 (insert (SemLoc.reg barS, ()) W) (O₅ c) (0) (zero_add _).symm) $$ [Ho2 Hn2 HO HtS2 HtR2]
  · isplitr; · iapply (records_inv m ρ K (c, some (false, 2))); iexact HR
    isplitr; · iapply (records_inv m ρ K (fwd c 2, some (true, 2))); iexact HR
    isplitl [Ho2]; · iexact Ho2
    isplitl [Hn2]; · iexact Hn2
    isplitl [HO]; · iexact HO
    isplitl [HtS2]; · iexact HtS2
    isplitr; · iapply (records_reached m ρ K (c, some (false, 2))); iexact HR
    isplitl [HtR2]; · iexact HtR2
    iexact HrN2
  iintro ⟨HcS2, HO⟩
  -- the copies are started: what the device holds now
  iapply Hk
  unfold mid
  simp only [bigSep_fin3, bigSep_BK]
  isplitr; · iexact HR
  isplitl [HatS0 HatS1 HatS2 HatR0 HatR1 HatR2]
  · isplitl [HatS0]; · iexact HatS0
    isplitl [HatS1]; · iexact HatS1
    isplitl [HatS2]; · iexact HatS2
    isplitl [HatR0]; · iexact HatR0
    isplitl [HatR1]; · iexact HatR1
    iexact HatR2
  isplitl [HcR0 HcR1 HcR2]
  · isplitl [HcR0]; · iexact HcR0
    isplitl [HcR1]; · iexact HcR1
    iexact HcR2
  isplitl [HcS0 HcS1 HcS2]
  · isplitl [HcS0]; · iexact HcS0
    isplitl [HcS1]; · iexact HcS1
    iexact HcS2
  isplitl [HO]; · iexists _; iexact HO
  isplitl [HoK]; · iexact HoK
  isplitl [Hx]
  · iexists _; isplitr; · (ipureintro; rfl)
    iexact Hx
  iexists _; iexact Hout

end Cert.KernelIdeal.Proto

end
-- ==== Proof.BodyBack.lean ====
/-
  The back of one device's body: the three receives, the sum of the four rows, the waits for the three sends, and
  everything put back together.
-/
import proofs.«900608_g7700000000000609_dist_sum_ax0_shard0_i_m512_n256_v7x_i4_f32_1_alg».proof.Proof.Mid

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Staging -/

omit [FloatOps F] in
/-- Everything indexed by the six own cells, listed: the three send cells, then the three receive cells. -/
private theorem bigSep_own (Φ : Bool × Fin 3 → sProp 𝕄) :
    bigSep Finset.univ Φ = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ

/-- One cell's invariant out of the records. -/
private theorem inv_of_records (K : Dev nD × CK → ℕ) (ck : Dev nD × CK) :
    records m ρ K ⊢ cellInv ER (sched m ρ) (K ck) (kcell ck) := by
  unfold records
  exact Laws.sep_and.trans (and_elimL.trans (bigSep_elim (Finset.mem_univ ck)))

omit [FloatOps F] in
private theorem zero2 : (![0, 0] : Fin 2 → Nat) = fun _ => 0 := funext fun a => by fin_cases a <;> rfl

/-- The whole-row rectangle the body loads and stores through. -/
private abbrev rowR : Rect S1x256 := Rect.unit (s := S1x256) ![0, 0] S1x256.size inb_S1x256_S1x256_0_0

omit [FloatOps F] in
private theorem own_set : (ownM : Memref sig .tc .vmem S1x256 .f32).view.set = Finset.univ := View.set_whole _

/-- What the body stores: the row buffer's sums and the three slots as loaded add up to the device's result. -/
private theorem stored_eq (c : Dev nD) (fo : (cc0_stg1_0 : Ref sig .tc).ty.Contents (Elt F))
    (f0 f1 f2 : (cc0_scratch1 : Ref sig .tc).ty.Contents (Elt F))
    (h0 : (slotM 0).view.read (Elt F) f0 = ownV m ρ (back c 0))
    (h1 : (slotM 1).view.read (Elt F) f1 = ownV m ρ (back c 1))
    (h2 : (slotM 2).view.read (Elt F) f2 = ownV m ρ (back c 2)) :
    ((oM : Memref sig .tc .vmem S1x256 .f32).access rowR : View sig .tc _ _ _).write (Elt F) fo
        (k0_pay2 ((ownM : Memref sig .tc .vmem S1x256 .f32).view.readAt (Elt F) rowR.toLoadRect (ownV m ρ c))
          ((commM : Memref sig .tc .vmem S3x1x256 .f32).view.readAt (Elt F) (slotR 0).toLoadRect f0)
          ((commM : Memref sig .tc .vmem S3x1x256 .f32).view.readAt (Elt F) (slotR 2).toLoadRect f2)
          ((commM : Memref sig .tc .vmem S3x1x256 .f32).view.readAt (Elt F) (slotR 1).toLoadRect f1)) Finset.univ
      = outAt m ρ c :=
  (Memref.write_access_unit_zero_univ (Elt F) cc0_stg1_0 zero2 _ fo _).trans
    (pay2_eq _ _ _ _ (xblk m ρ (back c 0)) (xblk m ρ (back c 1)) (xblk m ρ (back c 2)) (xblk m ρ c)
      (Memref.readAt_unit_zero (Elt F) cc0_scratch0 zero2 _ _)
      ((slot_read0 f0).trans h0) ((slot_read2 f2).trans h2) ((slot_read1 f1).trans h1))

/-- The three slots, each held through the whole receive buffer's location, are the receive buffer whole at some contents. -/
private theorem comm_join_at (c : Dev nD) (f0 f1 f2 : Buf (Elt F) ((c : Thread nD τ).loc cc0_scratch1)) :
    iprop(((commM : Memref sig .tc .vmem S3x1x256 .f32).view.loc (c : Thread nD τ) ↦[(slotM 0).view.set]{fullShare} f0)
        ∗ ((commM : Memref sig .tc .vmem S3x1x256 .f32).view.loc (c : Thread nD τ) ↦[(slotM 1).view.set]{fullShare} f1)
        ∗ ((commM : Memref sig .tc .vmem S3x1x256 .f32).view.loc (c : Thread nD τ) ↦[(slotM 2).view.set]{fullShare} f2))
      ⊢ (iprop(∃ g : Buf (Elt F) ((c : Thread nD τ).loc cc0_scratch1), ((c : Thread nD τ).loc cc0_scratch1) ↦{fullShare} g) : sProp 𝕄) :=
  comm_join c f0 f1 f2

/-! ## The back of the body -/

set_option maxHeartbeats 1600000 in
/-- From the point where the three copies are started to the end of the body. -/
theorem sound_back (K : Dev nD × CK → ℕ) (c : Dev nD) (v24 v44 : BitVec 32) (Kt : PUnit → sProp 𝕄) :
    iprop(mid m ρ K c ∗ (bodyPost m ρ c -∗ Kt ⟨⟩))
      ⊢ wp frame (wpE (defs₀ (F := F)) 𝒱₀ c none) Set.univ (backProg (F := F) v24 v44) Kt := by
  unfold backProg
  rw [k0_part3_eq_skeleton]; unfold k0_part3_skel
  simp only [Prog.lift, Prog.bind_op, Prog.bind_ret, Prog.pure_eq_ret]
  unfold mid
  rw [bigSep_own, bigSep_fin3, bigSep_fin3]
  iintro ⟨⟨#Hrec, ⟨HatS0, HatS1, HatS2, HatR0, HatR1, HatR2⟩, ⟨HcR0, HcR1, HcR2⟩, ⟨HcS0, HcS1, HcS2⟩, ⟨%W, HO⟩, Hown, Hx, ⟨%fo, Hout⟩⟩, Hk⟩
  ihave #HIs0 := (inv_of_records m ρ K (c, some (false, 0))) $$ Hrec
  ihave #HIs1 := (inv_of_records m ρ K (c, some (false, 1))) $$ Hrec
  ihave #HIs2 := (inv_of_records m ρ K (c, some (false, 2))) $$ Hrec
  ihave #HIr0 := (inv_of_records m ρ K (c, some (true, 0))) $$ Hrec
  ihave #HIr1 := (inv_of_records m ρ K (c, some (true, 1))) $$ Hrec
  ihave #HIr2 := (inv_of_records m ρ K (c, some (true, 2))) $$ Hrec
  -- the rows of the devices one and three places before have landed in slots 0 and 2
  sl_exec
  -- its own row, read through the quarter of the row buffer it kept
  unfold ownPts
  iapply (wp_load 𝒱₀ (c : Thread nD τ) none Set.univ (m := ownM) (by rw [own_set]; exact Finset.subset_univ _)) $$ Hown; iintro Hown
  ihave Hp := (Entails.of_eq ((congrArg (fun S => bigSep S fun d => (sched m ρ).payload (recvCell c 0) 0 d) (Finset.sdiff_empty).symm).trans (rest_recv m ρ c 0))) $$ HatR0_pay1
  unfold recvPay
  icases Hp with ⟨%f0, %hf0, Hs0⟩
  ihave Hp := (Entails.of_eq ((congrArg (fun S => bigSep S fun d => (sched m ρ).payload (recvCell c 2) 0 d) (Finset.sdiff_empty).symm).trans (rest_recv m ρ c 2))) $$ HatR2_pay1
  unfold recvPay
  icases Hp with ⟨%f2, %hf2, Hs2⟩
  -- slots 0 and 2, read through the whole receive buffer
  unfold slotPts
  iapply (wp_load 𝒱₀ (c : Thread nD τ) none Set.univ (m := commM) (S := (slotM 0).view.set) (q := fullShare) (f := f0) slot_load_sub0) $$ Hs0; iintro Hs0
  iapply (wp_load 𝒱₀ (c : Thread nD τ) none Set.univ (m := commM) (S := (slotM 2).view.set) (q := fullShare) (f := f2) slot_load_sub2) $$ Hs2; iintro Hs2
  -- the row of the device two places before has landed in slot 1
  sl_exec
  ihave Hp := (Entails.of_eq ((congrArg (fun S => bigSep S fun d => (sched m ρ).payload (recvCell c 1) 0 d) (Finset.sdiff_empty).symm).trans (rest_recv m ρ c 1))) $$ HatR1_pay1
  unfold recvPay
  icases Hp with ⟨%f1, %hf1, Hs1⟩
  unfold slotPts
  iapply (wp_load 𝒱₀ (c : Thread nD τ) none Set.univ (m := commM) (S := (slotM 1).view.set) (q := fullShare) (f := f1) slot_load_sub1) $$ Hs1; iintro Hs1
  -- the result's staging buffer: read (the value is not used), then written whole
  iapply (wp_load 𝒱₀ (c : Thread nD τ) none Set.univ (m := oM) (Finset.subset_univ _)) $$ Hout; iintro Hout
  iapply (wp_store 𝒱₀ (c : Thread nD τ) none Set.univ (m := oM) (r := rowR) (Mk := Finset.univ) (Finset.subset_univ _)) $$ Hout; iintro Hout
  -- the three copies have been read out of the row buffer: its three shares are back
  sl_exec
  ihave Hq0 := (Entails.of_eq ((congrArg (fun S => bigSep S fun d => (sched m ρ).payload (sendCell c 0) 0 d) (Finset.sdiff_empty).symm).trans (rest_send m ρ c 0))) $$ HatS0_pay1
  ihave Hq2 := (Entails.of_eq ((congrArg (fun S => bigSep S fun d => (sched m ρ).payload (sendCell c 2) 0 d) (Finset.sdiff_empty).symm).trans (rest_send m ρ c 2))) $$ HatS2_pay1
  ihave Hq1 := (Entails.of_eq ((congrArg (fun S => bigSep S fun d => (sched m ρ).payload (sendCell c 1) 0 d) (Finset.sdiff_empty).symm).trans (rest_send m ρ c 1))) $$ HatS1_pay1
  -- the six own cells close: their counters, at zero, are the device's again
  imod (Rounds.cell_close ER (sched m ρ) (Set.mem_univ (K (c, some (false, 0)))) (fun h => h) (R := 1) (duties_later m ρ (sendCell c 0))) $$ [HatS0] with HzS0
  · isplitr; · iexact HIs0
    iexact HatS0
  imod (Rounds.cell_close ER (sched m ρ) (Set.mem_univ (K (c, some (false, 1)))) (fun h => h) (R := 1) (duties_later m ρ (sendCell c 1))) $$ [HatS1] with HzS1
  · isplitr; · iexact HIs1
    iexact HatS1
  imod (Rounds.cell_close ER (sched m ρ) (Set.mem_univ (K (c, some (false, 2)))) (fun h => h) (R := 1) (duties_later m ρ (sendCell c 2))) $$ [HatS2] with HzS2
  · isplitr; · iexact HIs2
    iexact HatS2
  imod (Rounds.cell_close ER (sched m ρ) (Set.mem_univ (K (c, some (true, 0)))) (fun h => h) (R := 1) (duties_later m ρ (recvCell c 0))) $$ [HatR0] with HzR0
  · isplitr; · iexact HIr0
    iexact HatR0
  imod (Rounds.cell_close ER (sched m ρ) (Set.mem_univ (K (c, some (true, 1)))) (fun h => h) (R := 1) (duties_later m ρ (recvCell c 1))) $$ [HatR1] with HzR1
  · isplitr; · iexact HIr1
    iexact HatR1
  imod (Rounds.cell_close ER (sched m ρ) (Set.mem_univ (K (c, some (true, 2)))) (fun h => h) (R := 1) (duties_later m ρ (recvCell c 2))) $$ [HatR2] with HzR2
  · isplitr; · iexact HIr2
    iexact HatR2
  rw [wp_ret]; imodintro
  iapply Hk
  unfold bodyPost Φ₁ scratchAny Dat.owesAt Pipeline.owesWithin
  rw [show (dats m ρ 0 c).owed t₀.succ = 0 from rfl, bigSep_own]
  isplitl [Hown Hq0 Hq1 Hq2 Hs0 Hs1 Hs2 HzS0 HzS1 HzS2 HzR0 HzR1 HzR2]
  · isplitl [Hown Hq0 Hq1 Hq2 Hs0 Hs1 Hs2]
    · -- the row buffer whole again, from its four shares; the receive buffer whole again, from its three slots
      isplitl [Hown Hq0 Hq1 Hq2]
      · iexists (ownV m ρ c)
        ihave Hfull := (own_split m ρ c).mpr $$ [Hq0 Hq1 Hq2 Hown]
        · unfold sendPay ownPts
          isplitl [Hq0]; · iexact Hq0
          isplitl [Hq1]; · iexact Hq1
          isplitl [Hq2]; · iexact Hq2
          iexact Hown
        iapply (Entails.of_eq (ownPts_full_eq m ρ c)) $$ Hfull
      · iapply (comm_join_at c f0 f1 f2) $$ [Hs0 Hs1 Hs2]
        isplitl [Hs0]; · iexact Hs0
        isplitl [Hs1]; · iexact Hs1
        iexact Hs2
    · isplitl [HzS0]; · iexact HzS0
      isplitl [HzS1]; · iexact HzS1
      isplitl [HzS2]; · iexact HzS2
      isplitl [HzR0]; · iexact HzR0
      isplitl [HzR1]; · iexact HzR1
      iexact HzR2
  isplitl [HO]
  · iexists (insert (SemLoc.dma (sendS 1), ()) (insert (SemLoc.dma (sendS 2), ()) (insert (SemLoc.dma (sendS 0), ()) (insert (SemLoc.dma ((cc0_scratch3.slice (Rect.unit (s := S3) ![1] S1.size inb_S3_S1_1)).squeeze S_ squeezes_S1_S_).sem, ()) (insert (SemLoc.dma ((cc0_scratch3.slice (Rect.unit (s := S3) ![2] S1.size inb_S3_S1_2)).squeeze S_ squeezes_S1_S_).sem, ()) (insert (SemLoc.dma ((cc0_scratch3.slice (Rect.unit (s := S3) ![0] S1.size inb_S3_S1_0)).squeeze S_ squeezes_S1_S_).sem, ()) W))))))
    isplitr; · ipureintro; exact fun _ _ => Or.inl trivial
    iexact HO
  isplitl [Hx]; · iexact Hx
  iexists _
  isplitr; · ipureintro; exact stored_eq m ρ c fo f0 f1 f2 hf0 hf1 hf2
  iexact Hout

end Cert.KernelIdeal.Proto

end
-- ==== Proof.Body.lean ====
/-
  One device's body, from the protocol's ghost state to its end: its front, then its back; and that as the body
  obligation of the one grid point.
-/
import proofs.«900608_g7700000000000609_dist_sum_ax0_shard0_i_m512_n256_v7x_i4_f32_1_alg».proof.Proof.BodyFront
import proofs.«900608_g7700000000000609_dist_sum_ax0_shard0_i_m512_n256_v7x_i4_f32_1_alg».proof.Proof.BodyBack

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The whole body. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (F := F) xM (Memref.isWhole_whole _) oM (Memref.isWhole_whole _) ownM (Memref.isWhole_whole _) commM (Memref.isWhole_whole _) cc0_scratch2 cc0_scratch3) Kt := by
  rw [body_split]
  iintro ⟨Hpre, Hk⟩
  iapply (sound_front m ρ K c Kt (backProg (F := F)))
  isplitl [Hpre]; · iexact Hpre
  iintro Hmid
  iapply (sound_back m ρ K c (w24 c) (w44 c) Kt)
  isplitl [Hmid]; · iexact Hmid
  iexact Hk

theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) xM (Memref.isWhole_whole _) oM (Memref.isWhole_whole _) ownM (Memref.isWhole_whole _) commM (Memref.isWhole_whole _) cc0_scratch2 cc0_scratch3) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelIdeal.Proto

end
-- ==== Proof.Launch.lean ====
/-
  The launch: from one device's body to the run of the whole program on the four devices.

  The protocol's ghost state is funded for every device at once: the seven cells of each device in their launch
  state, each owner at round 0 of its cells, and the nine duty tokens of each device's cells. The counters of the
  six scoped semaphores and of the runtime's barrier semaphore, all at zero, open the cells' invariants. The tokens
  then go round the ring to the devices that pay the duties: the barrier token of duty `j` of a device goes to the
  device `j + 1` places before it, the receive token of its slot `k` to the device `k + 1` places before it; the send
  tokens stay. What every device owes at launch, summed over the devices, is each device's own credit: three units
  on its barrier cell and a copy's credit on each of its three receive cells.
-/
import proofs.«900608_g7700000000000609_dist_sum_ax0_shard0_i_m512_n256_v7x_i4_f32_1_alg».proof.Proof.Body

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- All the protocol's cells: seven a device. -/
def allCells : Finset (GSem nD τ sig) := Finset.univ.map ⟨kcell, kcell_injective⟩

theorem recvS_inj : ∀ k k' : Fin 3, (SemLoc.dma (recvS k) : SemLoc sig) = .dma (recvS k') → k = k' := by decide
theorem sendS_inj : ∀ k k' : Fin 3, (SemLoc.dma (sendS k) : SemLoc sig) = .dma (sendS k') → k = k' := by decide

/-- The duties of a device's own cells: the three of its barrier cell, the one of each receive cell, the one of each
    send cell. -/
abbrev TK : Type := Fin 3 ⊕ (Fin 3 ⊕ Fin 3)
abbrev tokOf : Dev nD × TK → GSem nD τ sig × ℕ × Fin 3
  | (c, .inl j) => (barCell c, 0, j)
  | (c, .inr (.inl k)) => (recvCell c k, 0, 0)
  | (c, .inr (.inr k)) => (sendCell c k, 0, 0)

theorem tokOf_injective : Function.Injective (tokOf : Dev nD × TK → GSem nD τ sig × ℕ × Fin 3) := by
  rintro ⟨c, t⟩ ⟨c', t'⟩ h
  have h1 : c = c' := by
    rcases t with j | k | k <;> rcases t' with j' | k' | k' <;> exact congrArg (fun x : GSem nD τ sig × ℕ × Fin 3 => x.1.1.1) h
  subst h1
  have hs (x y : GSem nD τ sig × ℕ × Fin 3) (e : x = y) : x.1.2 = y.1.2 := congrArg (fun x : GSem nD τ sig × ℕ × Fin 3 => x.1.2) e
  rcases t with j | k | k <;> rcases t' with j' | k' | k'
  · rw [show j = j' from congrArg (fun x : GSem nD τ sig × ℕ × Fin 3 => x.2.2) h]
  · exact absurd (hs _ _ h).symm (recv_ne_bar k')
  · exact absurd (hs _ _ h).symm (send_ne_bar k')
  · exact absurd (hs _ _ h) (recv_ne_bar k)
  · rw [recvS_inj k k' (hs _ _ h)]
  · exact absurd (hs _ _ h).symm (send_ne_recv k' k)
  · exact absurd (hs _ _ h) (send_ne_bar k)
  · exact absurd (hs _ _ h) (send_ne_recv k k')
  · rw [sendS_inj k k' (hs _ _ h)]

def allToks : Finset (GSem nD τ sig × ℕ × Fin 3) := Finset.univ.map ⟨tokOf, tokOf_injective⟩

/-- The launch element: the pipeline library's, and the protocol's. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 3 => dutyTok ER (barCell c) 0 j)
    ∗ (bigSep Finset.univ fun k : Fin 3 => dutyTok ER (recvCell c k) 0 0)
    ∗ (bigSep Finset.univ fun k : Fin 3 => dutyTok ER (sendCell c k) 0 0))

/-- What the launch element deals device `c`. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero open the cells; the tokens go round -/

omit [FloatOps F] in
theorem bigSep_option {α : Type} [Fintype α] (Φ : Option α → sProp 𝕄) :
    bigSep Finset.univ Φ = iprop((bigSep Finset.univ fun a => Φ (some a)) ∗ Φ none) := by
  rw [bigSep_univ_equiv (Equiv.optionEquivSumPUnit.{0, 0} α).symm Φ, bigSep_univ_sum, bigSep_univ_of_subsingleton PUnit.unit.{1}]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [bigSep_option, unscopedSems0_eq]
  exact .rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ positions c ∗ payToks c) ⊢ G' m ρ c := by
  unfold G' ghost
  iintro H; iexists K; iexact H

omit [FloatOps F] in
/-- A family over (device, slot) read at the device `k + 1` places on, slot by slot, is the same family. -/
theorem bigSep_ring (Ψ : Dev nD → Fin 3 → sProp 𝕄) :
    (bigSep Finset.univ fun c : Dev nD => bigSep Finset.univ fun j : Fin 3 => Ψ c j)
      = bigSep Finset.univ fun c : Dev nD => bigSep Finset.univ fun j : Fin 3 => Ψ (fwd c j) j := by
  rw [bigSep_congr (s := Finset.univ) (fun (c : Dev nD) _ => bigSep_fin3 (Ψ c)),
    bigSep_congr (s := Finset.univ) (fun (c : Dev nD) _ => bigSep_fin3 (fun j => Ψ (fwd c j) j)),
    bigSep_sep', bigSep_sep', bigSep_sep', bigSep_sep',
    bigSep_univ_equiv (ring 0) (fun c : Dev nD => Ψ c 0), bigSep_univ_equiv (ring 1) (fun c : Dev nD => Ψ c 1),
    bigSep_univ_equiv (ring 2) (fun c : Dev nD => Ψ c 2)]
  rfl

omit [FloatOps F] in
/-- The tokens dealt around the ring: duty `j` of a barrier cell to the device `j + 1` places before its owner, the
    receive token of slot `k` to the device `k + 1` places before; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_ring (fun (c : Dev nD) (j : Fin 3) => (dutyTok ER (barCell c) 0 j : sProp 𝕄)),
    bigSep_ring (fun (c : Dev nD) (k : Fin 3) => (dutyTok ER (recvCell c k) 0 0 : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions c) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Three units of credit on one cell are its three-unit credit. -/
theorem cred_three (g : GSem nD τ sig) :
    iprop(cred (tallyAt g () 1) ∗ cred (tallyAt g () 1) ∗ cred (tallyAt g () 1)) ⊢ (cred (tallyAt g () 3) : sProp 𝕄) := by
  show _ ⊢ (cred (tallyAt g () (1 + (1 + 1))) : sProp 𝕄)
  rw [← tallyAt_add g () 1 (1 + 1), ← tallyAt_add g () 1 1]
  exact (sep_mono_right (cred_add _ _).2).trans (cred_add _ _).2

omit [FloatOps F] in
/-- What the devices owe at launch, summed over the devices, is for device `c` three units on its barrier cell (one from
    each other device) and a copy's credit on each of its receive cells (slot `k`'s from the device `k + 1` places before). -/
theorem creds (c : Dev nD) :
    (Pipeline.launchCred O₀ c : sProp 𝕄)
      ⊢ iprop(cred (tallyAt (barCell c) () 3) ∗ bigSep Finset.univ fun k : Fin 3 => cred (tallyAt (recvCell c k) () N)) := by
  have hb (j : Fin 3) : (Pipeline.launchCred (fun d : Dev nD => tallyAt (barCell (fwd d j)) () 1) c : sProp 𝕄) ⊢ cred (tallyAt (barCell c) () 1) :=
    Pipeline.launchCred_tallyAt (.reg barS) (fun d => fwd d j) (fun c => back c j) (fun c => fwd_back c j) (fun d => back_fwd d j) () 1 c
  have hr (k : Fin 3) : (Pipeline.launchCred (fun d : Dev nD => tallyAt (recvCell (fwd d k) k) () N) c : sProp 𝕄) ⊢ cred (tallyAt (recvCell c k) () N) :=
    Pipeline.launchCred_tallyAt (.dma (recvS k)) (fun d => fwd d k) (fun c => back c k) (fun c => fwd_back c k) (fun d => back_fwd d k) () N c
  rw [show (O₀ : Dev nD → CellTallies nD τ sig Unit) = fun d => O₁ d + tallyAt (barCell (fwd d 0)) () 1 from rfl, Pipeline.launchCred_add,
    show (O₁ : Dev nD → CellTallies nD τ sig Unit) = fun d => O₂ d + tallyAt (barCell (fwd d 1)) () 1 from rfl, Pipeline.launchCred_add,
    show (O₂ : Dev nD → CellTallies nD τ sig Unit) = fun d => O₃ d + tallyAt (barCell (fwd d 2)) () 1 from rfl, Pipeline.launchCred_add,
    show (O₃ : Dev nD → CellTallies nD τ sig Unit) = fun d => O₄ d + tallyAt (recvCell (fwd d 1) 1) () N from rfl, Pipeline.launchCred_add,
    show (O₄ : Dev nD → CellTallies nD τ sig Unit) = fun d => O₅ d + tallyAt (recvCell (fwd d 0) 0) () N from rfl, Pipeline.launchCred_add,
    show (O₅ : Dev nD → CellTallies nD τ sig Unit) = fun d => tallyAt (recvCell (fwd d 2) 2) () N from rfl, bigSep_fin3]
  iintro ⟨⟨⟨⟨⟨H2r, H0r⟩, H1r⟩, Hb2⟩, Hb1⟩, Hb0⟩
  ihave Hb0 := (hb 0) $$ Hb0
  ihave Hb1 := (hb 1) $$ Hb1
  ihave Hb2 := (hb 2) $$ Hb2
  ihave H0r := (hr 0) $$ H0r
  ihave H1r := (hr 1) $$ H1r
  ihave H2r := (hr 2) $$ H2r
  isplitl [Hb0 Hb1 Hb2]
  · iapply (cred_three (F := F) (barCell c))
    isplitl [Hb0]; · iexact Hb0
    isplitl [Hb1] <;> iassumption
  isplitl [H0r]; · iexact H0r
  isplitl [H1r] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN⟩
  imodintro
  unfold start G'
  isplitl
  · isplitl [HG]; · iexact HG
    isplitl [H3]; · iexact H3
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratchAny Pipeline.ownSems0
  iintro ⟨Hr, Hz⟩
  isplitr; · iempintro
  isplitl [Hz]; · iexact Hz
  iexact Hr

/-- The staging semaphores are no receive semaphore: they may be waited on whatever the device still owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- The windows' arrays after the one grid point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of the program — the four devices meeting on the barrier semaphore, then each sending its row of column
    sums to the other three — terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run, named -/

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the one grid point is what the body left in the result's staging buffer: the block is the
    whole array, written whole. -/
theorem finalA_out (c : Dev nD) : finalA m ρ c (1 : Fin 2) = outAt m ρ c := by
  have hz : (fun a => (win0_1.index t₀) a * main_v1.ty.shape.size a) = fun _ => 0 := funext fun a => by fin_cases a <;> decide
  unfold finalA
  rw [show cfg0.N = (t₀ : Fin cfg0.N).val + 1 from rfl, (dats (F := F) m ρ 0 c).arrAt_succ (1 : Fin 2) t₀, flush0_1 t₀, if_pos rfl]
  exact Memref.write_access_unit_zero_univ (Elt F) main_v1 hz (fun a => by fin_cases a <;> decide) _ _

/-- The block of the argument a device's body reads is the device's whole argument array. -/
theorem xblk_eq (c : Dev nD) : xblk m ρ c = m ((c : Thread nD τ).loc main_arg0) := by
  have hz : (fun a => (win0_0.index (0 : Fin 1)) a * main_arg0.ty.shape.size a) = fun _ => 0 := funext fun a => by fin_cases a <;> decide
  unfold xblk
  exact Memref.read_access_unit_zero (Elt F) main_arg0 hz (fun a => by fin_cases a <;> decide) _

/-- The run with every value named: on each device the result array holds the sum of the device's own row of column
    sums and the rows of the devices one, two and three places before it, and the argument array is unchanged. -/
theorem run_values : θ_run defs (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main m ρ)

end Cert.KernelIdeal.Proto

end
-- ==== Proof.Bits.Spec.lean ====
/-
  What the kernel computes, as pure functions of the devices' blocks, and the ring of four devices.

  Each device sums the 512 rows of its own block column by column (a row of 256 sums), sends that row to the
  other three devices, and adds its own row to the three rows it receives — those of the devices one, three
  and two places before it on the ring, in that order. A received row sits in one of three one-row slots of a
  [3, 1, 256] buffer, so it is read back as a [1, 1, 256] value and squeezed to a row again.
-/
import proofs.«900608_g7700000000000609_dist_sum_ax0_shard0_i_m512_n256_v7x_i4_f32_1_alg».proof.Proof.Gen.Kernel.Skeleton
import Idealize.ShloMosaic.Lib.Pipeline.Value

noncomputable section

namespace Cert.Kernel.Spec

open Idealize.ShloMosaic Cert.Kernel Cert.Kernel.Gen

variable {F : FTy → Type} [FloatOps F]

/-! ## The ring -/

/-- The device `k + 1` places after `c`: the one `c` sends its row to through slot `k`. -/
def fwd (c : Dev nD) (k : Fin 3) : Dev nD := ⟨(c.val + (k.val + 1)) % 4, Nat.mod_lt _ (by decide)⟩
/-- The device `k + 1` places before `c`: the one whose row arrives in `c`'s slot `k`. -/
def back (c : Dev nD) (k : Fin 3) : Dev nD := ⟨(c.val + (3 - k.val)) % 4, Nat.mod_lt _ (by decide)⟩

theorem back_fwd (c : Dev nD) (k : Fin 3) : back (fwd c k) k = c := by revert c k; decide
theorem fwd_back (c : Dev nD) (k : Fin 3) : fwd (back c k) k = c := by revert c k; decide
theorem fwd_ne (c : Dev nD) (k : Fin 3) : fwd c k ≠ c := by revert c k; decide
theorem fwd_inj (c : Dev nD) (k k' : Fin 3) (h : fwd c k = fwd c k') : k = k' := by revert c k k'; decide
theorem back_inj (c : Dev nD) (k k' : Fin 3) (h : back c k = back c k') : k = k' := by revert c k k'; decide
/-- Going `k + 1` places forward is going `3 - k` places back: slot `2 - k` of the ring read the other way. -/
theorem fwd_eq_back (c : Dev nD) (k : Fin 3) : fwd c k = back c ⟨2 - k.val, by omega⟩ := by revert c k; decide

/-! ## The values -/

theorem casts_row_slot : S1x256.ShapeCasts S1x1x256 := by decide

/-- A row as the one-row slot of the receive buffer that holds it. -/
def asSlot (v : Vec F S1x256 .f32) : Vec F S1x1x256 .f32 := shapeCast S1x1x256 v casts_row_slot

/-- The column sums of one block, as a row. -/
def colSum (x : Vec F S512x256 .f32) : Vec F S1x256 .f32 := k0_pay1 x

/-- What a device stores as its result, from its own block `x0` and the blocks `x1`, `x2`, `x3` of the devices one, two
    and three places before it: its own row, plus the rows read from slots 0, 2 and 1 in that order. -/
def total (x0 x1 x2 x3 : Vec F S512x256 .f32) : Vec F S1x256 .f32 :=
  k0_pay2 (colSum x0) (asSlot (colSum x1)) (asSlot (colSum x3)) (asSlot (colSum x2))

end Cert.Kernel.Spec

end
-- ==== Proof.Bits.Proto.lean ====
/-
  The cross-device protocol of the four-device sum, written down once.

  Every device `c` does, in program order: one unit to the barrier semaphore of each of the other three devices
  (`fwd c 0`, `fwd c 1`, `fwd c 2`); the column sums of its block into its row buffer; a wait for three units on
  its own barrier semaphore; three copies of the row buffer, copy `k` into slot `k` of the receive buffer of `fwd c k`,
  each on its own pair of send and receive semaphores; the waits for the rows arriving in its slots 0 and 2, then slot 1;
  the sum of its own row and the three slots into its result block; the waits for its three sends.

  Cells and duties. A device has seven cells: its barrier cell, three send cells, three receive cells. Round 0 of a
  barrier cell has three duties of one unit, duty `j` paid by the device `back c j` (whose `fwd · j` is `c`); with it
  that device hands `c` the slot of its own receive buffer that `c` will write, and that the slot's receive cell is at
  round 0. A send or receive cell has one duty of a copy's credit: the send cell's gives the sender its share of the row
  buffer back, the receive cell's gives the owner its slot holding the sender's row.
-/
import proofs.«900608_g7700000000000609_dist_sum_ax0_shard0_i_m512_n256_v7x_i4_f32_1_alg».proof.Proof.Bits.Spec
import proofs.«900608_g7700000000000609_dist_sum_ax0_shard0_i_m512_n256_v7x_i4_f32_1_alg».proof.Proof.Gen.Kernel
import proofs.«900608_g7700000000000609_dist_sum_ax0_shard0_i_m512_n256_v7x_i4_f32_1_alg».proof.Proof.Gen.Kernel.Skeleton
import proofs.«900608_g7700000000000609_dist_sum_ax0_shard0_i_m512_n256_v7x_i4_f32_1_alg».proof.Proof.Gen.Kernel.Launch
import proofs.«900608_g7700000000000609_dist_sum_ax0_shard0_i_m512_n256_v7x_i4_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices the body addresses -/

theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 1 := Fin.ext (k0_dev4_eq c)
theorem dev5_eq (c : Dev nD) : (⟨k0_dev5 c, k0_dev5_lt c⟩ : Dev nD) = fwd c 0 := Fin.ext (k0_dev5_eq c)
theorem dev6_eq (c : Dev nD) : (⟨k0_dev6 c, k0_dev6_lt c⟩ : Dev nD) = fwd c 2 := Fin.ext (k0_dev6_eq c)

/-- Duty `j` of a barrier cell comes with slot `rev j` of the payer's receive buffer. -/
def rev (j : Fin 3) : Fin 3 := ⟨2 - j.val, by omega⟩
theorem rev_rev (j : Fin 3) : rev (rev j) = j := by revert j; decide
theorem fwd_fwd_rev (c : Dev nD) (j : Fin 3) : fwd (fwd c j) (rev j) = c := by revert c j; decide
theorem fwd_rev_fwd (c : Dev nD) (k : Fin 3) : fwd (fwd c k) (rev k) = c := fwd_fwd_rev c k
theorem back_eq_fwd_rev (c : Dev nD) (j : Fin 3) : back c j = fwd c (rev j) := by revert c j; decide

/-- Going `k + 1` places on is a permutation of the devices. -/
def ring (k : Fin 3) : Dev nD ≃ Dev nD := ⟨fun c => fwd c k, fun c => back c k, fun c => back_fwd c k, fun c => fwd_back c k⟩

/-! ## The memrefs and cells -/

abbrev xM : Memref sig .tc .vmem S512x256 .f32 := Memref.whole cc0_stg0_0
abbrev oM : Memref sig .tc .vmem S1x256 .f32 := Memref.whole cc0_stg1_0
abbrev ownM : Memref sig .tc .vmem S1x256 .f32 := Memref.whole cc0_scratch0
abbrev commM : Memref sig .tc .vmem S3x1x256 .f32 := Memref.whole cc0_scratch1

/-- The three one-row slots of the receive buffer, as the body names them. -/
abbrev slotR : Fin 3 → Rect S3x1x256
  | 0 => Rect.unit (s := S3x1x256) ![0, 0, 0] S1x1x256.size inb_S3x1x256_S1x1x256_0_0_0
  | 1 => Rect.unit (s := S3x1x256) ![1, 0, 0] S1x1x256.size inb_S3x1x256_S1x1x256_1_0_0
  | 2 => Rect.unit (s := S3x1x256) ![2, 0, 0] S1x1x256.size inb_S3x1x256_S1x1x256_2_0_0
abbrev slotM : Fin 3 → Memref sig .tc .vmem S1x256 .f32
  | 0 => (commM.slice (Rect.unit (s := S3x1x256) ![0, 0, 0] S1x1x256.size inb_S3x1x256_S1x1x256_0_0_0) (fun _ => rfl)).squeeze S1x256 squeezes_S1x1x256_S1x256
  | 1 => (commM.slice (Rect.unit (s := S3x1x256) ![1, 0, 0] S1x1x256.size inb_S3x1x256_S1x1x256_1_0_0) (fun _ => rfl)).squeeze S1x256 squeezes_S1x1x256_S1x256
  | 2 => (commM.slice (Rect.unit (s := S3x1x256) ![2, 0, 0] S1x1x256.size inb_S3x1x256_S1x1x256_2_0_0) (fun _ => rfl)).squeeze S1x256 squeezes_S1x1x256_S1x256

/-- The runtime's barrier semaphore of collective id 0 (unscoped); the send and receive DMA semaphores (scoped scratch). -/
abbrev barS : Sem sig := (SemArray.scalar (sig.barrier 0 rfl) : Sems sig S_).sem
abbrev sendS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's OWN (scoped) semaphores, as the launch theorem indexes them: `(false, k)` send `k`, `(true, k)` receive `k`; -/
abbrev osem : Bool × Fin 3 → SemLoc sig
  | (false, k) => .dma (sendS k)
  | (true, k) => .dma (recvS k)
/-- all seven of the protocol's: `none` the barrier. -/
abbrev CK : Type := Option (Bool × Fin 3)
abbrev csem : CK → SemLoc sig
  | none => .reg barS
  | some bk => osem bk
abbrev kcell (ck : Dev nD × CK) : GSem nD τ sig := ((ck.1 : Thread nD τ), csem ck.2)

abbrev N : ℕ := (ownM : Memref sig .tc .vmem S1x256 .f32).view.dmaCredit
theorem N_pos : 0 < N := View.dmaCredit_pos _ (by decide)

/-! ## Contents -/

/-- Device `c`'s block of the argument, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- Its row of column sums. -/
def ownV (c : Dev nD) : (cc0_scratch0 : Ref sig .tc).ty.Contents (Elt F) := colSum (xblk m ρ c)

/-- A slot of device `c`'s receive buffer at contents `f`, whole share. -/
def slotPts (c : Dev nD) (k : Fin 3) (f : Buf (Elt F) ((slotM k).view.loc (c : Thread nD τ))) : sProp 𝕄 :=
  (slotM k).view.loc (c : Thread nD τ) ↦[(slotM k).view.set]{fullShare} f
/-- The row buffer at its sums, at a share. -/
def ownPts (q : PosShare TreeShare) (c : Dev nD) : sProp 𝕄 :=
  (ownM : Memref sig .tc .vmem S1x256 .f32).view.loc (c : Thread nD τ) ↦[(ownM : Memref sig .tc .vmem S1x256 .f32).view.set]{q} ownV m ρ c

/-- The share of the row buffer under copy `k`: three quarters go out, the fourth stays for the load. -/
def shr : Fin 3 → PosShare TreeShare
  | 0 => fullShare.left.left
  | 1 => fullShare.left.right
  | 2 => fullShare.right.left
def shrKeep : PosShare TreeShare := fullShare.right.right

omit [FloatOps F] in
instance slotPts_storable (c : Dev nD) (k : Fin 3) (f) : BI.Storable (upEmb : UEmb _ 𝕄) (slotPts (F := F) c k f) := by unfold slotPts; infer_instance
instance ownPts_storable (q : PosShare TreeShare) (c : Dev nD) : BI.Storable (upEmb : UEmb _ 𝕄) (ownPts (F := F) m ρ q c) := by unfold ownPts; infer_instance

/-! ## The schedule -/

/-- What sender `c` needs before copy `k`: the slot it writes, and that the slot's receive cell is at round 0. -/
def grant (c : Dev nD) (k : Fin 3) : sProp 𝕄 := iprop((∃ f, slotPts (fwd c k) k f) ∗ reached ER (recvCell (fwd c k) k) 0)
/-- Duty `j` of `c`'s barrier cell hands `c` what it needs for copy `rev j`. -/
def barPay (c : Dev nD) (j : Fin 3) : sProp 𝕄 := grant c (rev j)
/-- The slot back, holding the sender's row. -/
def recvPay (c : Dev nD) (k : Fin 3) : sProp 𝕄 :=
  iprop(∃ f, ⌜(slotM k).view.read (Elt F) f = ownV m ρ (back c k)⌝ ∗ slotPts c k f)
def sendPay (c : Dev nD) (k : Fin 3) : sProp 𝕄 := ownPts m ρ (shr k) c

/-- One round, round 0. -/
def sched : Rounds.Schedule (GSem nD τ sig) (Fin 3) 𝕄 where
  duties g r := if r = 0 ∧ g.1.2 = .tc then (if g.2 = .reg barS then Finset.univ else if (∃ bk, g.2 = osem bk) then {0} else ∅) else ∅
  unitless _ := False
  amount g _ _ := if g.2 = .reg barS then 1 else N
  payload g _ d :=
    if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  dsimp only [sched]
  unfold barPay grant recvPay sendPay
  (repeat' split) <;> infer_instance

/-! ### The table, cell by cell -/

section Sched
variable (c : Dev nD)

omit [FloatOps F] in
theorem osem_ne_bar (bk : Bool × Fin 3) : osem bk ≠ (.reg barS : SemLoc sig) := by
  rcases bk with ⟨b, k⟩; cases b <;> exact fun h => by cases h
theorem recv_ne_bar (k : Fin 3) : (SemLoc.dma (recvS k) : SemLoc sig) ≠ .reg barS := fun h => by cases h
theorem send_ne_bar (k : Fin 3) : (SemLoc.dma (sendS k) : SemLoc sig) ≠ .reg barS := fun h => by cases h
theorem recv_ne_recv : ∀ k k' : Fin 3, k ≠ k' → (SemLoc.dma (recvS k) : SemLoc sig) ≠ .dma (recvS k') := by decide
theorem send_ne_send : ∀ k k' : Fin 3, k ≠ k' → (SemLoc.dma (sendS k) : SemLoc sig) ≠ .dma (sendS k') := by decide
theorem send_ne_recv : ∀ k k' : Fin 3, (SemLoc.dma (sendS k) : SemLoc sig) ≠ .dma (recvS k') := by decide
theorem osem_injective : Function.Injective (osem : Bool × Fin 3 → SemLoc sig) := by decide
theorem csem_injective : Function.Injective (csem : CK → SemLoc sig) := by decide

theorem duties_bar : (sched (F := F) m ρ).duties (barCell c) 0 = Finset.univ := by
  dsimp only [sched]; rw [if_pos ⟨rfl, rfl⟩, if_pos rfl]
theorem duties_own (bk : Bool × Fin 3) : (sched (F := F) m ρ).duties ((c : Thread nD τ), osem bk) 0 = {0} := by
  dsimp only [sched]; rw [if_pos ⟨rfl, rfl⟩, if_neg (osem_ne_bar bk), if_pos ⟨bk, rfl⟩]
theorem duties_send (k : Fin 3) : (sched (F := F) m ρ).duties (sendCell c k) 0 = {0} := duties_own m ρ c (false, k)
theorem duties_recv (k : Fin 3) : (sched (F := F) m ρ).duties (recvCell c k) 0 = {0} := duties_own m ρ c (true, k)
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := by dsimp only [sched]; exact if_pos rfl
theorem amount_own (bk : Bool × Fin 3) (d : Fin 3) : (sched (F := F) m ρ).amount ((c : Thread nD τ), osem bk) 0 d = N := by
  dsimp only [sched]; exact if_neg (osem_ne_bar bk)
theorem amount_send (k d : Fin 3) : (sched (F := F) m ρ).amount (sendCell c k) 0 d = N := amount_own m ρ c (false, k) d
theorem amount_recv (k d : Fin 3) : (sched (F := F) m ρ).amount (recvCell c k) 0 d = N := amount_own m ρ c (true, k) d

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_own (bk : Bool × Fin 3) : (sched (F := F) m ρ).expect ((c : Thread nD τ), osem bk) 0 = N := by
  unfold Schedule.expect Schedule.amountOf; rw [duties_own, Finset.sum_singleton, amount_own]
theorem expect_send (k : Fin 3) : (sched (F := F) m ρ).expect (sendCell c k) 0 = N := expect_own m ρ c (false, k)
theorem expect_recv (k : Fin 3) : (sched (F := F) m ρ).expect (recvCell c k) 0 = N := expect_own m ρ c (true, k)

theorem payload_bar (j : Fin 3) : (sched (F := F) m ρ).payload (barCell c) 0 j = barPay c j := by dsimp only [sched]; rw [if_pos rfl]
theorem payload_recv : ∀ (k d : Fin 3), (sched (F := F) m ρ).payload (recvCell c k) 0 d = recvPay m ρ c k
  | 0, _ => by dsimp only [sched]; rw [if_neg (recv_ne_bar 0), if_pos rfl]
  | 1, _ => by dsimp only [sched]; rw [if_neg (recv_ne_bar 1), if_neg (recv_ne_recv 1 0 (by decide)), if_pos rfl]
  | 2, _ => by dsimp only [sched]; rw [if_neg (recv_ne_bar 2), if_neg (recv_ne_recv 2 0 (by decide)), if_neg (recv_ne_recv 2 1 (by decide)), if_pos rfl]
theorem payload_send : ∀ (k d : Fin 3), (sched (F := F) m ρ).payload (sendCell c k) 0 d = sendPay m ρ c k
  | 0, _ => by
    dsimp only [sched]
    rw [if_neg (send_ne_bar 0), if_neg (send_ne_recv 0 0), if_neg (send_ne_recv 0 1), if_neg (send_ne_recv 0 2), if_pos rfl]
  | 1, _ => by
    dsimp only [sched]
    rw [if_neg (send_ne_bar 1), if_neg (send_ne_recv 1 0), if_neg (send_ne_recv 1 1), if_neg (send_ne_recv 1 2), if_neg (send_ne_send 1 0 (by decide)), if_pos rfl]
  | 2, _ => by
    dsimp only [sched]
    rw [if_neg (send_ne_bar 2), if_neg (send_ne_recv 2 0), if_neg (send_ne_recv 2 1), if_neg (send_ne_recv 2 2), if_neg (send_ne_send 2 0 (by decide)),
      if_neg (send_ne_send 2 1 (by decide)), if_pos rfl]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: what each of the three other devices hands over. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each device owes at launch, in the order it pays; the levels -/

def O₅ (c : Dev nD) : CellTallies nD τ sig Unit := tallyAt (recvCell (fwd c 2) 2) () N
def O₄ (c : Dev nD) : CellTallies nD τ sig Unit := O₅ c + tallyAt (recvCell (fwd c 0) 0) () N
/-- After its three signals a device owes the three receive credits: of copy 1 first, then 0, then 2. -/
def O₃ (c : Dev nD) : CellTallies nD τ sig Unit := O₄ c + tallyAt (recvCell (fwd c 1) 1) () N
def O₂ (c : Dev nD) : CellTallies nD τ sig Unit := O₃ c + tallyAt (barCell (fwd c 2)) () 1
def O₁ (c : Dev nD) : CellTallies nD τ sig Unit := O₂ c + tallyAt (barCell (fwd c 1)) () 1
def O₀ (c : Dev nD) : CellTallies nD τ sig Unit := O₁ c + tallyAt (barCell (fwd c 0)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (∃ k, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 3) (u : Unit) : lv (recvCell c k) u = 2 := by
  dsimp only [lv]; rw [if_neg (recv_ne_bar k), if_pos ⟨k, rfl⟩]
theorem lv_other (c : Dev nD) (q : DmaSem sig) (hq : ∀ k, q ≠ recvS k) (u : Unit) : lv ((c : Thread nD τ), .dma q) u = 0 := by
  dsimp only [lv]; rw [if_neg (fun h => by cases h), if_neg (fun ⟨k, h⟩ => hq k (SemLoc.dma.inj h))]

theorem O₃_pos {c : Dev nD} {g : GSem nD τ sig} {u : Unit} (h : 0 < O₃ c g u) : ∃ k, g = recvCell (fwd c k) k := by
  unfold O₃ O₄ O₅ at h
  rcases Pipeline.add_pos_cases h with h | h
  · rcases Pipeline.add_pos_cases h with h | h
    · exact ⟨2, (Pipeline.tallyAt_pos h).1⟩
    · exact ⟨0, (Pipeline.tallyAt_pos h).1⟩
  · exact ⟨1, (Pipeline.tallyAt_pos h).1⟩
theorem O₀_pos {c : Dev nD} {g : GSem nD τ sig} {u : Unit} (h : 0 < O₀ c g u) :
    (∃ j, g = barCell (fwd c j)) ∨ ∃ k, g = recvCell (fwd c k) k := by
  unfold O₀ O₁ O₂ at h
  rcases Pipeline.add_pos_cases h with h | h
  · rcases Pipeline.add_pos_cases h with h | h
    · rcases Pipeline.add_pos_cases h with h | h
      · exact .inr (O₃_pos h)
      · exact .inl ⟨2, (Pipeline.tallyAt_pos h).1⟩
    · exact .inl ⟨1, (Pipeline.tallyAt_pos h).1⟩
  · exact .inl ⟨0, (Pipeline.tallyAt_pos h).1⟩

/-- A staging cell or a send cell (level 0) may be waited on whatever the device still owes of its launch dues. -/
theorem mayWait_low (c : Dev nD) (q : DmaSem sig) (hq : ∀ k, q ≠ recvS k) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    rcases O₀_pos hg with ⟨j, rfl⟩ | ⟨k, rfl⟩
    · exact ⟨by rw [L_tc]; exact Finset.mem_singleton_self _, by rw [lv_other c q hq, lv_bar]; decide⟩
    · exact ⟨by rw [L_tc]; exact Finset.mem_singleton_self _, by rw [lv_other c q hq, lv_recv]; decide⟩
  · rw [MayWait_zero]; iintro -; iempintro

/-- At its barrier wait a device owes receive credits only: receive cells, above its barrier cell. -/
theorem mayWait_bar (c : Dev nD) : (levAts L lv : sProp 𝕄) ⊢ MayWait (c : Thread nD τ) (.reg barS) () (O₃ c) := by
  refine Pipeline.mayWait_of_levAts (by rw [L_tc]; exact Finset.mem_singleton_self _) fun g i hg => ?_
  obtain ⟨k, rfl⟩ := O₃_pos hg
  exact ⟨by rw [L_tc]; exact Finset.mem_singleton_self _, by rw [lv_bar, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the sum of its own row and the rows of the devices one, two and three places before it. -/
def outAt (c : Dev nD) : (cc0_stg1_0 : Ref sig .tc).ty.Contents (Elt F) :=
  total (xblk m ρ c) (xblk m ρ (back c 0)) (xblk m ρ (back c 1)) (xblk m ρ (back c 2))

/-- Every cell's invariant, under the names `K` the launch allocated them at, and that every cell is at round 0. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

/-- The tokens of the duties device `c` pays: duty `j` of the barrier cell of `fwd c j`, the receive duty of slot `k` of `fwd c k`,
    its own three send duties. -/
def payToks (c : Dev nD) : sProp 𝕄 :=
  iprop((bigSep Finset.univ fun j : Fin 3 => dutyTok ER (barCell (fwd c j)) 0 j)
    ∗ (bigSep Finset.univ fun k : Fin 3 => dutyTok ER (recvCell (fwd c k) k) 0 0)
    ∗ (bigSep Finset.univ fun k : Fin 3 => dutyTok ER (sendCell c k) 0 0))
/-- Its positions: at round 0 of each of its seven cells, nothing taken. -/
def positions (c : Dev nD) : sProp 𝕄 := bigSep Finset.univ fun k : CK => atPos ER (kcell (c, k)) 0 ∅ 0

/-- The protocol's ghost state device `c` starts from. -/
def ghost (K : Dev nD × CK → ℕ) (c : Dev nD) : sProp 𝕄 := iprop(records m ρ K ∗ positions c ∗ payToks c)

/-- What device `c`'s body starts from: that at some names, its credit tokens (its barrier's three units, each receive
    cell's credit) and the level facts. -/
def start (c : Dev nD) : sProp 𝕄 :=
  iprop((∃ K, ghost m ρ K c) ∗ cred (tallyAt (barCell c) () 3) ∗ (bigSep Finset.univ fun k : Fin 3 => cred (tallyAt (recvCell c k) () N)) ∗ levAts L lv)

/-- The two scratch buffers, each whole at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratchAny c)
/-- After the point: the scratch buffers back whole, the six OWN cells at zero, closed (the barrier cell is the runtime's:
    nothing to hand back). -/
def Φ₁ (c : Dev nD) : sProp 𝕄 := iprop(scratchAny c ∗ bigSep Finset.univ fun bk : Bool × Fin 3 => semVal ((c : Thread nD τ), osem bk) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- A whole buffer of device `c` at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Proto

end
-- ==== Proof.Bits.Slots.lean ====
/-
  The two scratch buffers cut up and put together again: the receive buffer into its three one-row slots, the row
  buffer into four quarter shares; and what a slot holds, read the two ways the body reads it.
-/
import proofs.«900608_g7700000000000609_dist_sum_ax0_shard0_i_m512_n256_v7x_i4_f32_1_alg».proof.Proof.Bits.Proto

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The receive buffer is its three slots -/

/-- An element of the receive buffer is in the one-row rectangle at row `k` exactly when its row is `k`. -/
theorem mem_row_set (k : ℕ) (inb : ∀ a, (![k, 0, 0] : Fin 3 → ℕ) a + S1x1x256.size a ≤ S3x1x256.size a) (i : S3x1x256.Idx) :
    i ∈ (Rect.unit (s := S3x1x256) ![k, 0, 0] S1x1x256.size inb).set ↔ (i 0).val = k := by
  rw [Rect.mem_set_unit]
  have h1 : (i 1).val < 1 := (i 1).isLt
  have h2 : (i 2).val < 256 := (i 2).isLt
  constructor
  · intro h
    have h0 : k ≤ (i 0).val ∧ (i 0).val < k + 1 := h 0
    omega
  · intro h a
    match a with
    | ⟨0, _⟩ => exact (show k ≤ (i 0).val ∧ (i 0).val < k + 1 by omega)
    | ⟨1, _⟩ => exact (show 0 ≤ (i 1).val ∧ (i 1).val < 0 + 1 by omega)
    | ⟨2, _⟩ => exact (show 0 ≤ (i 2).val ∧ (i 2).val < 0 + 256 by omega)

/-- The elements of slot `k`: row `k` of the receive buffer. -/
def slotSet (k : Fin 3) : Finset S3x1x256.Idx := (slotR k).set

theorem mem_slotSet : ∀ (k : Fin 3) (i : S3x1x256.Idx), i ∈ slotSet k ↔ (i 0).val = k.val
  | 0, i => mem_row_set 0 _ i
  | 1, i => mem_row_set 1 _ i
  | 2, i => mem_row_set 2 _ i

/-- Different slots share no element. -/
theorem slotSet_disjoint (k k' : Fin 3) (h : k ≠ k') : Disjoint (slotSet k) (slotSet k') :=
  Finset.disjoint_left.mpr fun i hi hi' =>
    h (Fin.ext (((mem_slotSet k i).mp hi).symm.trans ((mem_slotSet k' i).mp hi')))

/-- Every element of the receive buffer is in one of the three slots. -/
theorem slotSet_cover : Finset.univ.biUnion slotSet = (Finset.univ : Finset S3x1x256.Idx) := by
  ext i
  simp only [Finset.mem_biUnion, Finset.mem_univ, true_and, iff_true]
  exact ⟨⟨(i 0).val, (i 0).isLt⟩, (mem_slotSet _ i).mpr rfl⟩

/-- A slot's view covers exactly the slot's row. -/
theorem slot_view_set0 : (slotM 0).view.set = slotSet 0 :=
  (Memref.set_view_squeeze (commM.slice (slotR 0) (fun _ => rfl)) squeezes_S1x1x256_S1x256).trans (View.set_slice_whole cc0_scratch1 (slotR 0))
theorem slot_view_set1 : (slotM 1).view.set = slotSet 1 :=
  (Memref.set_view_squeeze (commM.slice (slotR 1) (fun _ => rfl)) squeezes_S1x1x256_S1x256).trans (View.set_slice_whole cc0_scratch1 (slotR 1))
theorem slot_view_set2 : (slotM 2).view.set = slotSet 2 :=
  (Memref.set_view_squeeze (commM.slice (slotR 2) (fun _ => rfl)) squeezes_S1x1x256_S1x256).trans (View.set_slice_whole cc0_scratch1 (slotR 2))

/-- A buffer whole is three pairwise disjoint sets of its elements that cover it, at the same contents … -/
theorem pointsTo_split3 {ℓ : Loc nD τ sig} (K : Fin 3 → Finset (Idx ℓ)) (hd : ∀ t t', t ≠ t' → Disjoint (K t) (K t'))
    (hc : ∀ i, ∃ k, i ∈ K k) (q : PosShare TreeShare) (f : Buf (Elt F) ℓ) :
    (ℓ ↦{q} f : sProp 𝕄) = iprop((ℓ ↦[K 0]{q} f) ∗ (ℓ ↦[K 1]{q} f) ∗ ℓ ↦[K 2]{q} f) := by
  have hU : Finset.univ.biUnion K = Finset.univ := by
    ext i
    simp only [Finset.mem_biUnion, Finset.mem_univ, true_and, iff_true]
    exact hc i
  have h : ((ℓ ↦[Finset.univ.biUnion K]{q} f : sProp 𝕄)) = bigSep (Finset.univ : Finset (Fin 3)) fun t => (ℓ ↦[K t]{q} f) :=
    pointsTo_biUnion Finset.univ K (fun t _ t' _ ht => hd t t' ht)
  rw [hU, bigSep_fin3] at h
  exact h

/-- … and three such sets, each at its own contents, are the buffer whole at some contents. -/
theorem pointsTo_join3 {ℓ : Loc nD τ sig} (K : Fin 3 → Finset (Idx ℓ)) (hd : ∀ t t', t ≠ t' → Disjoint (K t) (K t'))
    (hc : ∀ i, ∃ k, i ∈ K k) (q : PosShare TreeShare) (f0 f1 f2 : Buf (Elt F) ℓ) :
    iprop((ℓ ↦[K 0]{q} f0) ∗ (ℓ ↦[K 1]{q} f1) ∗ ℓ ↦[K 2]{q} f2) ⊢ (iprop(∃ g : Buf (Elt F) ℓ, ℓ ↦{q} g) : sProp 𝕄) := by
  have hU : Finset.univ.biUnion K = Finset.univ := by
    ext i
    simp only [Finset.mem_biUnion, Finset.mem_univ, true_and, iff_true]
    exact hc i
  have h : bigSep (Finset.univ : Finset (Fin 3)) (fun t => (ℓ ↦[K t]{q} (match t with | 0 => f0 | 1 => f1 | 2 => f2 : Buf (Elt F) ℓ)))
      ⊢ (iprop(∃ g, ⌜∀ t ∈ (Finset.univ : Finset (Fin 3)), ∀ i ∈ K t, g i = (match t with | 0 => f0 | 1 => f1 | 2 => f2 : Buf (Elt F) ℓ) i⌝
          ∗ ℓ ↦[Finset.univ.biUnion K]{q} g) : sProp 𝕄) :=
    pointsTo_biUnion_join Finset.univ K _ f0 (fun t _ t' _ ht => hd t t' ht)
  rw [hU, bigSep_fin3] at h
  refine h.trans ?_
  iintro ⟨%g, _, Hg⟩
  iexists g
  iexact Hg

/-- A slot of the receive buffer, held by its row of the buffer's elements. -/
theorem slotPts_eq0 (c : Dev nD) (f : Buf (Elt F) ((c : Thread nD τ).loc cc0_scratch1)) :
    (slotPts c 0 f : sProp 𝕄) = (((c : Thread nD τ).loc cc0_scratch1) ↦[slotSet 0]{fullShare} f) := by
  unfold slotPts
  exact congrArg (fun S => ((((c : Thread nD τ).loc cc0_scratch1) ↦[S]{fullShare} f : sProp 𝕄))) slot_view_set0
theorem slotPts_eq1 (c : Dev nD) (f : Buf (Elt F) ((c : Thread nD τ).loc cc0_scratch1)) :
    (slotPts c 1 f : sProp 𝕄) = (((c : Thread nD τ).loc cc0_scratch1) ↦[slotSet 1]{fullShare} f) := by
  unfold slotPts
  exact congrArg (fun S => ((((c : Thread nD τ).loc cc0_scratch1) ↦[S]{fullShare} f : sProp 𝕄))) slot_view_set1
theorem slotPts_eq2 (c : Dev nD) (f : Buf (Elt F) ((c : Thread nD τ).loc cc0_scratch1)) :
    (slotPts c 2 f : sProp 𝕄) = (((c : Thread nD τ).loc cc0_scratch1) ↦[slotSet 2]{fullShare} f) := by
  unfold slotPts
  exact congrArg (fun S => ((((c : Thread nD τ).loc cc0_scratch1) ↦[S]{fullShare} f : sProp 𝕄))) slot_view_set2

/-- The receive buffer whole is its three slots, at the same contents. -/
theorem comm_split (c : Dev nD) (f : Buf (Elt F) ((c : Thread nD τ).loc cc0_scratch1)) :
    ((((c : Thread nD τ).loc cc0_scratch1) ↦{fullShare} f : sProp 𝕄))
      ⊢ iprop(slotPts c 0 f ∗ slotPts c 1 f ∗ slotPts c 2 f) := by
  rw [slotPts_eq0, slotPts_eq1, slotPts_eq2]
  exact Entails.of_eq (pointsTo_split3 (ℓ := (c : Thread nD τ).loc cc0_scratch1) slotSet slotSet_disjoint
    (fun i => ⟨⟨(i 0).val, (i 0).isLt⟩, (mem_slotSet _ i).mpr rfl⟩) fullShare f)

/-- Three slots, each at its own contents, are the receive buffer whole at some contents. -/
theorem comm_join (c : Dev nD) (f0 f1 f2 : Buf (Elt F) ((c : Thread nD τ).loc cc0_scratch1)) :
    iprop(slotPts c 0 f0 ∗ slotPts c 1 f1 ∗ slotPts c 2 f2)
      ⊢ (iprop(∃ g : Buf (Elt F) ((c : Thread nD τ).loc cc0_scratch1), ((c : Thread nD τ).loc cc0_scratch1) ↦{fullShare} g) : sProp 𝕄) := by
  rw [slotPts_eq0, slotPts_eq1, slotPts_eq2]
  exact pointsTo_join3 (ℓ := (c : Thread nD τ).loc cc0_scratch1) slotSet slotSet_disjoint
    (fun i => ⟨⟨(i 0).val, (i 0).isLt⟩, (mem_slotSet _ i).mpr rfl⟩) fullShare f0 f1 f2

/-! ## The row buffer in four shares -/

/-- The row buffer at its sums, whole, is the three shares that go out under the copies and the one that stays. -/
theorem own_split (c : Dev nD) :
    (ownPts m ρ fullShare c : sProp 𝕄) ⊣⊢ iprop(ownPts m ρ (shr 0) c ∗ ownPts m ρ (shr 1) c ∗ ownPts m ρ (shr 2) c ∗ ownPts m ρ shrKeep c) := by
  have h (q : PosShare TreeShare) : (ownPts m ρ q c : sProp 𝕄) ⊣⊢ iprop(ownPts m ρ q.left c ∗ ownPts m ρ q.right c) := by
    unfold ownPts
    exact pointsTo_share (PosShare.mem_left_op_right q)
  have e (q : PosShare TreeShare) : (ownPts m ρ q c : sProp 𝕄) = iprop(ownPts m ρ q.left c ∗ ownPts m ρ q.right c) :=
    BI.equiv_iff.mp ⟨(h q).1, (h q).2⟩
  refine BIBase.BiEntails.of_eq ?_
  show (ownPts m ρ fullShare c : sProp 𝕄) = iprop(ownPts m ρ fullShare.left.left c ∗ ownPts m ρ fullShare.left.right c
    ∗ ownPts m ρ fullShare.right.left c ∗ ownPts m ρ fullShare.right.right c)
  rw [e fullShare, e fullShare.left, e fullShare.right]
  exact BI.equiv_iff.mp ⟨sep_assoc, sep_assoc'⟩

theorem ownPts_full_eq (c : Dev nD) :
    ownPts m ρ fullShare c = ((((c : Thread nD τ).loc cc0_scratch0) ↦{fullShare} ownV m ρ c : sProp 𝕄)) := by
  unfold ownPts
  exact congrArg (fun S => (((c : Thread nD τ).loc cc0_scratch0) ↦[S]{fullShare} ownV m ρ c : sProp 𝕄)) (View.set_whole cc0_scratch0)

/-! ## What the body reads -/

/-- A load of slot 0 through the whole receive buffer, squeezed to a row, is the slot read through its own view. -/
theorem slot_read0 (f : (cc0_scratch1 : Ref sig .tc).ty.Contents (Elt F)) :
    shapeCast S1x256 ((commM : Memref sig .tc .vmem S3x1x256 .f32).view.readAt (Elt F) (slotR 0).toLoadRect f) shapeCasts_S1x1x256_S1x256
      = (slotM 0).view.read (Elt F) f := rfl

/-- The elements a load of slot 0 through the whole buffer touches are the slot's. -/
theorem slot_load_sub0 :
    (commM : Memref sig .tc .vmem S3x1x256 .f32).view.setOn (slotR 0).toLoadRect.set ⊆ (slotM 0).view.set :=
  Memref.subset_of_set_eq
    (Memref.setOn_subset_slice_of_within commM (slotR 0) (fun _ => rfl) (slotR 0).toLoadRect (by decide))
    (Memref.set_view_squeeze (commM.slice (slotR 0) (fun _ => rfl)) squeezes_S1x1x256_S1x256)

/-- A load of slot 1 through the whole receive buffer, squeezed to a row, is the slot read through its own view. -/
theorem slot_read1 (f : (cc0_scratch1 : Ref sig .tc).ty.Contents (Elt F)) :
    shapeCast S1x256 ((commM : Memref sig .tc .vmem S3x1x256 .f32).view.readAt (Elt F) (slotR 1).toLoadRect f) shapeCasts_S1x1x256_S1x256
      = (slotM 1).view.read (Elt F) f := rfl

/-- The elements a load of slot 1 through the whole buffer touches are the slot's. -/
theorem slot_load_sub1 :
    (commM : Memref sig .tc .vmem S3x1x256 .f32).view.setOn (slotR 1).toLoadRect.set ⊆ (slotM 1).view.set :=
  Memref.subset_of_set_eq
    (Memref.setOn_subset_slice_of_within commM (slotR 1) (fun _ => rfl) (slotR 1).toLoadRect (by decide))
    (Memref.set_view_squeeze (commM.slice (slotR 1) (fun _ => rfl)) squeezes_S1x1x256_S1x256)

/-- A load of slot 2 through the whole receive buffer, squeezed to a row, is the slot read through its own view. -/
theorem slot_read2 (f : (cc0_scratch1 : Ref sig .tc).ty.Contents (Elt F)) :
    shapeCast S1x256 ((commM : Memref sig .tc .vmem S3x1x256 .f32).view.readAt (Elt F) (slotR 2).toLoadRect f) shapeCasts_S1x1x256_S1x256
      = (slotM 2).view.read (Elt F) f := rfl

/-- The elements a load of slot 2 through the whole buffer touches are the slot's. -/
theorem slot_load_sub2 :
    (commM : Memref sig .tc .vmem S3x1x256 .f32).view.setOn (slotR 2).toLoadRect.set ⊆ (slotM 2).view.set :=
  Memref.subset_of_set_eq
    (Memref.setOn_subset_slice_of_within commM (slotR 2) (fun _ => rfl) (slotR 2).toLoadRect (by decide))
    (Memref.set_view_squeeze (commM.slice (slotR 2) (fun _ => rfl)) squeezes_S1x1x256_S1x256)

/-- The stored result, from the row buffer's sums and the three slots as loaded: the specification's total. -/
theorem pay2_eq (a : Vec F S1x256 .f32) (b0 b2 b1 : Vec F S1x1x256 .f32) (x1 x2 x3 : Vec F S512x256 .f32) (x0 : Vec F S512x256 .f32)
    (ha : a = colSum x0)
    (h0 : shapeCast S1x256 b0 shapeCasts_S1x1x256_S1x256 = colSum x1)
    (h2 : shapeCast S1x256 b2 shapeCasts_S1x1x256_S1x256 = colSum x3)
    (h1 : shapeCast S1x256 b1 shapeCasts_S1x1x256_S1x256 = colSum x2) :
    k0_pay2 a b0 b2 b1 = total x0 x1 x2 x3 := by
  unfold total k0_pay2 asSlot
  rw [shapeCast_shapeCast, shapeCast_shapeCast, shapeCast_shapeCast, h0, h2, h1, ha]

/-- A copy's credit on a DMA semaphore is the same whichever slot it lands in: the row buffer's. -/
theorem slot_amount : ∀ (k : Fin 3) (q : DmaSem sig), (slotM k).view.amount (.dma q) = N
  | 0, _ => rfl
  | 1, _ => rfl
  | 2, _ => rfl

end Cert.Kernel.Proto

end
-- ==== Proof.Bits.Mid.lean ====
/-
  The body cut in two at the point where the three copies have been started: what a device holds there, what it
  holds at the start and at the end, and the body as its front (the handshake, the column sums, the copies) followed
  by its back (the receives, the sum, the waits for the sends).
-/
import proofs.«900608_g7700000000000609_dist_sum_ax0_shard0_i_m512_n256_v7x_i4_f32_1_alg».proof.Proof.Bits.Slots

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from at the one grid point, the ghost state at names `K`. -/
def bodyPre (K : Dev nD × CK → ℕ) (c : Dev nD) : sProp 𝕄 :=
  iprop((ghost m ρ K c ∗ cred (tallyAt (barCell c) () 3) ∗ (bigSep Finset.univ fun k : Fin 3 => cred (tallyAt (recvCell c k) () N)) ∗ levAts L lv ∗ scratchAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ c ∗ (dats m ρ 0 c).owesAt () t₀.succ ∗ stg c cc0_stg0_0 (xblk m ρ c) ∗ stg c cc0_stg1_0 (outAt m ρ c))

/-- What it holds once the three copies are started: every cell's invariant; its positions at round 0 of its six own
    cells; the three receive credits it was dealt and the three send credits the copies gave it; nothing owed; the
    quarter of the row buffer it kept; its block's staging buffer at the block, the result's staging buffer at anything.
    (Its slots are with the devices that write them, the other three quarters of the row buffer under the copies.) -/
def mid (K : Dev nD × CK → ℕ) (c : Dev nD) : sProp 𝕄 :=
  iprop(records m ρ K
    ∗ (bigSep Finset.univ fun bk : Bool × Fin 3 => atPos ER ((c : Thread nD τ), osem bk) 0 ∅ 0)
    ∗ (bigSep Finset.univ fun k : Fin 3 => cred (tallyAt (recvCell c k) () N))
    ∗ (bigSep Finset.univ fun k : Fin 3 => cred (tallyAt (sendCell c k) () N))
    ∗ (∃ W, owes (c : Thread nD τ) 0 W)
    ∗ ownPts m ρ shrKeep c
    ∗ stg c cc0_stg0_0 (xblk m ρ c)
    ∗ (∃ f : Buf (Elt F) ((c : Thread nD τ).loc cc0_stg1_0), ((c : Thread nD τ).loc cc0_stg1_0) ↦{fullShare} f))

/-- The words the first two parts of the printed body hand on (the device's position plus 2 and plus 3, modulo 4): the later part names them, no operation reads them. -/
def w2 (c : Dev nD) : BitVec 32 := Scalar.remsi (Scalar.divsi (Dev.word c) 1#32) 4#32
def w24 (c : Dev nD) : BitVec 32 := Scalar.remsi (Scalar.addi (w2 c) 2#32) 4#32
def w44 (c : Dev nD) : BitVec 32 := Scalar.remsi (Scalar.addi (w2 c) 3#32) 4#32

/-- The body from the first receive wait on: the third part of the printed body, then the three waits for the sends. -/
def backProg (v24 v44 : BitVec 32) : Prog (TpuEff nD τ sig (Elt F) Λ₀ .tc) PUnit := do
  k0_part3 xM (Memref.isWhole_whole _) oM (Memref.isWhole_whole _) ownM (Memref.isWhole_whole _) commM (Memref.isWhole_whole _) cc0_scratch2 cc0_scratch3 v24 v44
  Prog.lift (.waitDma2 (sendS 0) (slotM 0) ownM ((View.wordExact_bits rfl).reshape _ _) (Memref.isWhole_whole _).wordExact)
  Prog.lift (.waitDma2 (sendS 2) (slotM 2) ownM ((View.wordExact_bits rfl).reshape _ _) (Memref.isWhole_whole _).wordExact)
  Prog.lift (.waitDma2 (sendS 1) (slotM 1) ownM ((View.wordExact_bits rfl).reshape _ _) (Memref.isWhole_whole _).wordExact)
  pure ⟨⟩

/-- The body is its first two parts, then `backProg`. -/
theorem body_split :
    cc0_body (F := F) xM (Memref.isWhole_whole _) oM (Memref.isWhole_whole _) ownM (Memref.isWhole_whole _) commM (Memref.isWhole_whole _) cc0_scratch2 cc0_scratch3
      = (do
          let ⟨d0, v2, v24⟩ : Σ' (d0 : Dev nD) (v2 : BitVec 32), BitVec 32 ← k0_part1 xM (Memref.isWhole_whole _) oM (Memref.isWhole_whole _) ownM (Memref.isWhole_whole _) commM (Memref.isWhole_whole _) cc0_scratch2 cc0_scratch3
          let v44 : BitVec 32 ← k0_part2 xM (Memref.isWhole_whole _) oM (Memref.isWhole_whole _) ownM (Memref.isWhole_whole _) commM (Memref.isWhole_whole _) cc0_scratch2 cc0_scratch3 d0 v2 v24
          backProg v24 v44) := rfl

end Cert.Kernel.Proto

end
-- ==== Proof.Bits.BodyFront.lean ====
/-
  The front of one device's body: the three signals, the column sums, the barrier wait, the three copies.
-/
import proofs.«900608_g7700000000000609_dist_sum_ax0_shard0_i_m512_n256_v7x_i4_f32_1_alg».proof.Proof.Bits.Mid

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Front

theorem fetch_0 (t : Fin cfg0.N) : (cfg0.win (0 : Fin 2)).fetch t = true := by rw [fin_N t]; rfl

/-- A device's seven cells, one by one. -/
theorem bigSep_CK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ
/-- Its six own cells, one by one. -/
theorem bigSep_BK (Φ : Bool × Fin 3 → sProp 𝕄) : bigSep Finset.univ Φ
    = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ

theorem rev_0 : rev 0 = 2 := by decide
theorem rev_1 : rev 1 = 1 := by decide
theorem rev_2 : rev 2 = 0 := by decide

/-- Any cell's invariant, and that it is at round 0, out of the records. -/
theorem records_inv (K : Dev nD × CK → ℕ) (ck : Dev nD × CK) : records m ρ K ⊢ cellInv ER (sched m ρ) (K ck) (kcell ck) := by
  unfold records
  have h : (bigSep Finset.univ (fun ck : Dev nD × CK => cellInv ER (sched m ρ) (K ck) (kcell ck)) : sProp 𝕄) ⊢ cellInv ER (sched m ρ) (K ck) (kcell ck) :=
    bigSep_elim (Finset.mem_univ ck)
  iintro ⟨H, -⟩; iapply h; iexact H
theorem records_reached (K : Dev nD × CK → ℕ) (ck : Dev nD × CK) : records m ρ K ⊢ reached ER (kcell ck) 0 := by
  unfold records
  have h : (bigSep Finset.univ (fun ck : Dev nD × CK => reached ER (kcell ck) 0) : sProp 𝕄) ⊢ reached ER (kcell ck) 0 :=
    bigSep_elim (Finset.mem_univ ck)
  iintro ⟨-, H⟩; iapply h; iexact H

theorem hz2 : (![0, 0] : Fin 2 → Nat) = fun _ => 0 := funext fun a => by fin_cases a <;> rfl
abbrev rX : Rect S512x256 := Rect.unit (s := S512x256) ![0, 0] S512x256.size inb_S512x256_S512x256_0_0
abbrev rRow : Rect S1x256 := Rect.unit (s := S1x256) ![0, 0] S1x256.size inb_S1x256_S1x256_0_0
/-- The whole block, read through the load's rectangle, is the block. -/
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
/-- The row buffer, stored whole, holds what was stored. -/
theorem write_own (f w : (cc0_scratch0 : Ref sig .tc).ty.Contents (Elt F)) :
    ((ownM : Memref sig .tc .vmem S1x256 .f32).access rRow : View sig .tc _ _ _).write (Elt F) f w Finset.univ = w :=
  Memref.write_access_unit_zero_univ (Elt F) cc0_scratch0 hz2 _ f w

/-- The barrier cell's round handed over: the three slots this device writes, named by slot. -/
theorem rest_bar' (c : Dev nD) : bigSep ((sched (F := F) m ρ).duties (barCell c) 0 \ ∅) (fun d => (sched (F := F) m ρ).payload (barCell c) 0 d)
    = iprop(grant c 2 ∗ grant c 1 ∗ grant c 0) := by
  rw [rest_bar]; unfold barPay; rw [rev_0, rev_1, rev_2]

/-- The same, over the round's duties as they stand. -/
theorem rest_bar'' (c : Dev nD) : bigSep ((sched (F := F) m ρ).duties (barCell c) 0) (fun d => (sched (F := F) m ρ).payload (barCell c) 0 d)
    = iprop(grant c 2 ∗ grant c 1 ∗ grant c 0) := by
  rw [← rest_bar' m ρ c, Finset.sdiff_empty]

/-- Copy 0: the row buffer's share `shr 0` goes out, slot 0 of the device `fwd c 0` is rewritten with this device's row. -/
theorem wp_send_0 (K : Dev nD × CK → ℕ) (c n : Dev nD) (hn : n = fwd c 0)
    {hsc : (slotM 0 : Memref sig (Dev.tc n : Thread nD τ).2.kind .vmem S1x256 .f32).view.ref.isScScratch = false}
    {hsrc : (ownM : Memref sig .tc .vmem S1x256 .f32).view.WordExact} {hdst : (slotM 0).view.WordExact}
    {hsem : DmaTarget.Typed .vmem (.dma (recvS 0)) (.remote (Dev.tc n : Thread nD τ) (slotM 0) (.dma (sendS 0)) hsc)}
    {α : Type} {Q : α → sProp 𝕄} {k : PUnit → Prog (TpuEff nD τ sig (Elt F) Λ₀ .tc) α}
    (fn : Buf (Elt F) ((slotM 0).view.loc (fwd c 0 : Thread nD τ))) (W : Waits sig Unit) (O₀ O : CellTallies nD τ sig Unit)
    (hO : O₀ = O + tallyAt (recvCell (fwd c 0) 0) () N) :
    iprop(cellInv ER (sched m ρ) (K (c, some (false, 0))) (sendCell c 0) ∗ cellInv ER (sched m ρ) (K (fwd c 0, some (true, 0))) (recvCell (fwd c 0) 0)
        ∗ ownPts m ρ (shr 0) c ∗ slotPts (fwd c 0) 0 fn
        ∗ owes (c : Thread nD τ) O₀ W
        ∗ dutyTok ER (sendCell c 0) 0 0 ∗ reached ER (sendCell c 0) 0
        ∗ dutyTok ER (recvCell (fwd c 0) 0) 0 0 ∗ reached ER (recvCell (fwd c 0) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM 0) (.dma (sendS 0)) hsc) (.dma (recvS 0)) hsrc hdst hsem) k) Q) := by
  subst hn
  unfold ownPts slotPts
  exact Rounds.wp_send_pointsTo 𝒱₀ ER (sched m ρ) (c : Thread nD τ) none (c' := (fwd c 0 : Thread nD τ)) (src := ownM) (dst := slotM 0) (q := shr 0)
    (fs := ownV m ρ c) (κ₁ := K (c, some (false, 0))) (κ₂ := K (fwd c 0, some (true, 0))) (r₁ := 0) (r₂ := 0) (d₁ := 0) (d₂ := 0) (fd := fn)
    (by rw [duties_send]; exact Finset.mem_singleton_self _) (by rw [duties_recv]; exact Finset.mem_singleton_self _)
    () () N (slot_amount 0 _) (amount_send m ρ c 0 0) (amount_recv m ρ (fwd c 0) 0 0) O hO (W := W)
    (by rw [payload_send]; exact BI.Entails.refl _)
    (by
      rw [payload_recv]; unfold recvPay slotPts; rw [back_fwd]
      iintro H
      iexists ((slotM 0).view.write (Elt F) fn ((ownM : Memref sig .tc .vmem S1x256 .f32).view.read (Elt F) (ownV m ρ c)) Finset.univ)
      isplitr
      · ipureintro; rw [View.read_write_univ]; rfl
      iexact H)

/-- Copy 1: the row buffer's share `shr 1` goes out, slot 1 of the device `fwd c 1` is rewritten with this device's row. -/
theorem wp_send_1 (K : Dev nD × CK → ℕ) (c n : Dev nD) (hn : n = fwd c 1)
    {hsc : (slotM 1 : Memref sig (Dev.tc n : Thread nD τ).2.kind .vmem S1x256 .f32).view.ref.isScScratch = false}
    {hsrc : (ownM : Memref sig .tc .vmem S1x256 .f32).view.WordExact} {hdst : (slotM 1).view.WordExact}
    {hsem : DmaTarget.Typed .vmem (.dma (recvS 1)) (.remote (Dev.tc n : Thread nD τ) (slotM 1) (.dma (sendS 1)) hsc)}
    {α : Type} {Q : α → sProp 𝕄} {k : PUnit → Prog (TpuEff nD τ sig (Elt F) Λ₀ .tc) α}
    (fn : Buf (Elt F) ((slotM 1).view.loc (fwd c 1 : Thread nD τ))) (W : Waits sig Unit) (O₀ O : CellTallies nD τ sig Unit)
    (hO : O₀ = O + tallyAt (recvCell (fwd c 1) 1) () N) :
    iprop(cellInv ER (sched m ρ) (K (c, some (false, 1))) (sendCell c 1) ∗ cellInv ER (sched m ρ) (K (fwd c 1, some (true, 1))) (recvCell (fwd c 1) 1)
        ∗ ownPts m ρ (shr 1) c ∗ slotPts (fwd c 1) 1 fn
        ∗ owes (c : Thread nD τ) O₀ W
        ∗ dutyTok ER (sendCell c 1) 0 0 ∗ reached ER (sendCell c 1) 0
        ∗ dutyTok ER (recvCell (fwd c 1) 1) 0 0 ∗ reached ER (recvCell (fwd c 1) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM 1) (.dma (sendS 1)) hsc) (.dma (recvS 1)) hsrc hdst hsem) k) Q) := by
  subst hn
  unfold ownPts slotPts
  exact Rounds.wp_send_pointsTo 𝒱₀ ER (sched m ρ) (c : Thread nD τ) none (c' := (fwd c 1 : Thread nD τ)) (src := ownM) (dst := slotM 1) (q := shr 1)
    (fs := ownV m ρ c) (κ₁ := K (c, some (false, 1))) (κ₂ := K (fwd c 1, some (true, 1))) (r₁ := 0) (r₂ := 0) (d₁ := 0) (d₂ := 0) (fd := fn)
    (by rw [duties_send]; exact Finset.mem_singleton_self _) (by rw [duties_recv]; exact Finset.mem_singleton_self _)
    () () N (slot_amount 1 _) (amount_send m ρ c 1 0) (amount_recv m ρ (fwd c 1) 1 0) O hO (W := W)
    (by rw [payload_send]; exact BI.Entails.refl _)
    (by
      rw [payload_recv]; unfold recvPay slotPts; rw [back_fwd]
      iintro H
      iexists ((slotM 1).view.write (Elt F) fn ((ownM : Memref sig .tc .vmem S1x256 .f32).view.read (Elt F) (ownV m ρ c)) Finset.univ)
      isplitr
      · ipureintro; rw [View.read_write_univ]; rfl
      iexact H)

/-- Copy 2: the row buffer's share `shr 2` goes out, slot 2 of the device `fwd c 2` is rewritten with this device's row. -/
theorem wp_send_2 (K : Dev nD × CK → ℕ) (c n : Dev nD) (hn : n = fwd c 2)
    {hsc : (slotM 2 : Memref sig (Dev.tc n : Thread nD τ).2.kind .vmem S1x256 .f32).view.ref.isScScratch = false}
    {hsrc : (ownM : Memref sig .tc .vmem S1x256 .f32).view.WordExact} {hdst : (slotM 2).view.WordExact}
    {hsem : DmaTarget.Typed .vmem (.dma (recvS 2)) (.remote (Dev.tc n : Thread nD τ) (slotM 2) (.dma (sendS 2)) hsc)}
    {α : Type} {Q : α → sProp 𝕄} {k : PUnit → Prog (TpuEff nD τ sig (Elt F) Λ₀ .tc) α}
    (fn : Buf (Elt F) ((slotM 2).view.loc (fwd c 2 : Thread nD τ))) (W : Waits sig Unit) (O₀ O : CellTallies nD τ sig Unit)
    (hO : O₀ = O + tallyAt (recvCell (fwd c 2) 2) () N) :
    iprop(cellInv ER (sched m ρ) (K (c, some (false, 2))) (sendCell c 2) ∗ cellInv ER (sched m ρ) (K (fwd c 2, some (true, 2))) (recvCell (fwd c 2) 2)
        ∗ ownPts m ρ (shr 2) c ∗ slotPts (fwd c 2) 2 fn
        ∗ owes (c : Thread nD τ) O₀ W
        ∗ dutyTok ER (sendCell c 2) 0 0 ∗ reached ER (sendCell c 2) 0
        ∗ dutyTok ER (recvCell (fwd c 2) 2) 0 0 ∗ reached ER (recvCell (fwd c 2) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM 2) (.dma (sendS 2)) hsc) (.dma (recvS 2)) hsrc hdst hsem) k) Q) := by
  subst hn
  unfold ownPts slotPts
  exact Rounds.wp_send_pointsTo 𝒱₀ ER (sched m ρ) (c : Thread nD τ) none (c' := (fwd c 2 : Thread nD τ)) (src := ownM) (dst := slotM 2) (q := shr 2)
    (fs := ownV m ρ c) (κ₁ := K (c, some (false, 2))) (κ₂ := K (fwd c 2, some (true, 2))) (r₁ := 0) (r₂ := 0) (d₁ := 0) (d₂ := 0) (fd := fn)
    (by rw [duties_send]; exact Finset.mem_singleton_self _) (by rw [duties_recv]; exact Finset.mem_singleton_self _)
    () () N (slot_amount 2 _) (amount_send m ρ c 2 0) (amount_recv m ρ (fwd c 2) 2 0) O hO (W := W)
    (by rw [payload_send]; exact BI.Entails.refl _)
    (by
      rw [payload_recv]; unfold recvPay slotPts; rw [back_fwd]
      iintro H
      iexists ((slotM 2).view.write (Elt F) fn ((ownM : Memref sig .tc .vmem S1x256 .f32).view.read (Elt F) (ownV m ρ c)) Finset.univ)
      isplitr
      · ipureintro; rw [View.read_write_univ]; rfl
      iexact H)

end Front

open Front

set_option maxHeartbeats 1600000 in
/-- From the start of the body to the point where the three copies are started, whatever runs afterwards. -/
theorem sound_front (K : Dev nD × CK → ℕ) (c : Dev nD) (Kt : PUnit → sProp 𝕄)
    (k : BitVec 32 → BitVec 32 → Prog (TpuEff nD τ sig (Elt F) Λ₀ .tc) PUnit) :
    iprop(bodyPre m ρ K c ∗ (mid m ρ K c -∗ wp frame (wpE (defs₀ (F := F)) 𝒱₀ c none) Set.univ (k (w24 c) (w44 c)) Kt))
      ⊢ wp frame (wpE (defs₀ (F := F)) 𝒱₀ c none) Set.univ
          (do
            let ⟨d0, v2, v24⟩ : Σ' (d0 : Dev nD) (v2 : BitVec 32), BitVec 32 ← k0_part1 xM (Memref.isWhole_whole _) oM (Memref.isWhole_whole _) ownM (Memref.isWhole_whole _) commM (Memref.isWhole_whole _) cc0_scratch2 cc0_scratch3
            let v44 : BitVec 32 ← k0_part2 xM (Memref.isWhole_whole _) oM (Memref.isWhole_whole _) ownM (Memref.isWhole_whole _) commM (Memref.isWhole_whole _) cc0_scratch2 cc0_scratch3 d0 v2 v24
            k v24 v44) Kt := by
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold w24 w44 w2
  unfold bodyPre ghost payToks positions scratchAny
  simp only [bigSep_fin3, bigSep_CK]
  iintro ⟨⟨⟨⟨#HR, ⟨HatB, HatS0, HatS1, HatS2, HatR0, HatR1, HatR2⟩, ⟨HtB0, HtB1, HtB2⟩, ⟨HtR0, HtR1, HtR2⟩, HtS0, HtS1, HtS2⟩, HcB, ⟨HcR0, HcR1, HcR2⟩, #Hlev,
    ⟨%fo, Hown⟩, ⟨%fc, Hcomm⟩⟩, Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the receive buffer as its three slots
  ihave Hsl := (comm_split c fc) $$ Hcomm
  icases Hsl with ⟨Hs0, Hs1, Hs2⟩
  simp only [dev1_eq c, dev2_eq c, dev3_eq c]
  -- the signal to the device one place on: duty 0 of its barrier cell, with this device's slot 2
  iapply (Rounds.wp_signal 𝒱₀ ER (sched m ρ) (c : Thread nD τ) none (dst := (fwd c 0 : Thread nD τ)) (sem := barS) (r := 0) (κ := K (fwd c 0, none))
      (d := 0) (by rw [duties_bar]; exact Finset.mem_univ _) ((amount_bar m ρ (fwd c 0) 0).trans (by decide)) () (O₁ c) rfl)
    $$ [HO HtB0 Hs2]
  · isplitr; · iapply (records_inv m ρ K (fwd c 0, none)); iexact HR
    isplitl [HO]; · iexact HO
    isplitl [HtB0]; · iexact HtB0
    isplitl [Hs2]
    · rw [payload_bar]; unfold barPay grant; rw [fwd_fwd_rev, rev_0]
      isplitl [Hs2]; · iexists fc; iexact Hs2
      iapply (records_reached m ρ K (c, some (true, 2))); iexact HR
    · iapply (records_reached m ρ K (fwd c 0, none)); iexact HR
  iintro HO
  -- the signal to the device two places on: duty 1, with this device's slot 1
  iapply (Rounds.wp_signal 𝒱₀ ER (sched m ρ) (c : Thread nD τ) none (dst := (fwd c 1 : Thread nD τ)) (sem := barS) (r := 0) (κ := K (fwd c 1, none))
      (d := 1) (by rw [duties_bar]; exact Finset.mem_univ _) ((amount_bar m ρ (fwd c 1) 1).trans (by decide)) () (O₂ c) rfl)
    $$ [HO HtB1 Hs1]
  · isplitr; · iapply (records_inv m ρ K (fwd c 1, none)); iexact HR
    isplitl [HO]; · iexact HO
    isplitl [HtB1]; · iexact HtB1
    isplitl [Hs1]
    · rw [payload_bar]; unfold barPay grant; rw [fwd_fwd_rev, rev_1]
      isplitl [Hs1]; · iexists fc; iexact Hs1
      iapply (records_reached m ρ K (c, some (true, 1))); iexact HR
    · iapply (records_reached m ρ K (fwd c 1, none)); iexact HR
  iintro HO
  -- the signal to the device three places on: duty 2, with this device's slot 0
  iapply (Rounds.wp_signal 𝒱₀ ER (sched m ρ) (c : Thread nD τ) none (dst := (fwd c 2 : Thread nD τ)) (sem := barS) (r := 0) (κ := K (fwd c 2, none))
      (d := 2) (by rw [duties_bar]; exact Finset.mem_univ _) ((amount_bar m ρ (fwd c 2) 2).trans (by decide)) () (O₃ c) rfl)
    $$ [HO HtB2 Hs0]
  · isplitr; · iapply (records_inv m ρ K (fwd c 2, none)); iexact HR
    isplitl [HO]; · iexact HO
    isplitl [HtB2]; · iexact HtB2
    isplitl [Hs0]
    · rw [payload_bar]; unfold barPay grant; rw [fwd_fwd_rev, rev_2]
      isplitl [Hs0]; · iexists fc; iexact Hs0
      iapply (records_reached m ρ K (c, some (true, 0))); iexact HR
    · iapply (records_reached m ρ K (fwd c 2, none)); iexact HR
  iintro HO
  -- the block is read, the row buffer read and overwritten with the block's column sums
  iapply (wp_load 𝒱₀ (c : Thread nD τ) none Set.univ (m := xM) (Finset.subset_univ _)) $$ Hx; iintro Hx
  rw [read_x]
  iapply (wp_load 𝒱₀ (c : Thread nD τ) none Set.univ (m := ownM) (Finset.subset_univ _)) $$ Hown; iintro Hown
  iapply (wp_store 𝒱₀ (c : Thread nD τ) none Set.univ (m := ownM) (r := rRow) (Mk := Finset.univ) (Finset.subset_univ _)) $$ Hown; iintro Hown
  rw [write_own]
  -- the wait for the three other devices' units: each hands over the slot of its receive buffer this device writes
  ihave HIb := (records_inv m ρ K (c, none)) $$ HR
  icases HIb with #HIb
  ihave Hmw := (mayWait_bar c) $$ Hlev
  sl_exec
  ihave Hp := (Entails.of_eq (rest_bar'' m ρ c)) $$ [HatB_pay1]
  · iexact HatB_pay1
  unfold grant
  icases Hp with ⟨⟨⟨%fn2, Hn2⟩, #HrN2⟩, ⟨⟨%fn1, Hn1⟩, #HrN1⟩, ⟨%fn0, Hn0⟩, #HrN0⟩
  -- the row buffer holds this device's sums; it is cut into the three shares that go out and the one that stays
  ihave Hown' := (Entails.of_eq (ownPts_full_eq m ρ c).symm) $$ [Hown]
  · iexact Hown
  ihave Hsh := (own_split m ρ c).1 $$ Hown'
  icases Hsh with ⟨Ho0, Ho1, Ho2, HoK⟩
  -- copy 1: share 1 of the row buffer goes out to slot 1 of the device 2 places on
  iapply (wp_send_1 m ρ K c _ (dev4_eq c) fn1 (insert (SemLoc.reg barS, ()) W) (O₃ c) (O₄ c) rfl) $$ [Ho1 Hn1 HO HtS1 HtR1]
  · isplitr; · iapply (records_inv m ρ K (c, some (false, 1))); iexact HR
    isplitr; · iapply (records_inv m ρ K (fwd c 1, some (true, 1))); iexact HR
    isplitl [Ho1]; · iexact Ho1
    isplitl [Hn1]; · iexact Hn1
    isplitl [HO]; · iexact HO
    isplitl [HtS1]; · iexact HtS1
    isplitr; · iapply (records_reached m ρ K (c, some (false, 1))); iexact HR
    isplitl [HtR1]; · iexact HtR1
    iexact HrN1
  iintro ⟨HcS1, HO⟩
  -- copy 0: share 0 of the row buffer goes out to slot 0 of the device 1 place on
  iapply (wp_send_0 m ρ K c _ (dev5_eq c) fn0 (insert (SemLoc.reg barS, ()) W) (O₄ c) (O₅ c) rfl) $$ [Ho0 Hn0 HO HtS0 HtR0]
  · isplitr; · iapply (records_inv m ρ K (c, some (false, 0))); iexact HR
    isplitr; · iapply (records_inv m ρ K (fwd c 0, some (true, 0))); iexact HR
    isplitl [Ho0]; · iexact Ho0
    isplitl [Hn0]; · iexact Hn0
    isplitl [HO]; · iexact HO
    isplitl [HtS0]; · iexact HtS0
    isplitr; · iapply (records_reached m ρ K (c, some (false, 0))); iexact HR
    isplitl [HtR0]; · iexact HtR0
    iexact HrN0
  iintro ⟨HcS0, HO⟩
  -- copy 2: share 2 of the row buffer goes out to slot 2 of the device 3 places on
  iapply (wp_send_2 m ρ K c _ (dev6_eq c) fn2 (insert (SemLoc.reg barS, ()) W) (O₅ c) (0) (zero_add _).symm) $$ [Ho2 Hn2 HO HtS2 HtR2]
  · isplitr; · iapply (records_inv m ρ K (c, some (false, 2))); iexact HR
    isplitr; · iapply (records_inv m ρ K (fwd c 2, some (true, 2))); iexact HR
    isplitl [Ho2]; · iexact Ho2
    isplitl [Hn2]; · iexact Hn2
    isplitl [HO]; · iexact HO
    isplitl [HtS2]; · iexact HtS2
    isplitr; · iapply (records_reached m ρ K (c, some (false, 2))); iexact HR
    isplitl [HtR2]; · iexact HtR2
    iexact HrN2
  iintro ⟨HcS2, HO⟩
  -- the copies are started: what the device holds now
  iapply Hk
  unfold mid
  simp only [bigSep_fin3, bigSep_BK]
  isplitr; · iexact HR
  isplitl [HatS0 HatS1 HatS2 HatR0 HatR1 HatR2]
  · isplitl [HatS0]; · iexact HatS0
    isplitl [HatS1]; · iexact HatS1
    isplitl [HatS2]; · iexact HatS2
    isplitl [HatR0]; · iexact HatR0
    isplitl [HatR1]; · iexact HatR1
    iexact HatR2
  isplitl [HcR0 HcR1 HcR2]
  · isplitl [HcR0]; · iexact HcR0
    isplitl [HcR1]; · iexact HcR1
    iexact HcR2
  isplitl [HcS0 HcS1 HcS2]
  · isplitl [HcS0]; · iexact HcS0
    isplitl [HcS1]; · iexact HcS1
    iexact HcS2
  isplitl [HO]; · iexists _; iexact HO
  isplitl [HoK]; · iexact HoK
  isplitl [Hx]
  · iexists _; isplitr; · (ipureintro; rfl)
    iexact Hx
  iexists _; iexact Hout

end Cert.Kernel.Proto

end
-- ==== Proof.Bits.BodyBack.lean ====
/-
  The back of one device's body: the three receives, the sum of the four rows, the waits for the three sends, and
  everything put back together.
-/
import proofs.«900608_g7700000000000609_dist_sum_ax0_shard0_i_m512_n256_v7x_i4_f32_1_alg».proof.Proof.Bits.Mid

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Staging -/

omit [FloatOps F] in
/-- Everything indexed by the six own cells, listed: the three send cells, then the three receive cells. -/
private theorem bigSep_own (Φ : Bool × Fin 3 → sProp 𝕄) :
    bigSep Finset.univ Φ = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ

/-- One cell's invariant out of the records. -/
private theorem inv_of_records (K : Dev nD × CK → ℕ) (ck : Dev nD × CK) :
    records m ρ K ⊢ cellInv ER (sched m ρ) (K ck) (kcell ck) := by
  unfold records
  exact Laws.sep_and.trans (and_elimL.trans (bigSep_elim (Finset.mem_univ ck)))

omit [FloatOps F] in
private theorem zero2 : (![0, 0] : Fin 2 → Nat) = fun _ => 0 := funext fun a => by fin_cases a <;> rfl

/-- The whole-row rectangle the body loads and stores through. -/
private abbrev rowR : Rect S1x256 := Rect.unit (s := S1x256) ![0, 0] S1x256.size inb_S1x256_S1x256_0_0

omit [FloatOps F] in
private theorem own_set : (ownM : Memref sig .tc .vmem S1x256 .f32).view.set = Finset.univ := View.set_whole _

/-- What the body stores: the row buffer's sums and the three slots as loaded add up to the device's result. -/
private theorem stored_eq (c : Dev nD) (fo : (cc0_stg1_0 : Ref sig .tc).ty.Contents (Elt F))
    (f0 f1 f2 : (cc0_scratch1 : Ref sig .tc).ty.Contents (Elt F))
    (h0 : (slotM 0).view.read (Elt F) f0 = ownV m ρ (back c 0))
    (h1 : (slotM 1).view.read (Elt F) f1 = ownV m ρ (back c 1))
    (h2 : (slotM 2).view.read (Elt F) f2 = ownV m ρ (back c 2)) :
    ((oM : Memref sig .tc .vmem S1x256 .f32).access rowR : View sig .tc _ _ _).write (Elt F) fo
        (k0_pay2 ((ownM : Memref sig .tc .vmem S1x256 .f32).view.readAt (Elt F) rowR.toLoadRect (ownV m ρ c))
          ((commM : Memref sig .tc .vmem S3x1x256 .f32).view.readAt (Elt F) (slotR 0).toLoadRect f0)
          ((commM : Memref sig .tc .vmem S3x1x256 .f32).view.readAt (Elt F) (slotR 2).toLoadRect f2)
          ((commM : Memref sig .tc .vmem S3x1x256 .f32).view.readAt (Elt F) (slotR 1).toLoadRect f1)) Finset.univ
      = outAt m ρ c :=
  (Memref.write_access_unit_zero_univ (Elt F) cc0_stg1_0 zero2 _ fo _).trans
    (pay2_eq _ _ _ _ (xblk m ρ (back c 0)) (xblk m ρ (back c 1)) (xblk m ρ (back c 2)) (xblk m ρ c)
      (Memref.readAt_unit_zero (Elt F) cc0_scratch0 zero2 _ _)
      ((slot_read0 f0).trans h0) ((slot_read2 f2).trans h2) ((slot_read1 f1).trans h1))

/-- The three slots, each held through the whole receive buffer's location, are the receive buffer whole at some contents. -/
private theorem comm_join_at (c : Dev nD) (f0 f1 f2 : Buf (Elt F) ((c : Thread nD τ).loc cc0_scratch1)) :
    iprop(((commM : Memref sig .tc .vmem S3x1x256 .f32).view.loc (c : Thread nD τ) ↦[(slotM 0).view.set]{fullShare} f0)
        ∗ ((commM : Memref sig .tc .vmem S3x1x256 .f32).view.loc (c : Thread nD τ) ↦[(slotM 1).view.set]{fullShare} f1)
        ∗ ((commM : Memref sig .tc .vmem S3x1x256 .f32).view.loc (c : Thread nD τ) ↦[(slotM 2).view.set]{fullShare} f2))
      ⊢ (iprop(∃ g : Buf (Elt F) ((c : Thread nD τ).loc cc0_scratch1), ((c : Thread nD τ).loc cc0_scratch1) ↦{fullShare} g) : sProp 𝕄) :=
  comm_join c f0 f1 f2

/-! ## The back of the body -/

set_option maxHeartbeats 1600000 in
/-- From the point where the three copies are started to the end of the body. -/
theorem sound_back (K : Dev nD × CK → ℕ) (c : Dev nD) (v24 v44 : BitVec 32) (Kt : PUnit → sProp 𝕄) :
    iprop(mid m ρ K c ∗ (bodyPost m ρ c -∗ Kt ⟨⟩))
      ⊢ wp frame (wpE (defs₀ (F := F)) 𝒱₀ c none) Set.univ (backProg (F := F) v24 v44) Kt := by
  unfold backProg
  rw [k0_part3_eq_skeleton]; unfold k0_part3_skel
  simp only [Prog.lift, Prog.bind_op, Prog.bind_ret, Prog.pure_eq_ret]
  unfold mid
  rw [bigSep_own, bigSep_fin3, bigSep_fin3]
  iintro ⟨⟨#Hrec, ⟨HatS0, HatS1, HatS2, HatR0, HatR1, HatR2⟩, ⟨HcR0, HcR1, HcR2⟩, ⟨HcS0, HcS1, HcS2⟩, ⟨%W, HO⟩, Hown, Hx, ⟨%fo, Hout⟩⟩, Hk⟩
  ihave #HIs0 := (inv_of_records m ρ K (c, some (false, 0))) $$ Hrec
  ihave #HIs1 := (inv_of_records m ρ K (c, some (false, 1))) $$ Hrec
  ihave #HIs2 := (inv_of_records m ρ K (c, some (false, 2))) $$ Hrec
  ihave #HIr0 := (inv_of_records m ρ K (c, some (true, 0))) $$ Hrec
  ihave #HIr1 := (inv_of_records m ρ K (c, some (true, 1))) $$ Hrec
  ihave #HIr2 := (inv_of_records m ρ K (c, some (true, 2))) $$ Hrec
  -- the rows of the devices one and three places before have landed in slots 0 and 2
  sl_exec
  -- its own row, read through the quarter of the row buffer it kept
  unfold ownPts
  iapply (wp_load 𝒱₀ (c : Thread nD τ) none Set.univ (m := ownM) (by rw [own_set]; exact Finset.subset_univ _)) $$ Hown; iintro Hown
  ihave Hp := (Entails.of_eq ((congrArg (fun S => bigSep S fun d => (sched m ρ).payload (recvCell c 0) 0 d) (Finset.sdiff_empty).symm).trans (rest_recv m ρ c 0))) $$ HatR0_pay1
  unfold recvPay
  icases Hp with ⟨%f0, %hf0, Hs0⟩
  ihave Hp := (Entails.of_eq ((congrArg (fun S => bigSep S fun d => (sched m ρ).payload (recvCell c 2) 0 d) (Finset.sdiff_empty).symm).trans (rest_recv m ρ c 2))) $$ HatR2_pay1
  unfold recvPay
  icases Hp with ⟨%f2, %hf2, Hs2⟩
  -- slots 0 and 2, read through the whole receive buffer
  unfold slotPts
  iapply (wp_load 𝒱₀ (c : Thread nD τ) none Set.univ (m := commM) (S := (slotM 0).view.set) (q := fullShare) (f := f0) slot_load_sub0) $$ Hs0; iintro Hs0
  iapply (wp_load 𝒱₀ (c : Thread nD τ) none Set.univ (m := commM) (S := (slotM 2).view.set) (q := fullShare) (f := f2) slot_load_sub2) $$ Hs2; iintro Hs2
  -- the row of the device two places before has landed in slot 1
  sl_exec
  ihave Hp := (Entails.of_eq ((congrArg (fun S => bigSep S fun d => (sched m ρ).payload (recvCell c 1) 0 d) (Finset.sdiff_empty).symm).trans (rest_recv m ρ c 1))) $$ HatR1_pay1
  unfold recvPay
  icases Hp with ⟨%f1, %hf1, Hs1⟩
  unfold slotPts
  iapply (wp_load 𝒱₀ (c : Thread nD τ) none Set.univ (m := commM) (S := (slotM 1).view.set) (q := fullShare) (f := f1) slot_load_sub1) $$ Hs1; iintro Hs1
  -- the result's staging buffer: read (the value is not used), then written whole
  iapply (wp_load 𝒱₀ (c : Thread nD τ) none Set.univ (m := oM) (Finset.subset_univ _)) $$ Hout; iintro Hout
  iapply (wp_store 𝒱₀ (c : Thread nD τ) none Set.univ (m := oM) (r := rowR) (Mk := Finset.univ) (Finset.subset_univ _)) $$ Hout; iintro Hout
  -- the three copies have been read out of the row buffer: its three shares are back
  sl_exec
  ihave Hq0 := (Entails.of_eq ((congrArg (fun S => bigSep S fun d => (sched m ρ).payload (sendCell c 0) 0 d) (Finset.sdiff_empty).symm).trans (rest_send m ρ c 0))) $$ HatS0_pay1
  ihave Hq2 := (Entails.of_eq ((congrArg (fun S => bigSep S fun d => (sched m ρ).payload (sendCell c 2) 0 d) (Finset.sdiff_empty).symm).trans (rest_send m ρ c 2))) $$ HatS2_pay1
  ihave Hq1 := (Entails.of_eq ((congrArg (fun S => bigSep S fun d => (sched m ρ).payload (sendCell c 1) 0 d) (Finset.sdiff_empty).symm).trans (rest_send m ρ c 1))) $$ HatS1_pay1
  -- the six own cells close: their counters, at zero, are the device's again
  imod (Rounds.cell_close ER (sched m ρ) (Set.mem_univ (K (c, some (false, 0)))) (fun h => h) (R := 1) (duties_later m ρ (sendCell c 0))) $$ [HatS0] with HzS0
  · isplitr; · iexact HIs0
    iexact HatS0
  imod (Rounds.cell_close ER (sched m ρ) (Set.mem_univ (K (c, some (false, 1)))) (fun h => h) (R := 1) (duties_later m ρ (sendCell c 1))) $$ [HatS1] with HzS1
  · isplitr; · iexact HIs1
    iexact HatS1
  imod (Rounds.cell_close ER (sched m ρ) (Set.mem_univ (K (c, some (false, 2)))) (fun h => h) (R := 1) (duties_later m ρ (sendCell c 2))) $$ [HatS2] with HzS2
  · isplitr; · iexact HIs2
    iexact HatS2
  imod (Rounds.cell_close ER (sched m ρ) (Set.mem_univ (K (c, some (true, 0)))) (fun h => h) (R := 1) (duties_later m ρ (recvCell c 0))) $$ [HatR0] with HzR0
  · isplitr; · iexact HIr0
    iexact HatR0
  imod (Rounds.cell_close ER (sched m ρ) (Set.mem_univ (K (c, some (true, 1)))) (fun h => h) (R := 1) (duties_later m ρ (recvCell c 1))) $$ [HatR1] with HzR1
  · isplitr; · iexact HIr1
    iexact HatR1
  imod (Rounds.cell_close ER (sched m ρ) (Set.mem_univ (K (c, some (true, 2)))) (fun h => h) (R := 1) (duties_later m ρ (recvCell c 2))) $$ [HatR2] with HzR2
  · isplitr; · iexact HIr2
    iexact HatR2
  rw [wp_ret]; imodintro
  iapply Hk
  unfold bodyPost Φ₁ scratchAny Dat.owesAt Pipeline.owesWithin
  rw [show (dats m ρ 0 c).owed t₀.succ = 0 from rfl, bigSep_own]
  isplitl [Hown Hq0 Hq1 Hq2 Hs0 Hs1 Hs2 HzS0 HzS1 HzS2 HzR0 HzR1 HzR2]
  · isplitl [Hown Hq0 Hq1 Hq2 Hs0 Hs1 Hs2]
    · -- the row buffer whole again, from its four shares; the receive buffer whole again, from its three slots
      isplitl [Hown Hq0 Hq1 Hq2]
      · iexists (ownV m ρ c)
        ihave Hfull := (own_split m ρ c).mpr $$ [Hq0 Hq1 Hq2 Hown]
        · unfold sendPay ownPts
          isplitl [Hq0]; · iexact Hq0
          isplitl [Hq1]; · iexact Hq1
          isplitl [Hq2]; · iexact Hq2
          iexact Hown
        iapply (Entails.of_eq (ownPts_full_eq m ρ c)) $$ Hfull
      · iapply (comm_join_at c f0 f1 f2) $$ [Hs0 Hs1 Hs2]
        isplitl [Hs0]; · iexact Hs0
        isplitl [Hs1]; · iexact Hs1
        iexact Hs2
    · isplitl [HzS0]; · iexact HzS0
      isplitl [HzS1]; · iexact HzS1
      isplitl [HzS2]; · iexact HzS2
      isplitl [HzR0]; · iexact HzR0
      isplitl [HzR1]; · iexact HzR1
      iexact HzR2
  isplitl [HO]
  · iexists (insert (SemLoc.dma (sendS 1), ()) (insert (SemLoc.dma (sendS 2), ()) (insert (SemLoc.dma (sendS 0), ()) (insert (SemLoc.dma ((cc0_scratch3.slice (Rect.unit (s := S3) ![1] S1.size inb_S3_S1_1)).squeeze S_ squeezes_S1_S_).sem, ()) (insert (SemLoc.dma ((cc0_scratch3.slice (Rect.unit (s := S3) ![2] S1.size inb_S3_S1_2)).squeeze S_ squeezes_S1_S_).sem, ()) (insert (SemLoc.dma ((cc0_scratch3.slice (Rect.unit (s := S3) ![0] S1.size inb_S3_S1_0)).squeeze S_ squeezes_S1_S_).sem, ()) W))))))
    isplitr; · ipureintro; exact fun _ _ => Or.inl trivial
    iexact HO
  isplitl [Hx]; · iexact Hx
  iexists _
  isplitr; · ipureintro; exact stored_eq m ρ c fo f0 f1 f2 hf0 hf1 hf2
  iexact Hout

end Cert.Kernel.Proto

end
-- ==== Proof.Bits.Body.lean ====
/-
  One device's body, from the protocol's ghost state to its end: its front, then its back; and that as the body
  obligation of the one grid point.
-/
import proofs.«900608_g7700000000000609_dist_sum_ax0_shard0_i_m512_n256_v7x_i4_f32_1_alg».proof.Proof.Bits.BodyFront
import proofs.«900608_g7700000000000609_dist_sum_ax0_shard0_i_m512_n256_v7x_i4_f32_1_alg».proof.Proof.Bits.BodyBack

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The whole body. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (cc0_body (F := F) xM (Memref.isWhole_whole _) oM (Memref.isWhole_whole _) ownM (Memref.isWhole_whole _) commM (Memref.isWhole_whole _) cc0_scratch2 cc0_scratch3) Kt := by
  rw [body_split]
  iintro ⟨Hpre, Hk⟩
  iapply (sound_front m ρ K c Kt (backProg (F := F)))
  isplitl [Hpre]; · iexact Hpre
  iintro Hmid
  iapply (sound_back m ρ K c (w24 c) (w44 c) Kt)
  isplitl [Hmid]; · iexact Hmid
  iexact Hk

theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) xM (Memref.isWhole_whole _) oM (Memref.isWhole_whole _) ownM (Memref.isWhole_whole _) commM (Memref.isWhole_whole _) cc0_scratch2 cc0_scratch3) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.Kernel.Proto

end
-- ==== Proof.Bits.Launch.lean ====
/-
  The launch: from one device's body to the run of the whole program on the four devices.

  The protocol's ghost state is funded for every device at once: the seven cells of each device in their launch
  state, each owner at round 0 of its cells, and the nine duty tokens of each device's cells. The counters of the
  six scoped semaphores and of the runtime's barrier semaphore, all at zero, open the cells' invariants. The tokens
  then go round the ring to the devices that pay the duties: the barrier token of duty `j` of a device goes to the
  device `j + 1` places before it, the receive token of its slot `k` to the device `k + 1` places before it; the send
  tokens stay. What every device owes at launch, summed over the devices, is each device's own credit: three units
  on its barrier cell and a copy's credit on each of its three receive cells.
-/
import proofs.«900608_g7700000000000609_dist_sum_ax0_shard0_i_m512_n256_v7x_i4_f32_1_alg».proof.Proof.Bits.Body

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- All the protocol's cells: seven a device. -/
def allCells : Finset (GSem nD τ sig) := Finset.univ.map ⟨kcell, kcell_injective⟩

theorem recvS_inj : ∀ k k' : Fin 3, (SemLoc.dma (recvS k) : SemLoc sig) = .dma (recvS k') → k = k' := by decide
theorem sendS_inj : ∀ k k' : Fin 3, (SemLoc.dma (sendS k) : SemLoc sig) = .dma (sendS k') → k = k' := by decide

/-- The duties of a device's own cells: the three of its barrier cell, the one of each receive cell, the one of each
    send cell. -/
abbrev TK : Type := Fin 3 ⊕ (Fin 3 ⊕ Fin 3)
abbrev tokOf : Dev nD × TK → GSem nD τ sig × ℕ × Fin 3
  | (c, .inl j) => (barCell c, 0, j)
  | (c, .inr (.inl k)) => (recvCell c k, 0, 0)
  | (c, .inr (.inr k)) => (sendCell c k, 0, 0)

theorem tokOf_injective : Function.Injective (tokOf : Dev nD × TK → GSem nD τ sig × ℕ × Fin 3) := by
  rintro ⟨c, t⟩ ⟨c', t'⟩ h
  have h1 : c = c' := by
    rcases t with j | k | k <;> rcases t' with j' | k' | k' <;> exact congrArg (fun x : GSem nD τ sig × ℕ × Fin 3 => x.1.1.1) h
  subst h1
  have hs (x y : GSem nD τ sig × ℕ × Fin 3) (e : x = y) : x.1.2 = y.1.2 := congrArg (fun x : GSem nD τ sig × ℕ × Fin 3 => x.1.2) e
  rcases t with j | k | k <;> rcases t' with j' | k' | k'
  · rw [show j = j' from congrArg (fun x : GSem nD τ sig × ℕ × Fin 3 => x.2.2) h]
  · exact absurd (hs _ _ h).symm (recv_ne_bar k')
  · exact absurd (hs _ _ h).symm (send_ne_bar k')
  · exact absurd (hs _ _ h) (recv_ne_bar k)
  · rw [recvS_inj k k' (hs _ _ h)]
  · exact absurd (hs _ _ h).symm (send_ne_recv k' k)
  · exact absurd (hs _ _ h) (send_ne_bar k)
  · exact absurd (hs _ _ h) (send_ne_recv k k')
  · rw [sendS_inj k k' (hs _ _ h)]

def allToks : Finset (GSem nD τ sig × ℕ × Fin 3) := Finset.univ.map ⟨tokOf, tokOf_injective⟩

/-- The launch element: the pipeline library's, and the protocol's. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 3 => dutyTok ER (barCell c) 0 j)
    ∗ (bigSep Finset.univ fun k : Fin 3 => dutyTok ER (recvCell c k) 0 0)
    ∗ (bigSep Finset.univ fun k : Fin 3 => dutyTok ER (sendCell c k) 0 0))

/-- What the launch element deals device `c`. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero open the cells; the tokens go round -/

omit [FloatOps F] in
theorem bigSep_option {α : Type} [Fintype α] (Φ : Option α → sProp 𝕄) :
    bigSep Finset.univ Φ = iprop((bigSep Finset.univ fun a => Φ (some a)) ∗ Φ none) := by
  rw [bigSep_univ_equiv (Equiv.optionEquivSumPUnit.{0, 0} α).symm Φ, bigSep_univ_sum, bigSep_univ_of_subsingleton PUnit.unit.{1}]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [bigSep_option, unscopedSems0_eq]
  exact .rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ positions c ∗ payToks c) ⊢ G' m ρ c := by
  unfold G' ghost
  iintro H; iexists K; iexact H

omit [FloatOps F] in
/-- A family over (device, slot) read at the device `k + 1` places on, slot by slot, is the same family. -/
theorem bigSep_ring (Ψ : Dev nD → Fin 3 → sProp 𝕄) :
    (bigSep Finset.univ fun c : Dev nD => bigSep Finset.univ fun j : Fin 3 => Ψ c j)
      = bigSep Finset.univ fun c : Dev nD => bigSep Finset.univ fun j : Fin 3 => Ψ (fwd c j) j := by
  rw [bigSep_congr (s := Finset.univ) (fun (c : Dev nD) _ => bigSep_fin3 (Ψ c)),
    bigSep_congr (s := Finset.univ) (fun (c : Dev nD) _ => bigSep_fin3 (fun j => Ψ (fwd c j) j)),
    bigSep_sep', bigSep_sep', bigSep_sep', bigSep_sep',
    bigSep_univ_equiv (ring 0) (fun c : Dev nD => Ψ c 0), bigSep_univ_equiv (ring 1) (fun c : Dev nD => Ψ c 1),
    bigSep_univ_equiv (ring 2) (fun c : Dev nD => Ψ c 2)]
  rfl

omit [FloatOps F] in
/-- The tokens dealt around the ring: duty `j` of a barrier cell to the device `j + 1` places before its owner, the
    receive token of slot `k` to the device `k + 1` places before; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_ring (fun (c : Dev nD) (j : Fin 3) => (dutyTok ER (barCell c) 0 j : sProp 𝕄)),
    bigSep_ring (fun (c : Dev nD) (k : Fin 3) => (dutyTok ER (recvCell c k) 0 0 : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions c) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Three units of credit on one cell are its three-unit credit. -/
theorem cred_three (g : GSem nD τ sig) :
    iprop(cred (tallyAt g () 1) ∗ cred (tallyAt g () 1) ∗ cred (tallyAt g () 1)) ⊢ (cred (tallyAt g () 3) : sProp 𝕄) := by
  show _ ⊢ (cred (tallyAt g () (1 + (1 + 1))) : sProp 𝕄)
  rw [← tallyAt_add g () 1 (1 + 1), ← tallyAt_add g () 1 1]
  exact (sep_mono_right (cred_add _ _).2).trans (cred_add _ _).2

omit [FloatOps F] in
/-- What the devices owe at launch, summed over the devices, is for device `c` three units on its barrier cell (one from
    each other device) and a copy's credit on each of its receive cells (slot `k`'s from the device `k + 1` places before). -/
theorem creds (c : Dev nD) :
    (Pipeline.launchCred O₀ c : sProp 𝕄)
      ⊢ iprop(cred (tallyAt (barCell c) () 3) ∗ bigSep Finset.univ fun k : Fin 3 => cred (tallyAt (recvCell c k) () N)) := by
  have hb (j : Fin 3) : (Pipeline.launchCred (fun d : Dev nD => tallyAt (barCell (fwd d j)) () 1) c : sProp 𝕄) ⊢ cred (tallyAt (barCell c) () 1) :=
    Pipeline.launchCred_tallyAt (.reg barS) (fun d => fwd d j) (fun c => back c j) (fun c => fwd_back c j) (fun d => back_fwd d j) () 1 c
  have hr (k : Fin 3) : (Pipeline.launchCred (fun d : Dev nD => tallyAt (recvCell (fwd d k) k) () N) c : sProp 𝕄) ⊢ cred (tallyAt (recvCell c k) () N) :=
    Pipeline.launchCred_tallyAt (.dma (recvS k)) (fun d => fwd d k) (fun c => back c k) (fun c => fwd_back c k) (fun d => back_fwd d k) () N c
  rw [show (O₀ : Dev nD → CellTallies nD τ sig Unit) = fun d => O₁ d + tallyAt (barCell (fwd d 0)) () 1 from rfl, Pipeline.launchCred_add,
    show (O₁ : Dev nD → CellTallies nD τ sig Unit) = fun d => O₂ d + tallyAt (barCell (fwd d 1)) () 1 from rfl, Pipeline.launchCred_add,
    show (O₂ : Dev nD → CellTallies nD τ sig Unit) = fun d => O₃ d + tallyAt (barCell (fwd d 2)) () 1 from rfl, Pipeline.launchCred_add,
    show (O₃ : Dev nD → CellTallies nD τ sig Unit) = fun d => O₄ d + tallyAt (recvCell (fwd d 1) 1) () N from rfl, Pipeline.launchCred_add,
    show (O₄ : Dev nD → CellTallies nD τ sig Unit) = fun d => O₅ d + tallyAt (recvCell (fwd d 0) 0) () N from rfl, Pipeline.launchCred_add,
    show (O₅ : Dev nD → CellTallies nD τ sig Unit) = fun d => tallyAt (recvCell (fwd d 2) 2) () N from rfl, bigSep_fin3]
  iintro ⟨⟨⟨⟨⟨H2r, H0r⟩, H1r⟩, Hb2⟩, Hb1⟩, Hb0⟩
  ihave Hb0 := (hb 0) $$ Hb0
  ihave Hb1 := (hb 1) $$ Hb1
  ihave Hb2 := (hb 2) $$ Hb2
  ihave H0r := (hr 0) $$ H0r
  ihave H1r := (hr 1) $$ H1r
  ihave H2r := (hr 2) $$ H2r
  isplitl [Hb0 Hb1 Hb2]
  · iapply (cred_three (F := F) (barCell c))
    isplitl [Hb0]; · iexact Hb0
    isplitl [Hb1] <;> iassumption
  isplitl [H0r]; · iexact H0r
  isplitl [H1r] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN⟩
  imodintro
  unfold start G'
  isplitl
  · isplitl [HG]; · iexact HG
    isplitl [H3]; · iexact H3
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratchAny Pipeline.ownSems0
  iintro ⟨Hr, Hz⟩
  isplitr; · iempintro
  isplitl [Hz]; · iexact Hz
  iexact Hr

/-- The staging semaphores are no receive semaphore: they may be waited on whatever the device still owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- The windows' arrays after the one grid point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of the program — the four devices meeting on the barrier semaphore, then each sending its row of column
    sums to the other three — terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run, named -/

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the one grid point is what the body left in the result's staging buffer: the block is the
    whole array, written whole. -/
theorem finalA_out (c : Dev nD) : finalA m ρ c (1 : Fin 2) = outAt m ρ c := by
  have hz : (fun a => (win0_1.index t₀) a * main_v1.ty.shape.size a) = fun _ => 0 := funext fun a => by fin_cases a <;> decide
  unfold finalA
  rw [show cfg0.N = (t₀ : Fin cfg0.N).val + 1 from rfl, (dats (F := F) m ρ 0 c).arrAt_succ (1 : Fin 2) t₀, flush0_1 t₀, if_pos rfl]
  exact Memref.write_access_unit_zero_univ (Elt F) main_v1 hz (fun a => by fin_cases a <;> decide) _ _

/-- The block of the argument a device's body reads is the device's whole argument array. -/
theorem xblk_eq (c : Dev nD) : xblk m ρ c = m ((c : Thread nD τ).loc main_arg0) := by
  have hz : (fun a => (win0_0.index (0 : Fin 1)) a * main_arg0.ty.shape.size a) = fun _ => 0 := funext fun a => by fin_cases a <;> decide
  unfold xblk
  exact Memref.read_access_unit_zero (Elt F) main_arg0 hz (fun a => by fin_cases a <;> decide) _

/-- The run with every value named: on each device the result array holds the sum of the device's own row of column
    sums and the rows of the devices one, two and three places before it, and the argument array is unchanged. -/
theorem run_values : θ_run defs (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩) (run_main m ρ)

end Cert.Kernel.Proto

end
-- ==== Proof.Value.lean ====
/-
  The value side of the four-device column sum.

  Each device's block of 512 rows is summed column by column; the four rows of column sums are then added. The
  one-device reference sums all 2048 rows column by column. The 2048 rows are the four blocks of 512 rows, and a
  sum over the extended reals does not depend on the order of its terms, so the two agree, whichever device does
  the adding. This module states the reference's run and frame, reads both sides at a column, and proves the
  equality.
-/
import proofs.«900608_g7700000000000609_dist_sum_ax0_shard0_i_m512_n256_v7x_i4_f32_1_alg».proof.Defs
import proofs.«900608_g7700000000000609_dist_sum_ax0_shard0_i_m512_n256_v7x_i4_f32_1_alg».proof.Proof.Spec
import proofs.«900608_g7700000000000609_dist_sum_ax0_shard0_i_m512_n256_v7x_i4_f32_1_alg».proof.Proof.Gen.ReferenceIdeal
import proofs.«900608_g7700000000000609_dist_sum_ax0_shard0_i_m512_n256_v7x_i4_f32_1_alg».proof.Proof.Gen.Pre_finite_inputs_ReferenceIdeal
import proofs.«900608_g7700000000000609_dist_sum_ax0_shard0_i_m512_n256_v7x_i4_f32_1_alg».proof.Proof.Gen.ReferenceIdeal.Run
import proofs.«900608_g7700000000000609_dist_sum_ax0_shard0_i_m512_n256_v7x_i4_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Value

open Idealize.ShloMosaic Idealize.ShloMosaic.TcCoe Idealize.SL.Sem Idealize.ShloMosaic.ValueIdx
open scoped BigOperators

/-! ## The reference's side -/

/-- The reference's result as a function of its argument array: the column sums of the whole array, as a row. -/
abbrev refV (X : (⟨Cert.ReferenceIdeal.S2048x256, .f32⟩ : BufTy).Contents (Elt Ideal)) :
    (⟨Cert.ReferenceIdeal.S1x256, .f32⟩ : BufTy).Contents (Elt Ideal) :=
  Cert.ReferenceIdeal.Read.val_main_v1 (F := Ideal) X

/-- The reference runs from any memory, ends with its result at `refV` of its argument and the argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v1)
            = refV (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans (Cert.ReferenceIdeal.Read.val_main_v1_eq (F := Ideal) _), (h 0).2⟩)
    (Cert.ReferenceIdeal.Value.run (F := Ideal) m' ρ')

/-- The reference runs and leaves its argument unchanged. -/
theorem frame_ri : Cert.frame_ReferenceIdeal :=
  fun m ρ _ => (θ_run (Cert.ReferenceIdeal.defs (F := Ideal)) _ _).mono (fun _ h c => (h c).2)
    (Cert.ReferenceIdeal.Value.run (F := Ideal) m ρ)

/-! ## Sums over the rows of the blocks -/

/-- The 2048 rows are the rows of four blocks of 512: row `512 · d + i` is row `i` of block `d`. -/
theorem sum_rows_blocks (g : Fin 2048 → EReal) :
    ∑ k : Fin 2048, g k = ∑ d : Fin 4, ∑ i : Fin 512, g ⟨d.val * 512 + i.val, by omega⟩ := by
  rw [← Fintype.sum_prod_type', ← Equiv.sum_comp (finProdFinEquiv (m := 4) (n := 512)) g]
  refine Finset.sum_congr rfl fun p _ => congrArg g (Fin.ext ?_)
  show p.2.val + 512 * p.1.val = p.1.val * 512 + p.2.val
  omega

/-- A device, and the devices one, three and two places before it on the ring, are the four devices: a sum over
    the four devices is the sum of its terms at those four, in that order. -/
theorem sum_ring (f : Fin 4 → EReal) (c : Dev Cert.KernelIdeal.nD) :
    ((f c + f (Cert.KernelIdeal.Spec.back c 0)) + f (Cert.KernelIdeal.Spec.back c 2)) + f (Cert.KernelIdeal.Spec.back c 1)
      = ∑ d : Fin 4, f d := by
  rw [Fin.sum_univ_four]
  fin_cases c
  · show ((f 0 + f 3) + f 1) + f 2 = f 0 + f 1 + f 2 + f 3
    ac_rfl
  · show ((f 1 + f 0) + f 2) + f 3 = f 0 + f 1 + f 2 + f 3
    ac_rfl
  · show ((f 2 + f 1) + f 3) + f 0 = f 0 + f 1 + f 2 + f 3
    ac_rfl
  · show ((f 3 + f 2) + f 0) + f 1 = f 0 + f 1 + f 2 + f 3
    ac_rfl

/-! ## The kernel's arithmetic read at a column -/

/-- A sum over the rows of a [512, 256] block from the zero word, the sum's neutral element, read at column `j`:
    the sum of the block's 512 entries in that column. -/
theorem rowSum_apply (x : FVec Ideal ⟨2, ![512, 256]⟩ .f32) (h : Shape.Reduces ⟨2, ![512, 256]⟩ [0] ⟨1, ![256]⟩)
    (hφ : FKind.Formats .f32) (hacc : (0x00000000#32 : BitVec 32) = 0x00000000#32) (j : Fin 256) :
    (multiReduction (F := Ideal) .add [0] ⟨1, ![256]⟩ x 0x00000000#32 h hφ hacc (ix1 j) : EReal)
      = ∑ i : Fin 512, (x (ix2 i j) : EReal) := by
  refine (Ideal.multiReduction_add_single x 0x00000000#32 h hφ hacc (ix1 j)).trans ?_
  refine Finset.sum_congr rfl fun i _ => congrArg x (funext fun a => Fin.ext ?_)
  match a with
  | ⟨0, _⟩ => rfl
  | ⟨1, _⟩ => rfl

/-- The column sums of a block, at column `j`: the sum of the block's 512 entries in that column. -/
theorem colSum_apply (x : FVec Ideal Cert.KernelIdeal.S512x256 .f32) (j : Fin 256) :
    (Cert.KernelIdeal.Spec.colSum (F := Ideal) x (ix2 (0 : Fin 1) j) : EReal)
      = ∑ i : Fin 512, (x (ix2 i j) : EReal) := by
  unfold Cert.KernelIdeal.Spec.colSum Cert.KernelIdeal.Gen.k0_pay1
  rw [shapeCast_self, shapeCast_self, shapeCast_a_1a_apply]
  exact rowSum_apply x _ _ _ j

/-- What a device stores, at column `j`: its own row's entry plus the three received rows' entries, in the order the
    kernel adds them. -/
theorem total_apply (x0 x1 x2 x3 : FVec Ideal Cert.KernelIdeal.S512x256 .f32) (j : Fin 256) :
    (Cert.KernelIdeal.Spec.total (F := Ideal) x0 x1 x2 x3 (ix2 (0 : Fin 1) j) : EReal)
      = (((Cert.KernelIdeal.Spec.colSum (F := Ideal) x0 (ix2 (0 : Fin 1) j) : EReal)
          + (Cert.KernelIdeal.Spec.colSum (F := Ideal) x1 (ix2 (0 : Fin 1) j) : EReal))
          + (Cert.KernelIdeal.Spec.colSum (F := Ideal) x3 (ix2 (0 : Fin 1) j) : EReal))
          + (Cert.KernelIdeal.Spec.colSum (F := Ideal) x2 (ix2 (0 : Fin 1) j) : EReal) := by
  unfold Cert.KernelIdeal.Spec.total Cert.KernelIdeal.Gen.k0_pay2 Cert.KernelIdeal.Spec.asSlot
  rw [shapeCast_shapeCast, shapeCast_shapeCast, shapeCast_shapeCast]
  rfl

/-! ## A block's entry in the whole array, and the reference read at a column -/

/-- Entry `(i, j)` of block `d` is entry `(512 · d + i, j)` of the whole array. -/
theorem block_apply_ix (X : (⟨⟨2, ![2048, 256]⟩, .f32⟩ : BufTy).Contents (Elt Ideal)) (d : Fin 4) (i : Fin 512) (j : Fin 256) :
    ((Layout.block ⟨2, ![512, 256]⟩ ⟨2, ![2048, 256]⟩ 0 4 d X) (ix2 i j) : EReal)
      = (X (ix2 ⟨d.val * 512 + i.val, by omega⟩ j) : EReal) := by
  rw [Layout.block_apply]
  refine congrArg X (funext fun a => Fin.ext ?_)
  match a with
  | ⟨0, _⟩ => rfl
  | ⟨1, _⟩ => rfl

/-- The reference's result at column `j`: the sum of the whole array's 2048 entries in that column (its initial value
    is zero). -/
theorem ref_apply (X : (⟨⟨2, ![2048, 256]⟩, .f32⟩ : BufTy).Contents (Elt Ideal)) (j : Fin 256) :
    (refV X (ix2 (0 : Fin 1) j) : EReal) = ∑ k : Fin 2048, (X (ix2 k j) : EReal) := by
  show Cert.ReferenceIdeal.Read.val_main_v1 (F := Ideal) X (ix2 (0 : Fin 1) j) = _
  rw [Cert.ReferenceIdeal.Read.val_main_v1_apply, Cert.ReferenceIdeal.Read.val_main_v0_apply,
    Cert.ReferenceIdeal.Read.val_main_cst_apply, Ideal.ofBits_def, Ideal.ofBits_zero_f32, zero_add]
  refine Finset.sum_congr rfl fun k _ => congrArg X (funext fun a => Fin.ext ?_)
  match a with
  | ⟨0, _⟩ => rfl
  | ⟨1, _⟩ => rfl

/-! ## The four rows add up to the reference's row -/

/-- On every device: its own block's column sums plus those of the blocks of the devices one, three and two places
    before it are the column sums of the whole array. -/
theorem total_blocks (X : (⟨⟨2, ![2048, 256]⟩, .f32⟩ : BufTy).Contents (Elt Ideal)) (c : Dev Cert.KernelIdeal.nD) :
    Cert.KernelIdeal.Spec.total (F := Ideal)
        (Layout.block ⟨2, ![512, 256]⟩ ⟨2, ![2048, 256]⟩ 0 4 c X)
        (Layout.block ⟨2, ![512, 256]⟩ ⟨2, ![2048, 256]⟩ 0 4 (Cert.KernelIdeal.Spec.back c 0) X)
        (Layout.block ⟨2, ![512, 256]⟩ ⟨2, ![2048, 256]⟩ 0 4 (Cert.KernelIdeal.Spec.back c 1) X)
        (Layout.block ⟨2, ![512, 256]⟩ ⟨2, ![2048, 256]⟩ 0 4 (Cert.KernelIdeal.Spec.back c 2) X)
      = refV X := by
  funext i
  obtain ⟨u, j, rfl⟩ : ∃ (u : Fin 1) (j : Fin 256), i = ix2 u j := ⟨i 0, i 1, eq_ix2 i⟩
  obtain rfl : u = 0 := Subsingleton.elim _ _
  have hblk : ∀ d : Fin 4,
      (Cert.KernelIdeal.Spec.colSum (F := Ideal) (Layout.block ⟨2, ![512, 256]⟩ ⟨2, ![2048, 256]⟩ 0 4 d X) (ix2 (0 : Fin 1) j) : EReal)
        = ∑ i : Fin 512, (X (ix2 ⟨d.val * 512 + i.val, by omega⟩ j) : EReal) :=
    fun d => (colSum_apply _ j).trans (Finset.sum_congr rfl fun i _ => block_apply_ix X d i j)
  refine (total_apply _ _ _ _ j).trans ?_
  rw [hblk c, hblk (Cert.KernelIdeal.Spec.back c 0), hblk (Cert.KernelIdeal.Spec.back c 2),
    hblk (Cert.KernelIdeal.Spec.back c 1)]
  refine (sum_ring (fun d => ∑ i : Fin 512, (X (ix2 ⟨d.val * 512 + i.val, by omega⟩ j) : EReal)) c).trans ?_
  refine (sum_rows_blocks fun k => (X (ix2 k j) : EReal)).symm.trans ?_
  exact (ref_apply X j).symm

end Cert.Proof.Value

end
-- ==== Proof.lean ====
/-
  The five claims about the four-device column sum.

  The kernel's run, on every device, ends with the result block at the sum of the four devices' rows of column sums and the
  argument block unchanged (the launch over the cross-device protocol). The frames drop the value. At the extended reals the
  four devices' blocks are the four row blocks of the reference's whole array, and the sum of the four rows of column sums
  is the column sum over all 2048 rows, in whatever order the rows are added.
-/
import proofs.«900608_g7700000000000609_dist_sum_ax0_shard0_i_m512_n256_v7x_i4_f32_1_alg».proof.Defs
import proofs.«900608_g7700000000000609_dist_sum_ax0_shard0_i_m512_n256_v7x_i4_f32_1_alg».proof.Proof.Launch
import proofs.«900608_g7700000000000609_dist_sum_ax0_shard0_i_m512_n256_v7x_i4_f32_1_alg».proof.Proof.Bits.Launch
import proofs.«900608_g7700000000000609_dist_sum_ax0_shard0_i_m512_n256_v7x_i4_f32_1_alg».proof.Proof.Value
import proofs.«900608_g7700000000000609_dist_sum_ax0_shard0_i_m512_n256_v7x_i4_f32_1_alg».proof.Proof.Gen.Kernel
import proofs.«900608_g7700000000000609_dist_sum_ax0_shard0_i_m512_n256_v7x_i4_f32_1_alg».proof.Proof.Gen.KernelIdeal
import proofs.«900608_g7700000000000609_dist_sum_ax0_shard0_i_m512_n256_v7x_i4_f32_1_alg».proof.Proof.Gen.ReferenceIdeal
import proofs.«900608_g7700000000000609_dist_sum_ax0_shard0_i_m512_n256_v7x_i4_f32_1_alg».proof.Proof.Gen.Pre_finite_inputs_Kernel
import proofs.«900608_g7700000000000609_dist_sum_ax0_shard0_i_m512_n256_v7x_i4_f32_1_alg».proof.Proof.Gen.Pre_finite_inputs_ReferenceIdeal
import Idealize.ShloMosaic.Adequacy
import Idealize.ShloMosaic.Init

noncomputable section

namespace Cert.Proof

open Idealize.ShloMosaic Idealize.SL.Sem

/-- The word-level program runs to its end and leaves its argument blocks as they were. -/
theorem frame_k : Cert.frame_Kernel := fun m ρ _ =>
  (θ_run Cert.Kernel.defs _ _).mono (fun _ h c => (h c).2) (Cert.Kernel.Proto.run_values (F := Bits) m ρ)

/-- The idealized program runs to its end and leaves its argument blocks as they were. -/
theorem frame_ki : Cert.frame_KernelIdeal := fun m ρ _ =>
  (θ_run Cert.KernelIdeal.defs _ _).mono (fun _ h c => (h c).2) (Cert.KernelIdeal.Proto.run_values (F := Ideal) m ρ)

/-- No operation of the program was rewritten for the ideal reading. -/
theorem preserves : Cert.preserves_Kernel_KernelIdeal := trivial

/-- Both programs end with the column sums of the whole array: the reference on its one device, the kernel on each of the four. -/
theorem algebraic : Cert.algebraic_KernelIdeal_ReferenceIdeal := by
  intro m ρ m' ρ' _ hagree
  refine ⟨Value.refV (m' (((0 : Dev Cert.ReferenceIdeal.nD).tc : Thread Cert.ReferenceIdeal.nD Cert.ReferenceIdeal.τ).loc Cert.ReferenceIdeal.main_arg0)), ?_, Value.ref_run m' ρ'⟩
  refine (θ_run Cert.KernelIdeal.defs _ _).mono (fun _ h c => ⟨(h c).1.trans ?_, (h c).2⟩) (Cert.KernelIdeal.Proto.run_values (F := Ideal) m ρ)
  unfold Cert.KernelIdeal.Proto.outAt
  rw [Cert.KernelIdeal.Proto.xblk_eq, Cert.KernelIdeal.Proto.xblk_eq, Cert.KernelIdeal.Proto.xblk_eq, Cert.KernelIdeal.Proto.xblk_eq,
    hagree c, hagree (Cert.KernelIdeal.Spec.back c 0), hagree (Cert.KernelIdeal.Spec.back c 1), hagree (Cert.KernelIdeal.Spec.back c 2)]
  exact Value.total_blocks _ c

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Value.frame_ri, preserves, algebraic⟩

end Cert.Proof

end
